-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x400000 : Shape := ⟨2, ![2, 400000]⟩
abbrev S400000x64 : Shape := ⟨2, ![400000, 64]⟩
abbrev S128x64 : Shape := ⟨2, ![128, 64]⟩
abbrev S64 : Shape := ⟨1, ![64]⟩
abbrev S321x64 : Shape := ⟨2, ![321, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x64 : S_.BroadcastsInDim S400000x64 (![] : Fin 0 → Fin S400000x64.rank)
  reducesTo_S400000x64_S_d0_1 : S400000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S321x64 : S_.BroadcastsInDim S321x64 (![] : Fin 0 → Fin S321x64.rank)
  reducesTo_S321x64_S_d0_1 : S321x64.ReducesTo [0, 1] S_
  bcast_S_S2x400000 : S_.BroadcastsInDim S2x400000 (![] : Fin 0 → Fin S2x400000.rank)
  reducesTo_S2x400000_S_d0_1 : S2x400000.ReducesTo [0, 1] S_

variable [Facts]

def fn_part3 {F : FTy → Type} [FloatOps F] (main_arg1 : IVec S2x400000 32) (main_arg12 : FVec F S64 .f32) (main_v48 : IVec S_ 1) (main_v49 : FVec F S321x64 .f32) (main_v50 : FVec F S321x64 .f32) : IVec S_ 1 :=
  let main_v51 : IVec S321x64 1 := cmpf .olt main_v49 main_v50
  let main_c_19 : IVec S_ 1 := constantI S_ 1 1#1
  let main_v52 : IVec S_ 1 := (fun x v => Host.reduce IntOp.andi x v reducesTo_S321x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_c_22 : IVec S_ 32 := constantI S_ 32 0#32
  let main_v59 : IVec S2x400000 32 := broadcastInDim S2x400000 ![] bcast_S_S2x400000 main_c_22
  let main_v60 : IVec S2x400000 1 := cmpi .sge main_arg1 main_v59
  let main_c_23 : IVec S_ 1 := constantI S_ 1 1#1
  let main_v61 : IVec S_ 1 := (fun x v => Host.reduce IntOp.andi x v reducesTo_S2x400000_S_d0_1 h_S_) main_v60 main_c_23
  let main_v62 : IVec S_ 1 := andi main_v58 main_v61
  let main_c_24 : IVec S_ 32 := constantI S_ 32 50000#32
  let main_v63 : IVec S2x400000 32 := broadcastInDim S2x400000 ![] bcast_S_S2x400000 main_c_24
  let main_v64 : IVec S2x400000 1 := cmpi .slt main_arg1 main_v63
  let main_c_25 : IVec S_ 1 := constantI S_ 1 1#1
  let main_v65 : IVec S_ 1 := (fun x v => Host.reduce IntOp.andi x v reducesTo_S2x400000_S_d0_1 h_S_) main_v64 main_c_25
  let main_v66 : IVec S_ 1 := andi main_v62 main_v65
  main_v66

def fn_part2 {F : FTy → Type} [FloatOps F] (main_arg1 : IVec S2x400000 32) (main_arg8 : FVec F S64 .f32) (main_arg9 : FVec F S128x64 .f32) (main_arg10 : FVec F S64 .f32) (main_arg11 : FVec F S321x64 .f32) (main_arg12 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S321x64 .f32 := Host.absf main_arg11
  let main_cst_18 : FVec F S_ .f32 := constant S_ .f32 0x7F800000#32
  let main_v50 : FVec F S321x64 .f32 := broadcastInDim S321x64 ![] bcast_S_S321x64 main_cst_18
  fn_part3 (F := F) main_arg1 main_arg12 main_v48 main_v49 main_v50

def fn_part1 {F : FTy → Type} [FloatOps F] (main_arg1 : IVec S2x400000 32) (main_arg5 : FVec F S128x64 .f32) (main_arg6 : FVec F S64 .f32) (main_arg7 : FVec F S128x64 .f32) (main_arg8 : FVec F S64 .f32) (main_arg9 : FVec F S128x64 .f32) (main_arg10 : FVec F S64 .f32) (main_arg11 : FVec F S321x64 .f32) (main_arg12 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S50000x128 .f32) (main_arg1 : IVec S2x400000 32) (main_arg2 : FVec F S400000x64 .f32) (main_arg3 : FVec F S128x64 .f32) (main_arg4 : FVec F S64 .f32) (main_arg5 : FVec F S128x64 .f32) (main_arg6 : FVec F S64 .f32) (main_arg7 : FVec F S128x64 .f32) (main_arg8 : FVec F S64 .f32) (main_arg9 : FVec F S128x64 .f32) (main_arg10 : FVec F S64 .f32) (main_arg11 : FVec F S321x64 .f32) (main_arg12 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x64 .f32 := Host.absf main_arg2
  let main_cst_0 : FVec F S_ .f32 := constant S_ .f32 0x7F800000#32
  let main_v5 : FVec F S400000x64 .f32 := broadcastInDim S400000x64 ![] bcast_S_S400000x64 main_cst_0
  let main_v6 : IVec S400000x64 1 := cmpf .olt main_v4 main_v5
  let main_c_1 : IVec S_ 1 := constantI S_ 1 1#1
  let main_v7 : IVec S_ 1 := (fun x v => Host.reduce IntOp.andi x v reducesTo_S400000x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_arg11 main_arg12 main_v13 main_v16
-- ==== Kernel.lean ====
abbrev S50000x128 : Shape := ⟨2, ![50000, 128]⟩
abbrev S2x400000 : Shape := ⟨2, ![2, 400000]⟩
abbrev S400000x64 : Shape := ⟨2, ![400000, 64]⟩
abbrev S128x64 : Shape := ⟨2, ![128, 64]⟩
abbrev S64 : Shape := ⟨1, ![64]⟩
abbrev S321x64 : Shape := ⟨2, ![321, 64]⟩
abbrev S128x256 : Shape := ⟨2, ![128, 256]⟩
abbrev S256 : Shape := ⟨1, ![256]⟩
abbrev S50000x256 : Shape := ⟨2, ![50000, 256]⟩
abbrev S2000x128 : Shape := ⟨2, ![2000, 128]⟩
abbrev S2000x256 : Shape := ⟨2, ![2000, 256]⟩
abbrev S1x256 : Shape := ⟨2, ![1, 256]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S1 : Shape := ⟨1, ![1]⟩
abbrev S1x1 : Shape := ⟨2, ![1, 1]⟩
abbrev S400000x256 : Shape := ⟨2, ![400000, 256]⟩
abbrev S400000x128 : Shape := ⟨2, ![400000, 128]⟩
abbrev S1600x256 : Shape := ⟨2, ![1600, 256]⟩
abbrev S1600x128 : Shape := ⟨2, ![1600, 128]⟩
abbrev S1600x64 : Shape := ⟨2, ![1600, 64]⟩
abbrev S1600 : Shape := ⟨1, ![1600]⟩
abbrev S1600x1 : Shape := ⟨2, ![1600, 1]⟩
abbrev S1600x321 : Shape := ⟨2, ![1600, 321]⟩
abbrev S1x64 : Shape := ⟨2, ![1, 64]⟩

abbrev nBuf : Space → Nat
  | .hbm => 113
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x400000, .i32⟩
  | .hbm, ⟨2, _⟩ => ⟨S400000x64, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S321x64, .f32⟩
  | .hbm, ⟨12, _⟩ => ⟨S64, .f32⟩
  | .hbm, ⟨13, _⟩ => ⟨S128x256, .f32⟩
  | .hbm, ⟨14, _⟩ => ⟨S256, .f32⟩
  | .hbm, ⟨15, _⟩ => ⟨S50000x256, .f32⟩
  | .hbm, ⟨16, _⟩ => ⟨S1x400000, .i32⟩
  | .hbm, ⟨17, _⟩ => ⟨S400000, .i32⟩
  | .hbm, ⟨18, _⟩ => ⟨S1x400000, .i32⟩
  | .hbm, ⟨19, _⟩ => ⟨S400000, .i32⟩
  | .hbm, ⟨20, _⟩ => ⟨S_, .i32⟩
  | .hbm, ⟨21, _⟩ => ⟨S400000, .i32⟩
  | .hbm, ⟨22, _⟩ => ⟨S400000, .i1⟩
  | .hbm, ⟨23, _⟩ => ⟨S_, .i32⟩
  | .hbm, ⟨24, _⟩ => ⟨S400000, .i32⟩
  | .hbm, ⟨25, _⟩ => ⟨S400000, .i32⟩
  | .hbm, ⟨26, _⟩ => ⟨S400000, .i32⟩
  | .hbm, ⟨27, _⟩ => ⟨S400000x1, .i32⟩
  | .hbm, ⟨28, _⟩ => ⟨S1, .i32⟩
  | .hbm, ⟨29, _⟩ => ⟨S_, .i32⟩
  | .hbm, ⟨30, _⟩ => ⟨S400000x1, .i32⟩
  | .hbm, ⟨31, _⟩ => ⟨S400000x1, .i1⟩
  | .hbm, ⟨32, _⟩ => ⟨S1x1, .i32⟩
  | .hbm, ⟨33, _⟩ => ⟨S400000x1, .i32⟩
  | .hbm, ⟨34, _⟩ => ⟨S400000x1, .i1⟩
  | .hbm, ⟨35, _⟩ => ⟨S400000x1, .i1⟩
  | .hbm, ⟨36, _⟩ => ⟨S_, .i1⟩
  | .hbm, ⟨37, _⟩ => ⟨S400000, .i1⟩
  | .hbm, ⟨38, _⟩ => ⟨S400000x256, .f32⟩
  | .hbm, ⟨39, _⟩ => ⟨S400000x256, .i1⟩
  | .hbm, ⟨40, _⟩ => ⟨S_, .f32⟩
  | .hbm, ⟨41, _⟩ => ⟨S400000x256, .f32⟩
  | .hbm, ⟨42, _⟩ => ⟨S400000x256, .f32⟩
  | .hbm, ⟨43, _⟩ => ⟨S_, .i32⟩
  | .hbm, ⟨44, _⟩ => ⟨S400000, .i32⟩
  | .hbm, ⟨45, _⟩ => ⟨S400000, .i1⟩
  | .hbm, ⟨46, _⟩ => ⟨S_, .i32⟩
  | .hbm, ⟨47, _⟩ => ⟨S400000, .i32⟩
  | .hbm, ⟨48, _⟩ => ⟨S400000, .i32⟩
  | .hbm, ⟨49, _⟩ => ⟨S400000, .i32⟩
  | .hbm, ⟨50, _⟩ => ⟨S400000x1, .i32⟩
  | .hbm, ⟨51, _⟩ => ⟨S1, .i32⟩
  | .hbm, ⟨52, _⟩ => ⟨S_, .i32⟩
  | .hbm, ⟨53, _⟩ => ⟨S400000x1, .i32⟩
  | .hbm, ⟨54, _⟩ => ⟨S400000x1, .i1⟩
  | .hbm, ⟨55, _⟩ => ⟨S1x1, .i32⟩
  | .hbm, ⟨56, _⟩ => ⟨S400000x1, .i32⟩
  | .hbm, ⟨57, _⟩ => ⟨S400000x1, .i1⟩
  | .hbm, ⟨58, _⟩ => ⟨S400000x1, .i1⟩
  | .hbm, ⟨59, _⟩ => ⟨S_, .i1⟩
  | .hbm, ⟨60, _⟩ => ⟨S400000, .i1⟩
  | .hbm, ⟨61, _⟩ => ⟨S400000x256, .f32⟩
  | .hbm, ⟨62, _⟩ => ⟨S400000x256, .i1⟩
  | .hbm, ⟨63, _⟩ => ⟨S_, .f32⟩
  | .hbm, ⟨64, _⟩ => ⟨S400000x256, .f32⟩
  | .hbm, ⟨65, _⟩ => ⟨S400000x256, .f32⟩
  | .hbm, ⟨66, _⟩ => ⟨S_, .i32⟩
  | .hbm, ⟨67, _⟩ => ⟨S400000, .i32⟩
  | .hbm, ⟨68, _⟩ => ⟨S400000, .i1⟩
  | .hbm, ⟨69, _⟩ => ⟨S_, .i32⟩
  | .hbm, ⟨70, _⟩ => ⟨S400000, .i32⟩
  | .hbm, ⟨71, _⟩ => ⟨S400000, .i32⟩
  | .hbm, ⟨72, _⟩ => ⟨S400000, .i32⟩
  | .hbm, ⟨73, _⟩ => ⟨S400000x1, .i32⟩
  | .hbm, ⟨74, _⟩ => ⟨S1, .i32⟩
  | .hbm, ⟨75, _⟩ => ⟨S_, .i32⟩
  | .hbm, ⟨76, _⟩ => ⟨S400000x1, .i32⟩
  | .hbm, ⟨77, _⟩ => ⟨S400000x1, .i1⟩
  | .hbm, ⟨78, _⟩ => ⟨S1x1, .i32⟩
  | .hbm, ⟨79, _⟩ => ⟨S400000x1, .i32⟩
  | .hbm, ⟨80, _⟩ => ⟨S400000x1, .i1⟩
  | .hbm, ⟨81, _⟩ => ⟨S400000x1, .i1⟩
  | .hbm, ⟨82, _⟩ => ⟨S_, .i1⟩
  | .hbm, ⟨83, _⟩ => ⟨S400000, .i1⟩
  | .hbm, ⟨84, _⟩ => ⟨S400000x128, .f32⟩
  | .hbm, ⟨85, _⟩ => ⟨S400000x128, .i1⟩
  | .hbm, ⟨86, _⟩ => ⟨S_, .f32⟩
  | .hbm, ⟨87, _⟩ => ⟨S400000x128, .f32⟩
  | .hbm, ⟨88, _⟩ => ⟨S400000x128, .f32⟩
  | .hbm, ⟨89, _⟩ => ⟨S_, .i32⟩
  | .hbm, ⟨90, _⟩ => ⟨S400000, .i32⟩
  | .hbm, ⟨91, _⟩ => ⟨S400000, .i1⟩
  | .hbm, ⟨92, _⟩ => ⟨S_, .i32⟩
  | .hbm, ⟨93, _⟩ => ⟨S400000, .i32⟩
  | .hbm, ⟨94, _⟩ => ⟨S400000, .i32⟩
  | .hbm, ⟨95, _⟩ => ⟨S400000, .i32⟩
  | .hbm, ⟨96, _⟩ => ⟨S400000x1, .i32⟩
  | .hbm, ⟨97, _⟩ => ⟨S1, .i32⟩
  | .hbm, ⟨98, _⟩ => ⟨S_, .i32⟩
  | .hbm, ⟨99, _⟩ => ⟨S400000x1, .i32⟩
  | .hbm, ⟨100, _⟩ => ⟨S400000x1, .i1⟩
  | .hbm, ⟨101, _⟩ => ⟨S1x1, .i32⟩
  | .hbm, ⟨102, _⟩ => ⟨S400000x1, .i32⟩
  | .hbm, ⟨103, _⟩ => ⟨S400000x1, .i1⟩
  | .hbm, ⟨104, _⟩ => ⟨S400000x1, .i1⟩
  | .hbm, ⟨105, _⟩ => ⟨S_, .i1⟩
  | .hbm, ⟨106, _⟩ => ⟨S400000, .i1⟩
  | .hbm, ⟨107, _⟩ => ⟨S400000x128, .f32⟩
  | .hbm, ⟨108, _⟩ => ⟨S400000x128, .i1⟩
  | .hbm, ⟨109, _⟩ => ⟨S_, .f32⟩
  | .hbm, ⟨110, _⟩ => ⟨S400000x128, .f32⟩
  | .hbm, ⟨111, _⟩ => ⟨S400000x128, .f32⟩
  | .hbm, ⟨112, _⟩ => ⟨S400000x64, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S256, .f32⟩
  | .local _ .vmem, ⟨4, _⟩ => ⟨S2000x256, .f32⟩
  | .local _ .vmem, ⟨5, _⟩ => ⟨S2000x256, .f32⟩
  | .local _ .vmem, ⟨6, _⟩ => ⟨S1600x256, .f32⟩
  | .local _ .vmem, ⟨7, _⟩ => ⟨S1600x256, .f32⟩
  | .local _ .vmem, ⟨8, _⟩ => ⟨S1600x256, .f32⟩
  | .local _ .vmem, ⟨9, _⟩ => ⟨S1600x256, .f32⟩
  | .local _ .vmem, ⟨10, _⟩ => ⟨S1600x128, .f32⟩
  | .local _ .vmem, ⟨11, _⟩ => ⟨S1600x128, .f32⟩
  | .local _ .vmem, ⟨12, _⟩ => ⟨S1600x128, .f32⟩
  | .local _ .vmem, ⟨13, _⟩ => ⟨S1600x128, .f32⟩
  | .local _ .vmem, ⟨14, _⟩ => ⟨S1600x64, .f32⟩
  | .local _ .vmem, ⟨15, _⟩ => ⟨S1600x64, .f32⟩
  | .local _ .vmem, ⟨16, _⟩ => ⟨S321x64, .f32⟩
  | .local _ .vmem, ⟨17, _⟩ => ⟨S64, .f32⟩
  | .local _ .vmem, ⟨18, _⟩ => ⟨S1600x64, .f32⟩
  | .local _ .vmem, ⟨19, _⟩ => ⟨S1600x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v7 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v8 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v9 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_v14 : Ref sig .tc := ⟨.hbm, 108, rfl⟩
abbrev main_call3_cst : Ref sig .tc := ⟨.hbm, 109, rfl⟩
abbrev main_call3_v15 : Ref sig .tc := ⟨.hbm, 110, rfl⟩
abbrev main_v10 : Ref sig .tc := ⟨.hbm, 111, rfl⟩
abbrev main_v11 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1600x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1600x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1600x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1600x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1600x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S321x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1600x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  concatenates_S128x64_S128x64_S128x64_S128x64_S128x256_d1 : Shape.Concatenates [S128x64, S128x64, S128x64, S128x64] S128x256 1
  concatenates_S64_S64_S64_S64_S256_d0 : Shape.Concatenates [S64, S64, S64, S64] S256 0
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x256_0 : S400000.BroadcastsInDim S400000x256 (![0] : Fin 1 → Fin S400000x256.rank)
  bcast_S_S400000x256 : S_.BroadcastsInDim S400000x256 (![] : Fin 0 → Fin S400000x256.rank)
  bcast_S400000_S400000x128_0 : S400000.BroadcastsInDim S400000x128 (![0] : Fin 1 → Fin S400000x128.rank)
  bcast_S_S400000x128 : S_.BroadcastsInDim S400000x128 (![] : Fin 0 → Fin S400000x128.rank)
  inb_S1600x256_S1600x256_0_0 : ∀ a, (![0, 0] : Fin 2 → Nat) a + S1600x256.size a ≤ S1600x256.size a
  h_S1600x256 : 0 < S1600x256.numel
  shapeCasts_S1600x256_S1600x256 : S1600x256.ShapeCasts S1600x256
  slices_S1600x256_o0_0_S1600x64 : S1600x256.Slices ![0, 0] S1600x64
  slices_S1600x256_o0_128_S1600x64 : S1600x256.Slices ![0, 128] S1600x64
  slices_S1600x256_o0_192_S1600x64 : S1600x256.Slices ![0, 192] S1600x64
  slices_S1600x256_o0_64_S1600x64 : S1600x256.Slices ![0, 64] S1600x64
  concatenates_S1600x64_S1600x64_S1600x64_S1600x64_S1600x256_d1 : Shape.Concatenates [S1600x64, S1600x64, S1600x64, S1600x64] S1600x256 1
  inb_S1600x128_S1600x128_0_0 : ∀ a, (![0, 0] : Fin 2 → Nat) a + S1600x128.size a ≤ S1600x128.size a
  h_S1600x128 : 0 < S1600x128.numel
  shapeCasts_S1600x128_S1600x128 : S1600x128.ShapeCasts S1600x128
  reduces_S1600x128_S1600 : S1600x128.Reduces [1] S1600
  shapeCasts_S1600_S1600x1 : S1600.ShapeCasts S1600x1
  inb_S1600x64_S1600x64_0_0 : ∀ a, (![0, 0] : Fin 2 → Nat) a + S1600x64.size a ≤ S1600x64.size a
  h_S1600x64 : 0 < S1600x64.numel
  concatenates_S1600x256_S1600x1_S1600x64_S1600x321_d1 : Shape.Concatenates [S1600x256, S1600x1, S1600x64] S1600x321 1
  inb_S321x64_S321x64_0_0 : ∀ a, (![0, 0] : Fin 2 → Nat) a + S321x64.size a ≤ S321x64.size a
  h_S321x64 : 0 < S321x64.numel
  inb_S64_S64_0 : ∀ a, (![0] : Fin 1 → Nat) a + S64.size a ≤ S64.size a
  h_S64 : 0 < S64.numel
  shapeCasts_S64_S1x64 : S64.ShapeCasts S1x64
  broadcasts_S1x64_S1600x64 : S1x64.Broadcasts S1600x64
  dot_S2000x128_S128x256_S2000x256_1_0_0_1_n_n_wf : DotDims.WF S2000x128 S128x256 S2000x256 [1] [0] [0] [1] [] []
  gather_S50000x256_S400000x1_S400000x256_1_0_n_n_0_1_1256_wf : GatherDims.WF S50000x256 S400000x1 S400000x256 [1] [0] [] [0] [] 1 ![1, 256]
  gather_S50000x128_S400000x1_S400000x128_1_0_n_n_0_1_1128_wf : GatherDims.WF S50000x128 S400000x1 S400000x128 [1] [0] [] [0] [] 1 ![1, 128]
  dot_S1600x321_S321x64_S1600x64_1_0_0_1_n_n_wf : DotDims.WF S1600x321 S321x64 S1600x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1600x256.size a ≤ S400000x256.size a
  hwx1_0 : ∀ i : grid1.Coords, EltTy.bits .f32 = 32 ∨ (Rect.block (s := S400000x256) S1600x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1600x256.size a ≤ S400000x256.size a
  hwx1_1 : ∀ i : grid1.Coords, EltTy.bits .f32 = 32 ∨ (Rect.block (s := S400000x256) S1600x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1600x128.size a ≤ S400000x128.size a
  hwx1_2 : ∀ i : grid1.Coords, EltTy.bits .f32 = 32 ∨ (Rect.block (s := S400000x128) S1600x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1600x128.size a ≤ S400000x128.size a
  hwx1_3 : ∀ i : grid1.Coords, EltTy.bits .f32 = 32 ∨ (Rect.block (s := S400000x128) S1600x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1600x64.size a ≤ S400000x64.size a
  hwx1_4 : ∀ i : grid1.Coords, EltTy.bits .f32 = 32 ∨ (Rect.block (s := S400000x64) S1600x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S321x64.size a ≤ S321x64.size a
  hwx1_5 : ∀ i : grid1.Coords, EltTy.bits .f32 = 32 ∨ (Rect.block (s := S321x64) S321x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1600x64.size a ≤ S400000x64.size a
  hwx1_7 : ∀ i : grid1.Coords, EltTy.bits .f32 = 32 ∨ (Rect.block (s := S400000x64) S1600x64.size (cc1_transform_7 i) (hinb1_7 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S1600x321_S321x64_S1600x64_1_0_0_1_n_n : DotDims S1600x321 S321x64 S1600x64 where
  lhsContracting := [1]
  rhsContracting := [0]
  lhsNonContracting := [0]
  rhsNonContracting := [1]
  lhsBatch := []
  rhsBatch := []
  wf := dot_S1600x321_S321x64_S1600x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S1600x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1600x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1600x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1600x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S1600x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S321x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11) S1600x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x400000 : Shape := ⟨2, ![2, 400000]⟩
abbrev S400000x64 : Shape := ⟨2, ![400000, 64]⟩
abbrev S128x64 : Shape := ⟨2, ![128, 64]⟩
abbrev S64 : Shape := ⟨1, ![64]⟩
abbrev S321x64 : Shape := ⟨2, ![321, 64]⟩
abbrev S50000x64 : Shape := ⟨2, ![50000, 64]⟩
abbrev S1x64 : Shape := ⟨2, ![1, 64]⟩
abbrev S_ : Shape := ⟨0, ![]⟩
abbrev S1x400000 : Shape := ⟨2, ![1, 400000]⟩
abbrev S400000 : Shape := ⟨1, ![400000]⟩
abbrev S400000x1 : Shape := ⟨2, ![400000, 1]⟩
abbrev S400000x256 : Shape := ⟨2, ![400000, 256]⟩
abbrev S400000x128 : Shape := ⟨2, ![400000, 128]⟩
abbrev S400000x321 : Shape := ⟨2, ![400000, 321]⟩

abbrev nBuf : Space → Nat
  | .hbm => 149
  | .vmem => 0
  | .smem => 0
  | _ => 0

abbrev hbmTy0_0 (i : Nat) : BufTy := match i % 128 with
  | 0 => ⟨S50000x128, .f32⟩
  | 1 => ⟨S2x400000, .i32⟩
  | 2 => ⟨S400000x64, .f32⟩
  | 3 => ⟨S128x64, .f32⟩
  | 4 => ⟨S64, .f32⟩
  | 5 => ⟨S128x64, .f32⟩
  | 6 => ⟨S64, .f32⟩
  | 7 => ⟨S128x64, .f32⟩
  | 8 => ⟨S64, .f32⟩
  | 9 => ⟨S128x64, .f32⟩
  | 10 => ⟨S64, .f32⟩
  | 11 => ⟨S321x64, .f32⟩
  | 12 => ⟨S64, .f32⟩
  | 13 => ⟨S50000x64, .f32⟩
  | 14 => ⟨S1x64, .f32⟩
  | 15 => ⟨S50000x64, .f32⟩
  | 16 => ⟨S50000x64, .f32⟩
  | 17 => ⟨S_, .f32⟩
  | 18 => ⟨S50000x64, .f32⟩
  | 19 => ⟨S50000x64, .f32⟩
  | 20 => ⟨S50000x64, .f32⟩
  | 21 => ⟨S1x64, .f32⟩
  | 22 => ⟨S50000x64, .f32⟩
  | 23 => ⟨S50000x64, .f32⟩
  | 24 => ⟨S_, .f32⟩
  | 25 => ⟨S50000x64, .f32⟩
  | 26 => ⟨S50000x64, .f32⟩
  | 27 => ⟨S50000x64, .f32⟩
  | 28 => ⟨S1x64, .f32⟩
  | 29 => ⟨S50000x64, .f32⟩
  | 30 => ⟨S50000x64, .f32⟩
  | 31 => ⟨S_, .f32⟩
  | 32 => ⟨S50000x64, .f32⟩
  | 33 => ⟨S50000x64, .f32⟩
  | 34 => ⟨S50000x64, .f32⟩
  | 35 => ⟨S1x64, .f32⟩
  | 36 => ⟨S50000x64, .f32⟩
  | 37 => ⟨S50000x64, .f32⟩
  | 38 => ⟨S_, .f32⟩
  | 39 => ⟨S50000x64, .f32⟩
  | 40 => ⟨S50000x64, .f32⟩
  | 41 => ⟨S1x400000, .i32⟩
  | 42 => ⟨S400000, .i32⟩
  | 43 => ⟨S1x400000, .i32⟩
  | 44 => ⟨S400000, .i32⟩
  | 45 => ⟨S_, .i32⟩
  | 46 => ⟨S400000, .i32⟩
  | 47 => ⟨S400000, .i1⟩
  | 48 => ⟨S_, .i32⟩
  | 49 => ⟨S400000, .i32⟩
  | 50 => ⟨S400000, .i32⟩
  | 51 => ⟨S400000, .i32⟩
  | 52 => ⟨S400000x1, .i32⟩
  | 53 => ⟨S400000x64, .f32⟩
  | 54 => ⟨S_, .i32⟩
  | 55 => ⟨S400000, .i32⟩
  | 56 => ⟨S400000, .i1⟩
  | 57 => ⟨S_, .i32⟩
  | 58 => ⟨S400000, .i32⟩
  | 59 => ⟨S400000, .i32⟩
  | 60 => ⟨S400000, .i32⟩
  | 61 => ⟨S400000x1, .i32⟩
  | 62 => ⟨S400000x64, .f32⟩
  | 63 => ⟨S_, .i32⟩
  | 64 => ⟨S400000, .i32⟩
  | 65 => ⟨S400000, .i1⟩
  | 66 => ⟨S_, .i32⟩
  | 67 => ⟨S400000, .i32⟩
  | 68 => ⟨S400000, .i32⟩
  | 69 => ⟨S400000, .i32⟩
  | 70 => ⟨S400000x1, .i32⟩
  | 71 => ⟨S400000x64, .f32⟩
  | 72 => ⟨S_, .i32⟩
  | 73 => ⟨S400000, .i32⟩
  | 74 => ⟨S400000, .i1⟩
  | 75 => ⟨S_, .i32⟩
  | 76 => ⟨S400000, .i32⟩
  | 77 => ⟨S400000, .i32⟩
  | 78 => ⟨S400000, .i32⟩
  | 79 => ⟨S400000x1, .i32⟩
  | 80 => ⟨S400000x64, .f32⟩
  | 81 => ⟨S400000x64, .f32⟩
  | 82 => ⟨S_, .i32⟩
  | 83 => ⟨S400000, .i32⟩
  | 84 => ⟨S400000, .i1⟩
  | 85 => ⟨S_, .i32⟩
  | 86 => ⟨S400000, .i32⟩
  | 87 => ⟨S400000, .i32⟩
  | 88 => ⟨S400000, .i32⟩
  | 89 => ⟨S400000x1, .i32⟩
  | 90 => ⟨S400000x64, .f32⟩
  | 91 => ⟨S_, .i32⟩
  | 92 => ⟨S400000, .i32⟩
  | 93 => ⟨S400000, .i1⟩
  | 94 => ⟨S_, .i32⟩
  | 95 => ⟨S400000, .i32⟩
  | 96 => ⟨S400000, .i32⟩
  | 97 => ⟨S400000, .i32⟩
  | 98 => ⟨S400000x1, .i32⟩
  | 99 => ⟨S400000x64, .f32⟩
  | 100 => ⟨S400000x64, .f32⟩
  | 101 => ⟨S400000x64, .f32⟩
  | 102 => ⟨S400000x256, .f32⟩
  | 103 => ⟨S_, .i32⟩
  | 104 => ⟨S400000, .i32⟩
  | 105 => ⟨S400000, .i1⟩
  | 106 => ⟨S_, .i32⟩
  | 107 => ⟨S400000, .i32⟩
  | 108 => ⟨S400000, .i32⟩
  | 109 => ⟨S400000, .i32⟩
  | 110 => ⟨S400000x1, .i32⟩
  | 111 => ⟨S400000x128, .f32⟩
  | 112 => ⟨S_, .i32⟩
  | 113 => ⟨S400000, .i32⟩
  | 114 => ⟨S400000, .i1⟩
  | 115 => ⟨S_, .i32⟩
  | 116 => ⟨S400000, .i32⟩
  | 117 => ⟨S400000, .i32⟩
  | 118 => ⟨S400000, .i32⟩
  | 119 => ⟨S400000x1, .i32⟩
  | 120 => ⟨S400000x128, .f32⟩
  | 121 => ⟨S400000x128, .f32⟩
  | 122 => ⟨S_, .f32⟩
  | 123 => ⟨S400000, .f32⟩
  | 124 => ⟨S400000, .f32⟩
  | 125 => ⟨S_, .f32⟩
  | 126 => ⟨S400000, .f32⟩
  | 127 => ⟨S400000, .f32⟩
  | _ => ⟨S50000x128, .f32⟩

abbrev hbmTy0_1 (i : Nat) : BufTy := match i % 128 with
  | 0 => ⟨S400000x128, .f32⟩
  | 1 => ⟨S_, .f32⟩
  | 2 => ⟨S400000, .f32⟩
  | 3 => ⟨S400000, .f32⟩
  | 4 => ⟨S_, .f32⟩
  | 5 => ⟨S400000, .f32⟩
  | 6 => ⟨S400000, .f32⟩
  | 7 => ⟨S400000x128, .f32⟩
  | 8 => ⟨S_, .f32⟩
  | 9 => ⟨S400000, .f32⟩
  | 10 => ⟨S400000, .f32⟩
  | 11 => ⟨S400000, .f32⟩
  | 12 => ⟨S400000x1, .f32⟩
  | 13 => ⟨S400000x321, .f32⟩
  | 14 => ⟨S400000x64, .f32⟩
  | 15 => ⟨S1x64, .f32⟩
  | 16 => ⟨S400000x64, .f32⟩
  | 17 => ⟨S400000x64, .f32⟩
  | 18 => ⟨S_, .f32⟩
  | 19 => ⟨S400000x64, .f32⟩
  | 20 => ⟨S400000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_cst : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call2_cst : Ref sig .tc := ⟨.hbm, 31, rfl⟩
abbrev main_call2_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call3_cst : Ref sig .tc := ⟨.hbm, 38, rfl⟩
abbrev main_call3_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c : Ref sig .tc := ⟨.hbm, 45, rfl⟩
abbrev main_v24 : Ref sig .tc := ⟨.hbm, 46, rfl⟩
abbrev main_v25 : Ref sig .tc := ⟨.hbm, 47, rfl⟩
abbrev main_c_0 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_1 : Ref sig .tc := ⟨.hbm, 54, rfl⟩
abbrev main_v31 : Ref sig .tc := ⟨.hbm, 55, rfl⟩
abbrev main_v32 : Ref sig .tc := ⟨.hbm, 56, rfl⟩
abbrev main_c_2 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_3 : Ref sig .tc := ⟨.hbm, 63, rfl⟩
abbrev main_v38 : Ref sig .tc := ⟨.hbm, 64, rfl⟩
abbrev main_v39 : Ref sig .tc := ⟨.hbm, 65, rfl⟩
abbrev main_c_4 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_5 : Ref sig .tc := ⟨.hbm, 72, rfl⟩
abbrev main_v45 : Ref sig .tc := ⟨.hbm, 73, rfl⟩
abbrev main_v46 : Ref sig .tc := ⟨.hbm, 74, rfl⟩
abbrev main_c_6 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_7 : Ref sig .tc := ⟨.hbm, 82, rfl⟩
abbrev main_v53 : Ref sig .tc := ⟨.hbm, 83, rfl⟩
abbrev main_v54 : Ref sig .tc := ⟨.hbm, 84, rfl⟩
abbrev main_c_8 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_9 : Ref sig .tc := ⟨.hbm, 91, rfl⟩
abbrev main_v60 : Ref sig .tc := ⟨.hbm, 92, rfl⟩
abbrev main_v61 : Ref sig .tc := ⟨.hbm, 93, rfl⟩
abbrev main_c_10 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_11 : Ref sig .tc := ⟨.hbm, 103, rfl⟩
abbrev main_v70 : Ref sig .tc := ⟨.hbm, 104, rfl⟩
abbrev main_v71 : Ref sig .tc := ⟨.hbm, 105, rfl⟩
abbrev main_c_12 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_13 : Ref sig .tc := ⟨.hbm, 112, rfl⟩
abbrev main_v77 : Ref sig .tc := ⟨.hbm, 113, rfl⟩
abbrev main_v78 : Ref sig .tc := ⟨.hbm, 114, rfl⟩
abbrev main_c_14 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_call4_v0 : Ref sig .tc := ⟨.hbm, 121, rfl⟩
abbrev main_call4_cst : Ref sig .tc := ⟨.hbm, 122, rfl⟩
abbrev main_call4_v1 : Ref sig .tc := ⟨.hbm, 123, rfl⟩
abbrev main_v84 : Ref sig .tc := ⟨.hbm, 124, rfl⟩
abbrev main_cst : Ref sig .tc := ⟨.hbm, 125, rfl⟩
abbrev main_v85 : Ref sig .tc := ⟨.hbm, 126, rfl⟩
abbrev main_v86 : Ref sig .tc := ⟨.hbm, 127, rfl⟩
abbrev main_call5_v0 : Ref sig .tc := ⟨.hbm, 128, rfl⟩
abbrev main_call5_cst : Ref sig .tc := ⟨.hbm, 129, rfl⟩
abbrev main_call5_v1 : Ref sig .tc := ⟨.hbm, 130, rfl⟩
abbrev main_v87 : Ref sig .tc := ⟨.hbm, 131, rfl⟩
abbrev main_cst_15 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_16 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_call6_cst : Ref sig .tc := ⟨.hbm, 146, rfl⟩
abbrev main_call6_v0 : Ref sig .tc := ⟨.hbm, 147, rfl⟩
abbrev main_v100 : Ref sig .tc := ⟨.hbm, 148, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x64_S400000x64_S400000x64_S400000x64_S400000x256_d1 : Shape.Concatenates [S400000x64, S400000x64, S400000x64, S400000x64] S400000x256 1
  reducesTo_S400000x128_S400000_d1 : S400000x128.ReducesTo [1] S400000
  h_S_ : 0 < S_.numel
  concatenates_S400000x256_S400000x1_S400000x64_S400000x321_d1 : Shape.Concatenates [S400000x256, S400000x1, S400000x64] S400000x321 1
  bcast_S1x64_S400000x64_0_1 : S1x64.BroadcastsInDim S400000x64 (![0, 1] : Fin 2 → Fin S400000x64.rank)
  bcast_S_S400000x64 : S_.BroadcastsInDim S400000x64 (![] : Fin 0 → Fin S400000x64.rank)
  dot_S50000x128_S128x64_S50000x64_1_0_0_1_n_n_wf : DotDims.WF S50000x128 S128x64 S50000x64 [1] [0] [0] [1] [] []
  gather_S50000x64_S400000x1_S400000x64_1_0_n_n_0_1_164_wf : GatherDims.WF S50000x64 S400000x1 S400000x64 [1] [0] [] [0] [] 1 ![1, 64]
  gather_S50000x128_S400000x1_S400000x128_1_0_n_n_0_1_1128_wf : GatherDims.WF S50000x128 S400000x1 S400000x128 [1] [0] [] [0] [] 1 ![1, 128]
  dot_S400000x321_S321x64_S400000x64_1_0_0_1_n_n_wf : DotDims.WF S400000x321 S321x64 S400000x64 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x321_S321x64_S400000x64_1_0_0_1_n_n : DotDims S400000x321 S321x64 S400000x64 where
  lhsContracting := [1]
  rhsContracting := [0]
  lhsNonContracting := [0]
  rhsNonContracting := [1]
  lhsBatch := []
  rhsBatch := []
  wf := dot_S400000x321_S321x64_S400000x64_1_0_0_1_n_n_wf

class Facts : Prop extends Facts₀ where

variable [Facts]
-- ==== Proof.NodeProjRegionW.lean ====
/-
  The node projection (the first pallas_call) as a pipeline region, at any float instance and at any contents `V` of
  the buffers on entry.  A grid point `t` of 25 stages rows `2000 t … 2000 t + 1999` of the node features, the whole
  concatenated weight matrix and the whole concatenated bias, and the body stores one whole 2000 × 256 block:
  `max (x_blk · W + b, 0)`.  Stated here: what each window's staging buffer holds before and after the body at a
  point, the body's triple, and the pipeline's body obligation.  Nothing here reads a value: the block the body
  leaves is the payload of its one store, by name.
-/
import proofs.«405648_j75453985456536_1_alg».proof.Proof.Gen.Kernel.Launch
import proofs.«405648_j75453985456536_1_alg».proof.Proof.Gen.Kernel.Skeleton
import proofs.«405648_j75453985456536_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or not
    (a point that does not fetch it has not moved its index): the row block of the features, -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- the weights (one block, the whole matrix), -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- and the bias (one block, the whole vector). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole staging buffer -/

abbrev rx0 : Rect S2000x128 := Rect.unit (s := S2000x128) ![0, 0] S2000x128.size inb_S2000x128_S2000x128_0_0
abbrev rw0 : Rect S128x256 := Rect.unit (s := S128x256) ![0, 0] S128x256.size inb_S128x256_S128x256_0_0
abbrev rb0 : Rect S256 := Rect.unit (s := S256) ![0] S256.size inb_S256_S256_0
abbrev ro0 : Rect S2000x256 := Rect.unit (s := S2000x256) ![0, 0] S2000x256.size inb_S2000x256_S2000x256_0_0

/-- The output block after the body, from the three input blocks: the one store's payload laid over the buffer. -/
def out0_3 (x0 : Vec F S2000x128 .f32) (x1 : Vec F S128x256 .f32) (x2 : Vec F S256 .f32) : Vec F S2000x256 .f32 :=
  View.canon [⟨ro0, k0_pay1 (View.ld x0 rx0) (View.ld x1 rw0) (View.ld x2 rb0)⟩]

/-- The one store covers the buffer. -/
theorem cover0_3 (p0 : Vec F S2000x256 .f32) (y : S2000x256.Idx) :
    ∃ pc ∈ ([⟨ro0, p0⟩] : List (View.Piece (Elt F) S2000x256 .f32)), y ∈ pc.1.set :=
  View.cover_of_tiled [⟨ro0, p0⟩] S2000x256.size (by rfl) y

/-! ## The body's triple -/

set_option maxHeartbeats 1000000 in
/-- The body on whole staging memrefs, the inputs at contents `x0 x1 x2` and the output at anything, runs to a state
    with the inputs as they were and the output at `out0_3 x0 x1 x2`. -/
theorem sound_kernel0 (c : Dev nD) (E : Set ℕ) (i : grid0.Coords) (arg1 : Memref sig .tc .vmem S2000x128 .f32) (harg1 : arg1.IsWhole)
    (arg2 : Memref sig .tc .vmem S128x256 .f32) (harg2 : arg2.IsWhole) (arg3 : Memref sig .tc .vmem S256 .f32) (harg3 : arg3.IsWhole)
    (arg4 : Memref sig .tc .vmem S2000x256 .f32) (harg4 : arg4.IsWhole)
    (x0 : Vec F S2000x128 .f32) (x1 : Vec F S128x256 .f32) (x2 : Vec F S256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__node_proj_kernel i arg1 harg1 arg2 harg2 arg3 harg3 arg4 harg4) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at point `t` each input's buffer still at its block and the
    output's at `out0_3` of the three input blocks; nothing owed, full shares, the class's invariant. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.CombineRegionW.lean ====
/-
  The per-edge combine (the second pallas_call) as a pipeline region, at any float instance and at any contents `V` of
  the buffers on entry.  A grid point `t` of 250 stages rows `1600 t … 1600 t + 1599` of the four gathered arrays and of
  the edge attributes, the whole output weight matrix and the whole output bias, and the body stores one whole
  1600 × 64 block: `max (z · We + be, 0)` with `z` the 321 columns it assembles from the staged rows.  Stated here: what
  each window's staging buffer holds before and after the body at a point, the body's triple, and the pipeline's body
  obligation.  The block the body leaves is the payload of its one store, by name.
-/
import proofs.«405648_j75453985456536_1_alg».proof.Proof.Gen.Kernel.Launch
import proofs.«405648_j75453985456536_1_alg».proof.Proof.Gen.Kernel.Skeleton
import proofs.«405648_j75453985456536_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or not: the gathered projections of the edges' source nodes (rows 1600 t … 1600 t + 1599), -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- the gathered projections of the edges' target nodes, -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- the gathered features of the source nodes, -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- the gathered features of the target nodes, -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- the edge attributes' row block, -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- the output weights (one block, the whole matrix), -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- the output bias (one block, the whole vector). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole staging buffer -/

abbrev rz1 : Rect S1600x256 := Rect.unit (s := S1600x256) ![0, 0] S1600x256.size inb_S1600x256_S1600x256_0_0
abbrev rx1 : Rect S1600x128 := Rect.unit (s := S1600x128) ![0, 0] S1600x128.size inb_S1600x128_S1600x128_0_0
abbrev re1 : Rect S1600x64 := Rect.unit (s := S1600x64) ![0, 0] S1600x64.size inb_S1600x64_S1600x64_0_0
abbrev rwe1 : Rect S321x64 := Rect.unit (s := S321x64) ![0, 0] S321x64.size inb_S321x64_S321x64_0_0
abbrev rbe1 : Rect S64 := Rect.unit (s := S64) ![0] S64.size inb_S64_S64_0

/-- The output block after the body, from the seven input blocks: the one store's payload laid over the buffer. -/
def out1_7 (x0 : Vec F S1600x256 .f32) (x1 : Vec F S1600x256 .f32) (x2 : Vec F S1600x128 .f32) (x3 : Vec F S1600x128 .f32) (x4 : Vec F S1600x64 .f32) (x5 : Vec F S321x64 .f32) (x6 : Vec F S64 .f32) : Vec F S1600x64 .f32 :=
  View.canon [⟨re1, k1_pay1 (k1_pay2 (View.ld x0 rz1) (View.ld x1 rz1) (View.ld x2 rx1) (View.ld x3 rx1) (View.ld x4 re1)) (View.ld x5 rwe1) (View.ld x6 rbe1)⟩]

/-- The one store covers the buffer. -/
theorem cover1_7 (p0 : Vec F S1600x64 .f32) (y : S1600x64.Idx) :
    ∃ pc ∈ ([⟨re1, p0⟩] : List (View.Piece (Elt F) S1600x64 .f32)), y ∈ pc.1.set :=
  View.cover_of_tiled [⟨re1, p0⟩] S1600x64.size (by rfl) y

/-! ## The body's triple -/

set_option maxHeartbeats 1000000 in
/-- The body on whole staging memrefs, the inputs at contents `x0 … x6` and the output at anything, runs to a state with
    the inputs as they were and the output at `out1_7 x0 … x6`. -/
theorem sound_kernel1 (c : Dev nD) (E : Set ℕ) (i : grid1.Coords)
    (arg1 : Memref sig .tc .vmem S1600x256 .f32) (harg1 : arg1.IsWhole)
    (arg2 : Memref sig .tc .vmem S1600x256 .f32) (harg2 : arg2.IsWhole)
    (arg3 : Memref sig .tc .vmem S1600x128 .f32) (harg3 : arg3.IsWhole)
    (arg4 : Memref sig .tc .vmem S1600x128 .f32) (harg4 : arg4.IsWhole)
    (arg5 : Memref sig .tc .vmem S1600x64 .f32) (harg5 : arg5.IsWhole)
    (arg6 : Memref sig .tc .vmem S321x64 .f32) (harg6 : arg6.IsWhole)
    (arg7 : Memref sig .tc .vmem S64 .f32) (harg7 : arg7.IsWhole)
    (arg8 : Memref sig .tc .vmem S1600x64 .f32) (harg8 : arg8.IsWhole)
    (x0 : Vec F S1600x256 .f32) (x1 : Vec F S1600x256 .f32) (x2 : Vec F S1600x128 .f32) (x3 : Vec F S1600x128 .f32) (x4 : Vec F S1600x64 .f32) (x5 : Vec F S321x64 .f32) (x6 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E (cc1__combine_kernel i arg1 harg1 arg2 harg2 arg3 harg3 arg4 harg4 arg5 harg5 arg6 harg6 arg7 harg7 arg8 harg8) K := by
  simp only [cc1__combine_kernel_eq_skeleton]; unfold cc1__combine_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The arrays as the region finds them; after the body at point `t` each input's buffer still at its block and the
    output's at `out1_7` of the seven input blocks; nothing owed, full shares, the class's invariant. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.RunCondW.lean ====
/-
  The whole run of the program: the host stretches and the two pipeline regions, in order, over the buffer contents
  between items (launch contents, then each host stretch applied, then what a region leaves in its output array).
  `run_cond`: from one segment record per region, every weakly fair execution terminates and every final memory holds
  each unscoped buffer at the last item's contents.  Then the two records: a region takes its arrays out of the
  buffers held between items, runs its pipeline over the proof data of `NodeProjRegion` / `CombineRegion`, and puts
  the arrays back, each input as it was and the output at what the grid's write-backs leave.
-/
import proofs.«405648_j75453985456536_1_alg».proof.Proof.Gen.Kernel.Regions
import proofs.«405648_j75453985456536_1_alg».proof.Proof.NodeProjRegionW
import proofs.«405648_j75453985456536_1_alg».proof.Proof.CombineRegionW

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The run, given the regions' records -/

set_option backward.isDefEq.respectTransparency.types false in
/-- Given, per region, a segment record entered from the buffers held at the contents before it and left at the
    contents after it, every weakly fair execution of the program from memory `m` with zero counters terminates, and
    in every final memory each unscoped buffer of core `c` holds the last contents `V8 m outs c`. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => ∀ c : Dev nD,
      ∀ b ∈ Pipeline.ucRefs τ sig, r.2.mem ((c : Thread nD τ).1, b) = V8 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, hpre0 c, hpost0 c, .rfl, .rfl, .rfl, .rfl, hpre1 c, (hpost1 c).trans (sep_mono .rfl (hE2 c))⟩)
    (hinit := ?_) (QY := fun c s => ∀ b ∈ Pipeline.ucRefs τ sig, s.mem ((c : Thread nD τ).1, b) = V8 m outs c b)
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last contents
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact h
    · iexact HSI

end Cert.Kernel.Hand

end
-- ==== Proof.RecordsW.lean ====
/-
  The two pipeline regions as segment records over the buffer contents between items, and the run they give.
  `o` names what the regions leave in their output arrays (the projected node array after the first region, the result
  after the second); `Holds m o` says it is what the grids' write-backs leave.  Under it each region takes its arrays out
  of the buffers held at the contents before it and puts them back at the contents after it: an input array as it was
  (no write-back touches it), the output array at its final contents, every other buffer untouched.
-/
import proofs.«405648_j75453985456536_1_alg».proof.Proof.RunCondW

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (o : Outs (F := F))

/-! ## The contents between items, read at the TensorCore's references -/

/-- Before the first region (after the two concatenations). -/
abbrev T1 : (c : Dev nD) → (b : Ref sig .tc) → Buf (Elt F) ((c : Thread nD τ).loc b) := fun c b => V1 m c b
/-- After the first region. -/
abbrev T2 : (c : Dev nD) → (b : Ref sig .tc) → Buf (Elt F) ((c : Thread nD τ).loc b) := fun c b => V2 m o c b
/-- Before the second region (after the index rows are cut out and the four gathers are made). -/
abbrev T7 : (c : Dev nD) → (b : Ref sig .tc) → Buf (Elt F) ((c : Thread nD τ).loc b) := fun c b => V7 m o c b
/-- After the second region. -/
abbrev T8 : (c : Dev nD) → (b : Ref sig .tc) → Buf (Elt F) ((c : Thread nD τ).loc b) := fun c b => V8 m o c b

/-- `o` holds what each region's write-backs leave in its output array. -/
structure Holds : Prop where
  z : ∀ c : Dev nD, o 2 main_v2 c = (dat0 (T1 m) c).arrAt 3 cfg0.N
  out : ∀ c : Dev nD, o 8 main_v11 c = (dat1 (T7 m o) c).arrAt 7 cfg1.N

/-! ## The proof data family and what rides beside the buffers -/

/-- Each pipeline's proof data at its region's entry contents. -/
def pdats : (p : Fin 2) → (c : Dev nD) → Dat τ (Elt F) Unit ℕ (UR sig nD τ) ℕ (cfgs p) c
  | ⟨0, _⟩ => fun c => dat0 (T1 m) c
  | ⟨1, _⟩ => fun c => dat1 (T7 m o) c

abbrev 𝒱n : Variants := Variants.none
/-- No core owes another anything: no level is assigned. -/
abbrev Ln : GSem nD τ sig → Finset Unit := fun _ => ∅
abbrev lvn : GSem nD τ sig → Unit → ℕ := fun _ _ => 0
/-- Beside the buffers, through every item: the core's generator register at some state, and its dues, at nothing. -/
abbrev Rst (c : Dev nD) : sProp 𝕄 := iprop((∃ r, prngReg c r) ∗ ∃ W, owes (c : Thread nD τ) (0 : CellTallies nD τ sig Unit) W)

/-! ## What each region leaves in the buffers -/

variable {m o}

/-- After the first region each of its arrays holds what the pipeline leaves: the three inputs as entered, the
    projected node array at its final contents. -/
theorem hF0 (h : Holds m o) (c : Dev nD) (w : Fin cfg0.W) :
    (dat0 (T1 m) c).arrAt w cfg0.N = T2 m o c (Pipeline.arrRef spec0 w) :=
  match w with
  | ⟨0, _⟩ => ((dat0 (T1 m) c).arrAt_in 0 rfl _).trans ((A_eq0 (T1 m) c 0).trans (V2_of m o c main_arg0 (by decide)).symm)
  | ⟨1, _⟩ => ((dat0 (T1 m) c).arrAt_in 1 rfl _).trans ((A_eq0 (T1 m) c 1).trans (V2_of m o c main_v0 (by decide)).symm)
  | ⟨2, _⟩ => ((dat0 (T1 m) c).arrAt_in 2 rfl _).trans ((A_eq0 (T1 m) c 2).trans (V2_of m o c main_v1 (by decide)).symm)
  | ⟨3, _⟩ => (h.z c).symm.trans (by simp only [T2, V2, Function.update_self])
/-- and every other buffer what it held on entry. -/
theorem hrest0 (c : Dev nD) : ∀ b, b ∉ Finset.univ.image (Pipeline.arrRef spec0) → T2 m o c b = T1 m c b :=
  fun b hb => V2_of m o c b fun hm => hb (Finset.mem_image.mpr ⟨3, Finset.mem_univ _, (List.mem_singleton.mp hm).symm⟩)

/-- After the second region each of its arrays holds what the pipeline leaves: the seven inputs as entered, the
    result array at its final contents. -/
theorem hF1_0 (c : Dev nD) : (dat1 (T7 m o) c).arrAt 0 cfg1.N = T8 m o c main_v7 :=
  ((dat1 (T7 m o) c).arrAt_in 0 rfl _).trans ((A_eq1 (T7 m o) c 0).trans (V8_of m o c main_v7 (by decide)).symm)
theorem hF1_1 (c : Dev nD) : (dat1 (T7 m o) c).arrAt 1 cfg1.N = T8 m o c main_v8 :=
  ((dat1 (T7 m o) c).arrAt_in 1 rfl _).trans ((A_eq1 (T7 m o) c 1).trans (V8_of m o c main_v8 (by decide)).symm)
theorem hF1_2 (c : Dev nD) : (dat1 (T7 m o) c).arrAt 2 cfg1.N = T8 m o c main_v9 :=
  ((dat1 (T7 m o) c).arrAt_in 2 rfl _).trans ((A_eq1 (T7 m o) c 2).trans (V8_of m o c main_v9 (by decide)).symm)
theorem hF1_3 (c : Dev nD) : (dat1 (T7 m o) c).arrAt 3 cfg1.N = T8 m o c main_v10 :=
  ((dat1 (T7 m o) c).arrAt_in 3 rfl _).trans ((A_eq1 (T7 m o) c 3).trans (V8_of m o c main_v10 (by decide)).symm)
theorem hF1_4 (c : Dev nD) : (dat1 (T7 m o) c).arrAt 4 cfg1.N = T8 m o c main_arg2 :=
  ((dat1 (T7 m o) c).arrAt_in 4 rfl _).trans ((A_eq1 (T7 m o) c 4).trans (V8_of m o c main_arg2 (by decide)).symm)
theorem hF1_5 (c : Dev nD) : (dat1 (T7 m o) c).arrAt 5 cfg1.N = T8 m o c main_arg11 :=
  ((dat1 (T7 m o) c).arrAt_in 5 rfl _).trans ((A_eq1 (T7 m o) c 5).trans (V8_of m o c main_arg11 (by decide)).symm)
theorem hF1_6 (c : Dev nD) : (dat1 (T7 m o) c).arrAt 6 cfg1.N = T8 m o c main_arg12 :=
  ((dat1 (T7 m o) c).arrAt_in 6 rfl _).trans ((A_eq1 (T7 m o) c 6).trans (V8_of m o c main_arg12 (by decide)).symm)
theorem hF1_7 (h : Holds m o) (c : Dev nD) : (dat1 (T7 m o) c).arrAt 7 cfg1.N = T8 m o c main_v11 :=
  (h.out c).symm.trans (by simp only [T8, V8, Function.update_self])
set_option maxHeartbeats 2000000 in
theorem hF1 (h : Holds m o) (c : Dev nD) (w : Fin cfg1.W) :
    (dat1 (T7 m o) c).arrAt w cfg1.N = T8 m o c (Pipeline.arrRef spec1 w) :=
  match w with
  | ⟨0, _⟩ => hF1_0 c
  | ⟨1, _⟩ => hF1_1 c
  | ⟨2, _⟩ => hF1_2 c
  | ⟨3, _⟩ => hF1_3 c
  | ⟨4, _⟩ => hF1_4 c
  | ⟨5, _⟩ => hF1_5 c
  | ⟨6, _⟩ => hF1_6 c
  | ⟨7, _⟩ => hF1_7 h c
theorem hrest1 (c : Dev nD) : ∀ b, b ∉ Finset.univ.image (Pipeline.arrRef spec1) → T8 m o c b = T7 m o c b :=
  fun b hb => V8_of m o c b fun hm => hb (Finset.mem_image.mpr ⟨7, Finset.mem_univ _, (List.mem_singleton.mp hm).symm⟩)

/-! ## The regions as segments -/

set_option backward.isDefEq.respectTransparency.types false in
/-- The first region: entered from every unscoped buffer at the contents after the concatenations, left at those with
    the projected node array filled in.  Its arrays are split out of the buffers and put back; the generator register
    goes into the pipeline's invariant and comes out; nothing is owed; the kernel has no semaphore of its own. -/
def reg0 (h : Holds m o) : RegionSeg (pcfgs (F := F)) adm (pdats m o) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ Ln lvn 0 fun _ _ => rfl
  pre c := iprop(StableHlo.held (c : Thread nD τ) (Pipeline.ucRefs τ sig) (V1 m c) ∗ Rst c)
  post c := iprop(StableHlo.held (c : Thread nD τ) (Pipeline.ucRefs τ sig) (V2 m o c) ∗ Rst c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m o) launch0.win launch0.arr_whole c
      ((pdats m o 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m o 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m o 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m o) ((pdats m o 0 c).share_full fun _ => rfl)
      (T1 m c) (T2 m o c) ((pdats m o 0 c).arrAt · cfg0.N) (hF0 h c) (hrest0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at the contents after the gathers, left at those with the
    result array filled in; otherwise as the first. -/
def reg1 (h : Holds m o) : RegionSeg (pcfgs (F := F)) adm (pdats m o) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (T7 m o) c).loose
  hwaits := Pipeline.hwaits_of_owed_zero _ _ _ _ Ln lvn 1 fun _ _ => rfl
  pre c := iprop(StableHlo.held (c : Thread nD τ) (Pipeline.ucRefs τ sig) (V7 m o c) ∗ Rst c)
  post c := iprop(StableHlo.held (c : Thread nD τ) (Pipeline.ucRefs τ sig) (V8 m o c) ∗ Rst c)
  X c := iprop(∃ r, prngReg c r)
  Y c := iprop(∃ r, prngReg c r)
  Z c := Pipeline.unscopedRest (Ix := Unit) (Name := ℕ) (U := UR sig nD τ) (Lvl := ℕ) spec1 c (T7 m o c)
  hentry c := by
    rw [Pipeline.ownSems0_none]
    have hsplit := Pipeline.arrays_of_unscopedBufs (p := 1) (pcfgs (F := F)) adm (pdats m o) launch1.win launch1.arr_whole c
      ((pdats m o 1 c).share_full fun _ => rfl) (T7 m o c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m o 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m o 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m o) ((pdats m o 1 c).share_full fun _ => rfl)
      (T7 m o c) (T8 m o c) ((pdats m o 1 c).arrAt · cfg1.N) (hF1 h c) (hrest1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

variable (ρ : Dev nD → PrngReg)

set_option backward.isDefEq.respectTransparency.types false in
/-- Every weakly fair execution from memory `m` with zero counters terminates, and every final memory holds each
    unscoped buffer of core `c` at the last contents, `V8 m o c`. -/
theorem run_all (h : Holds m o) :
    θ_run defs (onTc (τ := τ) (main (F := F))) ⟨m, fun _ => 0, ρ⟩ (fun r => ∀ c : Dev nD,
      ∀ b ∈ Pipeline.ucRefs τ sig, r.2.mem ((c : Thread nD τ).1, b) = V8 m o c b) :=
  run_cond m emb₁ () 𝒱n Ln lvn (fun _ _ => rfl) ρ o (pdats m o) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (by
      refine Pipeline.initEach Ln lvn fun c => ?_
      iintro ⟨⟨-, HO, -, Hp, -⟩, -⟩
      imodintro
      isplitl [Hp]; · iexists _; iexact Hp
      iexists ∅; iexact HO)
    (fun c => by iintro ⟨-, HO⟩; iexact HO)
    (reg0 h) (fun _ => .rfl) (fun _ => .rfl)
    (reg1 h) (fun _ => .rfl) (fun _ => .rfl)

end Cert.Kernel.Hand

end
-- ==== Proof.FoundW.lean ====
/-
  The contents the two regions leave, named.  `found m` holds, for the first region, its arrays at what the 25 grid
  points' write-backs leave (every other buffer as before the region), and for the second the same over the contents
  before it, which themselves are read through what the first region left.  `Holds m (found m)`: the unknowns of the run
  are met.
-/
import proofs.«405648_j75453985456536_1_alg».proof.Proof.RecordsW

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- Every buffer after the first region: its arrays at what the pipeline leaves, the rest as before it. -/
def afterProj (c : Dev nD) : Valuation τ sig (Elt F) :=
  Pipeline.withArrays spec0 c (V1 m c) fun w => (dat0 (T1 m) c).arrAt w cfg0.N
/-- The first region's leavings as the run's unknowns (the second region's not yet). -/
def foundProj : Outs (F := F) := fun _ r c => afterProj m c r
/-- Every buffer after the second region, over the contents the gathers leave of the first region's result. -/
def afterComb (c : Dev nD) : Valuation τ sig (Elt F) :=
  Pipeline.withArrays spec1 c (V7 m (foundProj m) c) fun w => (dat1 (T7 m (foundProj m)) c).arrAt w cfg1.N
/-- Both regions' leavings: item 8 reads the second region's, every other item the first's. -/
def found : Outs (F := F) := fun j r c => if j = 8 then afterComb m c r else afterProj m c r

/-- Before the second region the contents read only what the first region left. -/
theorem T7_found : T7 m (found m) = T7 m (foundProj m) := rfl

theorem found_proj (c : Dev nD) : found m 2 main_v2 c = (dat0 (T1 m) c).arrAt 3 cfg0.N := by
  show afterProj m c main_v2 = _
  unfold afterProj
  exact Pipeline.withArrays_arr spec0 launch0.win.arr_inj c _ _ 3

theorem found_comb (c : Dev nD) : found m 8 main_v11 c = (dat1 (T7 m (found m)) c).arrAt 7 cfg1.N := by
  rw [T7_found]
  show afterComb m c main_v11 = _
  unfold afterComb
  exact Pipeline.withArrays_arr spec1 launch1.win.arr_inj c _ _ 7

theorem holds_found : Holds m (found m) := ⟨found_proj m, found_comb m⟩

/-! ## The run, read at the result and at the arguments -/

variable (ρ : Dev nD → PrngReg)

/-- The result array ends at what the second region's write-backs leave. -/
theorem V8_result (c : Dev nD) : V8 m (found m) c main_v11 = (dat1 (T7 m (found m)) c).arrAt 7 cfg1.N := by
  rw [← found_comb m c]
  simp only [V8, Function.update_self]

/-- An unscoped TensorCore reference is among those the run reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every weakly fair execution from memory `m` with zero counters terminates; the result array ends at what the
    second region leaves, and every argument array ends as launched (no host stretch writes one, no region changes one). -/
theorem run_found :
    θ_run defs (onTc (τ := τ) (main (F := F))) ⟨m, fun _ => 0, ρ⟩ (fun r => ∀ c : Dev nD,
      r.2.mem ((c.tc : Thread nD τ).loc main_v11) = (dat1 (T7 m (found m)) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c (Proc.devRef .tc main_v11) (mem_uc main_v11 (by decide))).trans (V8_result m c),
     (h c (Proc.devRef .tc main_arg0) (mem_uc main_arg0 (by decide))).trans (V8_main_arg0 m (found m) c),
     (h c (Proc.devRef .tc main_arg1) (mem_uc main_arg1 (by decide))).trans (V8_main_arg1 m (found m) c),
     (h c (Proc.devRef .tc main_arg2) (mem_uc main_arg2 (by decide))).trans (V8_main_arg2 m (found m) c),
     (h c (Proc.devRef .tc main_arg3) (mem_uc main_arg3 (by decide))).trans (V8_main_arg3 m (found m) c),
     (h c (Proc.devRef .tc main_arg4) (mem_uc main_arg4 (by decide))).trans (V8_main_arg4 m (found m) c),
     (h c (Proc.devRef .tc main_arg5) (mem_uc main_arg5 (by decide))).trans (V8_main_arg5 m (found m) c),
     (h c (Proc.devRef .tc main_arg6) (mem_uc main_arg6 (by decide))).trans (V8_main_arg6 m (found m) c),
     (h c (Proc.devRef .tc main_arg7) (mem_uc main_arg7 (by decide))).trans (V8_main_arg7 m (found m) c),
     (h c (Proc.devRef .tc main_arg8) (mem_uc main_arg8 (by decide))).trans (V8_main_arg8 m (found m) c),
     (h c (Proc.devRef .tc main_arg9) (mem_uc main_arg9 (by decide))).trans (V8_main_arg9 m (found m) c),
     (h c (Proc.devRef .tc main_arg10) (mem_uc main_arg10 (by decide))).trans (V8_main_arg10 m (found m) c),
     (h c (Proc.devRef .tc main_arg11) (mem_uc main_arg11 (by decide))).trans (V8_main_arg11 m (found m) c),
     (h c (Proc.devRef .tc main_arg12) (mem_uc main_arg12 (by decide))).trans (V8_main_arg12 m (found m) c)⟩)
    (run_all ρ (holds_found m))

end Cert.Kernel.Hand

end
-- ==== Proof.NodeProjRegion.lean ====
/-
  The node projection (the first pallas_call) as a pipeline region, at any float instance and at any contents `V` of
  the buffers on entry.  A grid point `t` of 25 stages rows `2000 t … 2000 t + 1999` of the node features, the whole
  concatenated weight matrix and the whole concatenated bias, and the body stores one whole 2000 × 256 block:
  `max (x_blk · W + b, 0)`.  Stated here: what each window's staging buffer holds before and after the body at a
  point, the body's triple, and the pipeline's body obligation.  Nothing here reads a value: the block the body
  leaves is the payload of its one store, by name.
-/
import proofs.«405648_j75453985456536_1_alg».proof.Proof.Gen.KernelIdeal.Launch
import proofs.«405648_j75453985456536_1_alg».proof.Proof.Gen.KernelIdeal.Skeleton
import proofs.«405648_j75453985456536_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or not
    (a point that does not fetch it has not moved its index): the row block of the features, -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- the weights (one block, the whole matrix), -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- and the bias (one block, the whole vector). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole staging buffer -/

abbrev rx0 : Rect S2000x128 := Rect.unit (s := S2000x128) ![0, 0] S2000x128.size inb_S2000x128_S2000x128_0_0
abbrev rw0 : Rect S128x256 := Rect.unit (s := S128x256) ![0, 0] S128x256.size inb_S128x256_S128x256_0_0
abbrev rb0 : Rect S256 := Rect.unit (s := S256) ![0] S256.size inb_S256_S256_0
abbrev ro0 : Rect S2000x256 := Rect.unit (s := S2000x256) ![0, 0] S2000x256.size inb_S2000x256_S2000x256_0_0

/-- The output block after the body, from the three input blocks: the one store's payload laid over the buffer. -/
def out0_3 (x0 : Vec F S2000x128 .f32) (x1 : Vec F S128x256 .f32) (x2 : Vec F S256 .f32) : Vec F S2000x256 .f32 :=
  View.canon [⟨ro0, k0_pay1 (View.ld x0 rx0) (View.ld x1 rw0) (View.ld x2 rb0)⟩]

/-- The one store covers the buffer. -/
theorem cover0_3 (p0 : Vec F S2000x256 .f32) (y : S2000x256.Idx) :
    ∃ pc ∈ ([⟨ro0, p0⟩] : List (View.Piece (Elt F) S2000x256 .f32)), y ∈ pc.1.set :=
  View.cover_of_tiled [⟨ro0, p0⟩] S2000x256.size (by rfl) y

/-! ## The body's triple -/

set_option maxHeartbeats 1000000 in
/-- The body on whole staging memrefs, the inputs at contents `x0 x1 x2` and the output at anything, runs to a state
    with the inputs as they were and the output at `out0_3 x0 x1 x2`. -/
theorem sound_kernel0 (c : Dev nD) (E : Set ℕ) (i : grid0.Coords) (arg1 : Memref sig .tc .vmem S2000x128 .f32) (harg1 : arg1.IsWhole)
    (arg2 : Memref sig .tc .vmem S128x256 .f32) (harg2 : arg2.IsWhole) (arg3 : Memref sig .tc .vmem S256 .f32) (harg3 : arg3.IsWhole)
    (arg4 : Memref sig .tc .vmem S2000x256 .f32) (harg4 : arg4.IsWhole)
    (x0 : Vec F S2000x128 .f32) (x1 : Vec F S128x256 .f32) (x2 : Vec F S256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__node_proj_kernel i arg1 harg1 arg2 harg2 arg3 harg3 arg4 harg4) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at point `t` each input's buffer still at its block and the
    output's at `out0_3` of the three input blocks; nothing owed, full shares, the class's invariant. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.CombineRegion.lean ====
/-
  The per-edge combine (the second pallas_call) as a pipeline region, at any float instance and at any contents `V` of
  the buffers on entry.  A grid point `t` of 250 stages rows `1600 t … 1600 t + 1599` of the four gathered arrays and of
  the edge attributes, the whole output weight matrix and the whole output bias, and the body stores one whole
  1600 × 64 block: `max (z · We + be, 0)` with `z` the 321 columns it assembles from the staged rows.  Stated here: what
  each window's staging buffer holds before and after the body at a point, the body's triple, and the pipeline's body
  obligation.  The block the body leaves is the payload of its one store, by name.
-/
import proofs.«405648_j75453985456536_1_alg».proof.Proof.Gen.KernelIdeal.Launch
import proofs.«405648_j75453985456536_1_alg».proof.Proof.Gen.KernelIdeal.Skeleton
import proofs.«405648_j75453985456536_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or not: the gathered projections of the edges' source nodes (rows 1600 t … 1600 t + 1599), -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- the gathered projections of the edges' target nodes, -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- the gathered features of the source nodes, -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- the gathered features of the target nodes, -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- the edge attributes' row block, -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- the output weights (one block, the whole matrix), -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- the output bias (one block, the whole vector). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole staging buffer -/

abbrev rz1 : Rect S1600x256 := Rect.unit (s := S1600x256) ![0, 0] S1600x256.size inb_S1600x256_S1600x256_0_0
abbrev rx1 : Rect S1600x128 := Rect.unit (s := S1600x128) ![0, 0] S1600x128.size inb_S1600x128_S1600x128_0_0
abbrev re1 : Rect S1600x64 := Rect.unit (s := S1600x64) ![0, 0] S1600x64.size inb_S1600x64_S1600x64_0_0
abbrev rwe1 : Rect S321x64 := Rect.unit (s := S321x64) ![0, 0] S321x64.size inb_S321x64_S321x64_0_0
abbrev rbe1 : Rect S64 := Rect.unit (s := S64) ![0] S64.size inb_S64_S64_0

/-- The output block after the body, from the seven input blocks: the one store's payload laid over the buffer. -/
def out1_7 (x0 : Vec F S1600x256 .f32) (x1 : Vec F S1600x256 .f32) (x2 : Vec F S1600x128 .f32) (x3 : Vec F S1600x128 .f32) (x4 : Vec F S1600x64 .f32) (x5 : Vec F S321x64 .f32) (x6 : Vec F S64 .f32) : Vec F S1600x64 .f32 :=
  View.canon [⟨re1, k1_pay1 (k1_pay2 (View.ld x0 rz1) (View.ld x1 rz1) (View.ld x2 rx1) (View.ld x3 rx1) (View.ld x4 re1)) (View.ld x5 rwe1) (View.ld x6 rbe1)⟩]

/-- The one store covers the buffer. -/
theorem cover1_7 (p0 : Vec F S1600x64 .f32) (y : S1600x64.Idx) :
    ∃ pc ∈ ([⟨re1, p0⟩] : List (View.Piece (Elt F) S1600x64 .f32)), y ∈ pc.1.set :=
  View.cover_of_tiled [⟨re1, p0⟩] S1600x64.size (by rfl) y

/-! ## The body's triple -/

set_option maxHeartbeats 1000000 in
/-- The body on whole staging memrefs, the inputs at contents `x0 … x6` and the output at anything, runs to a state with
    the inputs as they were and the output at `out1_7 x0 … x6`. -/
theorem sound_kernel1 (c : Dev nD) (E : Set ℕ) (i : grid1.Coords)
    (arg1 : Memref sig .tc .vmem S1600x256 .f32) (harg1 : arg1.IsWhole)
    (arg2 : Memref sig .tc .vmem S1600x256 .f32) (harg2 : arg2.IsWhole)
    (arg3 : Memref sig .tc .vmem S1600x128 .f32) (harg3 : arg3.IsWhole)
    (arg4 : Memref sig .tc .vmem S1600x128 .f32) (harg4 : arg4.IsWhole)
    (arg5 : Memref sig .tc .vmem S1600x64 .f32) (harg5 : arg5.IsWhole)
    (arg6 : Memref sig .tc .vmem S321x64 .f32) (harg6 : arg6.IsWhole)
    (arg7 : Memref sig .tc .vmem S64 .f32) (harg7 : arg7.IsWhole)
    (arg8 : Memref sig .tc .vmem S1600x64 .f32) (harg8 : arg8.IsWhole)
    (x0 : Vec F S1600x256 .f32) (x1 : Vec F S1600x256 .f32) (x2 : Vec F S1600x128 .f32) (x3 : Vec F S1600x128 .f32) (x4 : Vec F S1600x64 .f32) (x5 : Vec F S321x64 .f32) (x6 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E (cc1__combine_kernel i arg1 harg1 arg2 harg2 arg3 harg3 arg4 harg4 arg5 harg5 arg6 harg6 arg7 harg7 arg8 harg8) K := by
  simp only [cc1__combine_kernel_eq_skeleton]; unfold cc1__combine_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The arrays as the region finds them; after the body at point `t` each input's buffer still at its block and the
    output's at `out1_7` of the seven input blocks; nothing owed, full shares, the class's invariant. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.RunCond.lean ====
/-
  The whole run of the program: the host stretches and the two pipeline regions, in order, over the buffer contents
  between items (launch contents, then each host stretch applied, then what a region leaves in its output array).
  `run_cond`: from one segment record per region, every weakly fair execution terminates and every final memory holds
  each unscoped buffer at the last item's contents.  Then the two records: a region takes its arrays out of the
  buffers held between items, runs its pipeline over the proof data of `NodeProjRegion` / `CombineRegion`, and puts
  the arrays back, each input as it was and the output at what the grid's write-backs leave.
-/
import proofs.«405648_j75453985456536_1_alg».proof.Proof.Gen.KernelIdeal.Regions
import proofs.«405648_j75453985456536_1_alg».proof.Proof.NodeProjRegion
import proofs.«405648_j75453985456536_1_alg».proof.Proof.CombineRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The run, given the regions' records -/

set_option backward.isDefEq.respectTransparency.types false in
/-- Given, per region, a segment record entered from the buffers held at the contents before it and left at the
    contents after it, every weakly fair execution of the program from memory `m` with zero counters terminates, and
    in every final memory each unscoped buffer of core `c` holds the last contents `V8 m outs c`. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => ∀ c : Dev nD,
      ∀ b ∈ Pipeline.ucRefs τ sig, r.2.mem ((c : Thread nD τ).1, b) = V8 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, hpre0 c, hpost0 c, .rfl, .rfl, .rfl, .rfl, hpre1 c, (hpost1 c).trans (sep_mono .rfl (hE2 c))⟩)
    (hinit := ?_) (QY := fun c s => ∀ b ∈ Pipeline.ucRefs τ sig, s.mem ((c : Thread nD τ).1, b) = V8 m outs c b)
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last contents
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact h
    · iexact HSI

end Cert.KernelIdeal.Hand

end
-- ==== Proof.Records.lean ====
/-
  The two pipeline regions as segment records over the buffer contents between items, and the run they give.
  `o` names what the regions leave in their output arrays (the projected node array after the first region, the result
  after the second); `Holds m o` says it is what the grids' write-backs leave.  Under it each region takes its arrays out
  of the buffers held at the contents before it and puts them back at the contents after it: an input array as it was
  (no write-back touches it), the output array at its final contents, every other buffer untouched.
-/
import proofs.«405648_j75453985456536_1_alg».proof.Proof.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (o : Outs (F := F))

/-! ## The contents between items, read at the TensorCore's references -/

/-- Before the first region (after the two concatenations). -/
abbrev T1 : (c : Dev nD) → (b : Ref sig .tc) → Buf (Elt F) ((c : Thread nD τ).loc b) := fun c b => V1 m c b
/-- After the first region. -/
abbrev T2 : (c : Dev nD) → (b : Ref sig .tc) → Buf (Elt F) ((c : Thread nD τ).loc b) := fun c b => V2 m o c b
/-- Before the second region (after the index rows are cut out and the four gathers are made). -/
abbrev T7 : (c : Dev nD) → (b : Ref sig .tc) → Buf (Elt F) ((c : Thread nD τ).loc b) := fun c b => V7 m o c b
/-- After the second region. -/
abbrev T8 : (c : Dev nD) → (b : Ref sig .tc) → Buf (Elt F) ((c : Thread nD τ).loc b) := fun c b => V8 m o c b

/-- `o` holds what each region's write-backs leave in its output array. -/
structure Holds : Prop where
  z : ∀ c : Dev nD, o 2 main_v2 c = (dat0 (T1 m) c).arrAt 3 cfg0.N
  out : ∀ c : Dev nD, o 8 main_v11 c = (dat1 (T7 m o) c).arrAt 7 cfg1.N

/-! ## The proof data family and what rides beside the buffers -/

/-- Each pipeline's proof data at its region's entry contents. -/
def pdats : (p : Fin 2) → (c : Dev nD) → Dat τ (Elt F) Unit ℕ (UR sig nD τ) ℕ (cfgs p) c
  | ⟨0, _⟩ => fun c => dat0 (T1 m) c
  | ⟨1, _⟩ => fun c => dat1 (T7 m o) c

abbrev 𝒱n : Variants := Variants.none
/-- No core owes another anything: no level is assigned. -/
abbrev Ln : GSem nD τ sig → Finset Unit := fun _ => ∅
abbrev lvn : GSem nD τ sig → Unit → ℕ := fun _ _ => 0
/-- Beside the buffers, through every item: the core's generator register at some state, and its dues, at nothing. -/
abbrev Rst (c : Dev nD) : sProp 𝕄 := iprop((∃ r, prngReg c r) ∗ ∃ W, owes (c : Thread nD τ) (0 : CellTallies nD τ sig Unit) W)

/-! ## What each region leaves in the buffers -/

variable {m o}

/-- After the first region each of its arrays holds what the pipeline leaves: the three inputs as entered, the
    projected node array at its final contents. -/
theorem hF0 (h : Holds m o) (c : Dev nD) (w : Fin cfg0.W) :
    (dat0 (T1 m) c).arrAt w cfg0.N = T2 m o c (Pipeline.arrRef spec0 w) :=
  match w with
  | ⟨0, _⟩ => ((dat0 (T1 m) c).arrAt_in 0 rfl _).trans ((A_eq0 (T1 m) c 0).trans (V2_of m o c main_arg0 (by decide)).symm)
  | ⟨1, _⟩ => ((dat0 (T1 m) c).arrAt_in 1 rfl _).trans ((A_eq0 (T1 m) c 1).trans (V2_of m o c main_v0 (by decide)).symm)
  | ⟨2, _⟩ => ((dat0 (T1 m) c).arrAt_in 2 rfl _).trans ((A_eq0 (T1 m) c 2).trans (V2_of m o c main_v1 (by decide)).symm)
  | ⟨3, _⟩ => (h.z c).symm.trans (by simp only [T2, V2, Function.update_self])
/-- and every other buffer what it held on entry. -/
theorem hrest0 (c : Dev nD) : ∀ b, b ∉ Finset.univ.image (Pipeline.arrRef spec0) → T2 m o c b = T1 m c b :=
  fun b hb => V2_of m o c b fun hm => hb (Finset.mem_image.mpr ⟨3, Finset.mem_univ _, (List.mem_singleton.mp hm).symm⟩)

/-- After the second region each of its arrays holds what the pipeline leaves: the seven inputs as entered, the
    result array at its final contents. -/
theorem hF1_0 (c : Dev nD) : (dat1 (T7 m o) c).arrAt 0 cfg1.N = T8 m o c main_v7 :=
  ((dat1 (T7 m o) c).arrAt_in 0 rfl _).trans ((A_eq1 (T7 m o) c 0).trans (V8_of m o c main_v7 (by decide)).symm)
theorem hF1_1 (c : Dev nD) : (dat1 (T7 m o) c).arrAt 1 cfg1.N = T8 m o c main_v8 :=
  ((dat1 (T7 m o) c).arrAt_in 1 rfl _).trans ((A_eq1 (T7 m o) c 1).trans (V8_of m o c main_v8 (by decide)).symm)
theorem hF1_2 (c : Dev nD) : (dat1 (T7 m o) c).arrAt 2 cfg1.N = T8 m o c main_v9 :=
  ((dat1 (T7 m o) c).arrAt_in 2 rfl _).trans ((A_eq1 (T7 m o) c 2).trans (V8_of m o c main_v9 (by decide)).symm)
theorem hF1_3 (c : Dev nD) : (dat1 (T7 m o) c).arrAt 3 cfg1.N = T8 m o c main_v10 :=
  ((dat1 (T7 m o) c).arrAt_in 3 rfl _).trans ((A_eq1 (T7 m o) c 3).trans (V8_of m o c main_v10 (by decide)).symm)
theorem hF1_4 (c : Dev nD) : (dat1 (T7 m o) c).arrAt 4 cfg1.N = T8 m o c main_arg2 :=
  ((dat1 (T7 m o) c).arrAt_in 4 rfl _).trans ((A_eq1 (T7 m o) c 4).trans (V8_of m o c main_arg2 (by decide)).symm)
theorem hF1_5 (c : Dev nD) : (dat1 (T7 m o) c).arrAt 5 cfg1.N = T8 m o c main_arg11 :=
  ((dat1 (T7 m o) c).arrAt_in 5 rfl _).trans ((A_eq1 (T7 m o) c 5).trans (V8_of m o c main_arg11 (by decide)).symm)
theorem hF1_6 (c : Dev nD) : (dat1 (T7 m o) c).arrAt 6 cfg1.N = T8 m o c main_arg12 :=
  ((dat1 (T7 m o) c).arrAt_in 6 rfl _).trans ((A_eq1 (T7 m o) c 6).trans (V8_of m o c main_arg12 (by decide)).symm)
theorem hF1_7 (h : Holds m o) (c : Dev nD) : (dat1 (T7 m o) c).arrAt 7 cfg1.N = T8 m o c main_v11 :=
  (h.out c).symm.trans (by simp only [T8, V8, Function.update_self])
set_option maxHeartbeats 2000000 in
theorem hF1 (h : Holds m o) (c : Dev nD) (w : Fin cfg1.W) :
    (dat1 (T7 m o) c).arrAt w cfg1.N = T8 m o c (Pipeline.arrRef spec1 w) :=
  match w with
  | ⟨0, _⟩ => hF1_0 c
  | ⟨1, _⟩ => hF1_1 c
  | ⟨2, _⟩ => hF1_2 c
  | ⟨3, _⟩ => hF1_3 c
  | ⟨4, _⟩ => hF1_4 c
  | ⟨5, _⟩ => hF1_5 c
  | ⟨6, _⟩ => hF1_6 c
  | ⟨7, _⟩ => hF1_7 h c
theorem hrest1 (c : Dev nD) : ∀ b, b ∉ Finset.univ.image (Pipeline.arrRef spec1) → T8 m o c b = T7 m o c b :=
  fun b hb => V8_of m o c b fun hm => hb (Finset.mem_image.mpr ⟨7, Finset.mem_univ _, (List.mem_singleton.mp hm).symm⟩)

/-! ## The regions as segments -/

set_option backward.isDefEq.respectTransparency.types false in
/-- The first region: entered from every unscoped buffer at the contents after the concatenations, left at those with
    the projected node array filled in.  Its arrays are split out of the buffers and put back; the generator register
    goes into the pipeline's invariant and comes out; nothing is owed; the kernel has no semaphore of its own. -/
def reg0 (h : Holds m o) : RegionSeg (pcfgs (F := F)) adm (pdats m o) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ Ln lvn 0 fun _ _ => rfl
  pre c := iprop(StableHlo.held (c : Thread nD τ) (Pipeline.ucRefs τ sig) (V1 m c) ∗ Rst c)
  post c := iprop(StableHlo.held (c : Thread nD τ) (Pipeline.ucRefs τ sig) (V2 m o c) ∗ Rst c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m o) launch0.win launch0.arr_whole c
      ((pdats m o 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m o 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m o 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m o) ((pdats m o 0 c).share_full fun _ => rfl)
      (T1 m c) (T2 m o c) ((pdats m o 0 c).arrAt · cfg0.N) (hF0 h c) (hrest0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at the contents after the gathers, left at those with the
    result array filled in; otherwise as the first. -/
def reg1 (h : Holds m o) : RegionSeg (pcfgs (F := F)) adm (pdats m o) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (T7 m o) c).loose
  hwaits := Pipeline.hwaits_of_owed_zero _ _ _ _ Ln lvn 1 fun _ _ => rfl
  pre c := iprop(StableHlo.held (c : Thread nD τ) (Pipeline.ucRefs τ sig) (V7 m o c) ∗ Rst c)
  post c := iprop(StableHlo.held (c : Thread nD τ) (Pipeline.ucRefs τ sig) (V8 m o c) ∗ Rst c)
  X c := iprop(∃ r, prngReg c r)
  Y c := iprop(∃ r, prngReg c r)
  Z c := Pipeline.unscopedRest (Ix := Unit) (Name := ℕ) (U := UR sig nD τ) (Lvl := ℕ) spec1 c (T7 m o c)
  hentry c := by
    rw [Pipeline.ownSems0_none]
    have hsplit := Pipeline.arrays_of_unscopedBufs (p := 1) (pcfgs (F := F)) adm (pdats m o) launch1.win launch1.arr_whole c
      ((pdats m o 1 c).share_full fun _ => rfl) (T7 m o c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m o 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m o 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m o) ((pdats m o 1 c).share_full fun _ => rfl)
      (T7 m o c) (T8 m o c) ((pdats m o 1 c).arrAt · cfg1.N) (hF1 h c) (hrest1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

variable (ρ : Dev nD → PrngReg)

set_option backward.isDefEq.respectTransparency.types false in
/-- Every weakly fair execution from memory `m` with zero counters terminates, and every final memory holds each
    unscoped buffer of core `c` at the last contents, `V8 m o c`. -/
theorem run_all (h : Holds m o) :
    θ_run defs (onTc (τ := τ) (main (F := F))) ⟨m, fun _ => 0, ρ⟩ (fun r => ∀ c : Dev nD,
      ∀ b ∈ Pipeline.ucRefs τ sig, r.2.mem ((c : Thread nD τ).1, b) = V8 m o c b) :=
  run_cond m emb₁ () 𝒱n Ln lvn (fun _ _ => rfl) ρ o (pdats m o) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (by
      refine Pipeline.initEach Ln lvn fun c => ?_
      iintro ⟨⟨-, HO, -, Hp, -⟩, -⟩
      imodintro
      isplitl [Hp]; · iexists _; iexact Hp
      iexists ∅; iexact HO)
    (fun c => by iintro ⟨-, HO⟩; iexact HO)
    (reg0 h) (fun _ => .rfl) (fun _ => .rfl)
    (reg1 h) (fun _ => .rfl) (fun _ => .rfl)

end Cert.KernelIdeal.Hand

end
-- ==== Proof.Found.lean ====
/-
  The contents the two regions leave, named.  `found m` holds, for the first region, its arrays at what the 25 grid
  points' write-backs leave (every other buffer as before the region), and for the second the same over the contents
  before it, which themselves are read through what the first region left.  `Holds m (found m)`: the unknowns of the run
  are met.
-/
import proofs.«405648_j75453985456536_1_alg».proof.Proof.Records

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- Every buffer after the first region: its arrays at what the pipeline leaves, the rest as before it. -/
def afterProj (c : Dev nD) : Valuation τ sig (Elt F) :=
  Pipeline.withArrays spec0 c (V1 m c) fun w => (dat0 (T1 m) c).arrAt w cfg0.N
/-- The first region's leavings as the run's unknowns (the second region's not yet). -/
def foundProj : Outs (F := F) := fun _ r c => afterProj m c r
/-- Every buffer after the second region, over the contents the gathers leave of the first region's result. -/
def afterComb (c : Dev nD) : Valuation τ sig (Elt F) :=
  Pipeline.withArrays spec1 c (V7 m (foundProj m) c) fun w => (dat1 (T7 m (foundProj m)) c).arrAt w cfg1.N
/-- Both regions' leavings: item 8 reads the second region's, every other item the first's. -/
def found : Outs (F := F) := fun j r c => if j = 8 then afterComb m c r else afterProj m c r

/-- Before the second region the contents read only what the first region left. -/
theorem T7_found : T7 m (found m) = T7 m (foundProj m) := rfl

theorem found_proj (c : Dev nD) : found m 2 main_v2 c = (dat0 (T1 m) c).arrAt 3 cfg0.N := by
  show afterProj m c main_v2 = _
  unfold afterProj
  exact Pipeline.withArrays_arr spec0 launch0.win.arr_inj c _ _ 3

theorem found_comb (c : Dev nD) : found m 8 main_v11 c = (dat1 (T7 m (found m)) c).arrAt 7 cfg1.N := by
  rw [T7_found]
  show afterComb m c main_v11 = _
  unfold afterComb
  exact Pipeline.withArrays_arr spec1 launch1.win.arr_inj c _ _ 7

theorem holds_found : Holds m (found m) := ⟨found_proj m, found_comb m⟩

/-! ## The run, read at the result and at the arguments -/

variable (ρ : Dev nD → PrngReg)

/-- The result array ends at what the second region's write-backs leave. -/
theorem V8_result (c : Dev nD) : V8 m (found m) c main_v11 = (dat1 (T7 m (found m)) c).arrAt 7 cfg1.N := by
  rw [← found_comb m c]
  simp only [V8, Function.update_self]

/-- An unscoped TensorCore reference is among those the run reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every weakly fair execution from memory `m` with zero counters terminates; the result array ends at what the
    second region leaves, and every argument array ends as launched (no host stretch writes one, no region changes one). -/
theorem run_found :
    θ_run defs (onTc (τ := τ) (main (F := F))) ⟨m, fun _ => 0, ρ⟩ (fun r => ∀ c : Dev nD,
      r.2.mem ((c.tc : Thread nD τ).loc main_v11) = (dat1 (T7 m (found m)) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c (Proc.devRef .tc main_v11) (mem_uc main_v11 (by decide))).trans (V8_result m c),
     (h c (Proc.devRef .tc main_arg0) (mem_uc main_arg0 (by decide))).trans (V8_main_arg0 m (found m) c),
     (h c (Proc.devRef .tc main_arg1) (mem_uc main_arg1 (by decide))).trans (V8_main_arg1 m (found m) c),
     (h c (Proc.devRef .tc main_arg2) (mem_uc main_arg2 (by decide))).trans (V8_main_arg2 m (found m) c),
     (h c (Proc.devRef .tc main_arg3) (mem_uc main_arg3 (by decide))).trans (V8_main_arg3 m (found m) c),
     (h c (Proc.devRef .tc main_arg4) (mem_uc main_arg4 (by decide))).trans (V8_main_arg4 m (found m) c),
     (h c (Proc.devRef .tc main_arg5) (mem_uc main_arg5 (by decide))).trans (V8_main_arg5 m (found m) c),
     (h c (Proc.devRef .tc main_arg6) (mem_uc main_arg6 (by decide))).trans (V8_main_arg6 m (found m) c),
     (h c (Proc.devRef .tc main_arg7) (mem_uc main_arg7 (by decide))).trans (V8_main_arg7 m (found m) c),
     (h c (Proc.devRef .tc main_arg8) (mem_uc main_arg8 (by decide))).trans (V8_main_arg8 m (found m) c),
     (h c (Proc.devRef .tc main_arg9) (mem_uc main_arg9 (by decide))).trans (V8_main_arg9 m (found m) c),
     (h c (Proc.devRef .tc main_arg10) (mem_uc main_arg10 (by decide))).trans (V8_main_arg10 m (found m) c),
     (h c (Proc.devRef .tc main_arg11) (mem_uc main_arg11 (by decide))).trans (V8_main_arg11 m (found m) c),
     (h c (Proc.devRef .tc main_arg12) (mem_uc main_arg12 (by decide))).trans (V8_main_arg12 m (found m) c)⟩)
    (run_all ρ (holds_found m))

end Cert.KernelIdeal.Hand

end
-- ==== Proof.Spec.lean ====
/-
  The mathematics of the edge network, as functions of the argument arrays over the extended reals.

  Nodes carry 128 features `x`.  Four linear layers with a rectifier project every node to 64 features each:
  `P_q(n, f) = max (Σ_k x(n,k) · W_q(k,f) + b_q(f), 0)`.  An edge `e` with endpoints `r = row e`, `c = col e` gets 321 features:
  `P_1(r,·)` (64), `P_2(c,·)` (64), `P_3(r,·) − P_3(c,·)` (64), `√(P_4(r,·) · P_4(c,·))` (64), the cosine similarity of `x(r,·)` and
  `x(c,·)` with each norm floored at `ε` (1), and the edge's own 64 attributes; the result is one more linear layer with a
  rectifier over those 321.  The kernel computes the four projections as ONE layer with the weights side by side
  (`proj` over 256 columns), gathers rows of it, and takes `√(max (·, 0))` of the product of two projections — which are
  non-negative, so the inner `max` changes nothing.
-/
import Idealize.ShloMosaic.Lib.ValueIdx
import Idealize.ShloMosaic.PureOps.Ideal

noncomputable section

namespace Cert.Spec

open Idealize.ShloMosaic Idealize.ShloMosaic.ValueIdx
open scoped BigOperators

/-- A matrix and a vector of extended reals, indexed as the printed arrays are. -/
abbrev Mat (a b : Nat) : Type := (⟨2, ![a, b]⟩ : Shape).Idx → EReal
abbrev Row (a : Nat) : Type := (⟨1, ![a]⟩ : Shape).Idx → EReal
/-- The edge list: two rows of 32-bit words. -/
abbrev Edges : Type := (⟨2, ![2, 400000]⟩ : Shape).Idx → BitVec 32

/-- Every endpoint is a node number: the domain on which gathering a row is reading that row. -/
def InRange (ei : Edges) : Prop := ∀ i, 0 ≤ (ei i).toInt ∧ (ei i).toInt < 50000

/-- The node a word names (a word outside the range is clamped, as a gather does; in range it is the word's value). -/
def node (w : BitVec 32) : Fin 50000 := ⟨min w.toInt.toNat 49999, by omega⟩
/-- Edge `e`'s source and target nodes. -/
def row (ei : Edges) (e : Fin 400000) : Fin 50000 := node (ei (ix2 (0 : Fin 2) e))
def col (ei : Edges) (e : Fin 400000) : Fin 50000 := node (ei (ix2 (1 : Fin 2) e))

/-- The floor of a norm in the cosine similarity: the 32-bit float nearest 1e-8, at its exact value. -/
def eps : EReal := Ideal.ofBits .f32 0x322BCC77#32

/-- A linear layer followed by a rectifier, at row `n` and output column `j`. -/
def layer {N D C : Nat} (x : Mat N D) (w : Mat D C) (b : Row C) (n : Fin N) (j : Fin C) : EReal :=
  max ((∑ k : Fin D, x (ix2 n k) * w (ix2 k j)) + b (ix1 j)) 0

/-- A row's Euclidean norm, floored at `ε`. -/
def norm {N D : Nat} (x : Mat N D) (n : Fin N) : EReal :=
  max (Ideal.sqrt (∑ k : Fin D, x (ix2 n k) * x (ix2 n k))) eps

/-- The cosine similarity of row `e` of two matrices. -/
def cosim {N D : Nat} (xr xc : Mat N D) (e : Fin N) : EReal :=
  Ideal.div (∑ k : Fin D, xr (ix2 e k) * xc (ix2 e k)) (norm xr e * norm xc e)

/-! ## The kernel's shape: from the gathered arrays -/

/-- Feature `k` of edge `e`, from the gathered projections `zr zc` (256 columns: the four layers side by side), the
    gathered node features `xr xc` and the edge attributes. -/
def feat {E : Nat} (zr zc : Mat E 256) (xr xc : Mat E 128) (ea : Mat E 64) (e : Fin E) (k : Fin 321) : EReal :=
  if h0 : k.val < 64 then zr (ix2 e (⟨k.val, by omega⟩ : Fin 256))
  else if h1 : k.val < 128 then zc (ix2 e (⟨k.val, by omega⟩ : Fin 256))
  else if h2 : k.val < 192 then zr (ix2 e (⟨k.val, by omega⟩ : Fin 256)) - zc (ix2 e (⟨k.val, by omega⟩ : Fin 256))
  else if h3 : k.val < 256 then
    Ideal.sqrt (max (zr (ix2 e (⟨k.val, by omega⟩ : Fin 256)) * zc (ix2 e (⟨k.val, by omega⟩ : Fin 256))) 0)
  else if h4 : k.val = 256 then cosim xr xc e
  else ea (ix2 e (⟨k.val - 257, by omega⟩ : Fin 64))

/-- The second region's result at edge `e`, output column `j`. -/
def comb {E : Nat} (zr zc : Mat E 256) (xr xc : Mat E 128) (ea : Mat E 64) (we : Mat 321 64) (be : Row 64)
    (e : Fin E) (j : Fin 64) : EReal :=
  max ((∑ k : Fin 321, feat zr zc xr xc ea e k * we (ix2 k j)) + be (ix1 j)) 0

/-! ## A row of the result depends on the same row of the inputs only

    (so a block's row is the array's row: what carries a grid point's block to the whole array) -/

theorem layer_congr {N N' D C : Nat} {x : Mat N D} {x' : Mat N' D} (w : Mat D C) (b : Row C) {n : Fin N} {n' : Fin N'}
    (h : ∀ k : Fin D, x (ix2 n k) = x' (ix2 n' k)) (j : Fin C) : layer x w b n j = layer x' w b n' j := by
  unfold layer
  rw [Finset.sum_congr rfl fun k _ => by rw [h k]]

theorem norm_congr {N N' D : Nat} {x : Mat N D} {x' : Mat N' D} {n : Fin N} {n' : Fin N'}
    (h : ∀ k : Fin D, x (ix2 n k) = x' (ix2 n' k)) : norm x n = norm x' n' := by
  unfold norm
  rw [Finset.sum_congr rfl fun k _ => by rw [h k]]

theorem feat_congr {E E' : Nat} {zr zc : Mat E 256} {xr xc : Mat E 128} {ea : Mat E 64}
    {zr' zc' : Mat E' 256} {xr' xc' : Mat E' 128} {ea' : Mat E' 64} {e : Fin E} {e' : Fin E'}
    (hzr : ∀ k, zr (ix2 e k) = zr' (ix2 e' k)) (hzc : ∀ k, zc (ix2 e k) = zc' (ix2 e' k))
    (hxr : ∀ k, xr (ix2 e k) = xr' (ix2 e' k)) (hxc : ∀ k, xc (ix2 e k) = xc' (ix2 e' k))
    (hea : ∀ k, ea (ix2 e k) = ea' (ix2 e' k)) (k : Fin 321) :
    feat zr zc xr xc ea e k = feat zr' zc' xr' xc' ea' e' k := by
  have hs : (∑ d : Fin 128, xr (ix2 e d) * xc (ix2 e d)) = ∑ d : Fin 128, xr' (ix2 e' d) * xc' (ix2 e' d) :=
    Finset.sum_congr rfl fun d _ => by rw [hxr d, hxc d]
  unfold feat cosim
  simp only [hzr, hzc, hea, norm_congr hxr, norm_congr hxc, hs]

theorem comb_congr {E E' : Nat} {zr zc : Mat E 256} {xr xc : Mat E 128} {ea : Mat E 64}
    {zr' zc' : Mat E' 256} {xr' xc' : Mat E' 128} {ea' : Mat E' 64} (we : Mat 321 64) (be : Row 64) {e : Fin E} {e' : Fin E'}
    (hzr : ∀ k, zr (ix2 e k) = zr' (ix2 e' k)) (hzc : ∀ k, zc (ix2 e k) = zc' (ix2 e' k))
    (hxr : ∀ k, xr (ix2 e k) = xr' (ix2 e' k)) (hxc : ∀ k, xc (ix2 e k) = xc' (ix2 e' k))
    (hea : ∀ k, ea (ix2 e k) = ea' (ix2 e' k)) (j : Fin 64) :
    comb zr zc xr xc ea we be e j = comb zr' zc' xr' xc' ea' we be e' j := by
  unfold comb
  rw [Finset.sum_congr rfl fun k _ => by rw [feat_congr hzr hzc hxr hxc hea k]]

/-! ## The reference's shape: from the argument arrays -/

/-- Feature `k` of edge `e`, from the four projections `p1 … p4` of the nodes, the node features and the edge attributes,
    the edge's endpoints being `r` and `c`. -/
def featRef (p1 p2 p3 p4 : Mat 50000 64) (x : Mat 50000 128) (ea : Mat 400000 64) (r c : Fin 50000) (e : Fin 400000)
    (k : Fin 321) : EReal :=
  if h0 : k.val < 64 then p1 (ix2 r (⟨k.val, by omega⟩ : Fin 64))
  else if h1 : k.val < 128 then p2 (ix2 c (⟨k.val - 64, by omega⟩ : Fin 64))
  else if h2 : k.val < 192 then p3 (ix2 r (⟨k.val - 128, by omega⟩ : Fin 64)) - p3 (ix2 c (⟨k.val - 128, by omega⟩ : Fin 64))
  else if h3 : k.val < 256 then
    Ideal.sqrt (p4 (ix2 r (⟨k.val - 192, by omega⟩ : Fin 64)) * p4 (ix2 c (⟨k.val - 192, by omega⟩ : Fin 64)))
  else if h4 : k.val = 256 then
    Ideal.div (∑ d : Fin 128, x (ix2 r d) * x (ix2 c d)) (norm x r * norm x c)
  else ea (ix2 e (⟨k.val - 257, by omega⟩ : Fin 64))

/-- The whole network's result at edge `e`, output column `j`, from the thirteen argument arrays. -/
def net (x : Mat 50000 128) (ei : Edges) (ea : Mat 400000 64) (w1 : Mat 128 64) (b1 : Row 64) (w2 : Mat 128 64) (b2 : Row 64)
    (w3 : Mat 128 64) (b3 : Row 64) (w4 : Mat 128 64) (b4 : Row 64) (we : Mat 321 64) (be : Row 64)
    (e : Fin 400000) (j : Fin 64) : EReal :=
  max ((∑ k : Fin 321,
      featRef (fun i => layer x w1 b1 (i 0) (i 1)) (fun i => layer x w2 b2 (i 0) (i 1)) (fun i => layer x w3 b3 (i 0) (i 1))
        (fun i => layer x w4 b4 (i 0) (i 1)) x ea (row ei e) (col ei e) e k * we (ix2 k j)) + be (ix1 j)) 0

end Cert.Spec

end
-- ==== Proof.LibOneAxisContraction.lean ====
/-
  A contraction over ONE axis, read at one entry of the result, is a plain sum over the contracted coordinate.

  A GENERAL lemma file (any shapes, any dimension numbers with a single contracting axis): a kernel's matmul into a
  zero accumulator and a reference's dot_general, at the ideal values, hold at each entry the sum, over the one
  contracted coordinate, of the products of the operands' entries, once one knows which entry of each operand sits at a
  given result index and contraction position — the two hypotheses `hL`, `hR` of the lemmas below, which a certificate
  proves per dimension-number record (axis by axis: off the contracted axis an operand index reads the result index, on
  it the contracted coordinate, by `contrEquiv1_symm_val`).
-/
import Idealize.ShloMosaic.Lib.ValueIdx
import Idealize.ShloMosaic.PureOps.Ideal.Laws

noncomputable section

namespace Cert.Dots

open Idealize.ShloMosaic Idealize.ShloMosaic.ValueIdx
open scoped BigOperators

/-- A contraction over ONE axis of extent `K`, read at a result index: once the two operand indices at contraction
    position `c` are known (`hL`, `hR`), the product is the sum over `c` of the operands' entries there. -/
theorem dotGeneral_apply_of {sl sr so : Shape} {φ₁ φ₂ : FTy} (d : DotDims sl sr so) (K : Nat) (hr : d.contr.rank = 1)
    (hs : d.contr.size ⟨0, by omega⟩ = K) (prec : Option ContractPrecision) (sched : HostSchedule)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    FloatOps.dotGeneral d prec sched lhs rhs j = ∑ c : Fin K, lhs (L c) * rhs (R c) := by
  rw [Ideal.dotGeneral_apply, ← Equiv.sum_comp (contrEquiv1 d K hr hs).symm]
  exact Finset.sum_congr rfl fun c _ => by rw [hL c, hR c]

/-- The same for a `tpu.matmul` into the zero accumulator. -/
theorem matmul_zero_apply_of {sl sr so : Shape} {φ₁ φ₂ : FTy} (d : DotDims sl sr so) (K : Nat) (hr : d.contr.rank = 1)
    (hs : d.contr.size ⟨0, by omega⟩ = K) (prec : Option ContractPrecision)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    matmul d prec lhs rhs (constant so .f32 0x00000000#32) j = ∑ c : Fin K, lhs (L c) * rhs (R c) := by
  show FloatOps.matmul d prec lhs rhs (constant so .f32 0x00000000#32) j = _
  rw [Ideal.matmul_constant_zero_apply, ← Equiv.sum_comp (contrEquiv1 d K hr hs).symm]
  exact Finset.sum_congr rfl fun c _ => by rw [hL c, hR c]

end Cert.Dots

end
-- ==== Proof.NodeProjPayload.lean ====
/-
  The node projection's block, entry by entry: what the body stores at row `p`, column `j` of its 2000 × 256 block is
  `max (Σ_k x(p,k) · W(k,j) + b(j), 0)` of the three staged blocks, over the extended reals.
-/
import proofs.«405648_j75453985456536_1_alg».proof.Proof.Gen.KernelIdeal.Skeleton
import proofs.«405648_j75453985456536_1_alg».proof.Proof.Spec
import proofs.«405648_j75453985456536_1_alg».proof.Proof.LibOneAxisContraction
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-! ## Which entries of the operands a product entry reads

    The product contracts the left operand's columns with the right operand's rows. Axis by axis: the left index keeps the
    result's row and takes the contracted coordinate as its column; the right index takes the contracted coordinate as its
    row and keeps the result's column. -/

/-- The left operand's row is the result's row. -/
theorem lhs_nodeProj_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl

/-- The left operand's column is the contracted coordinate. -/
theorem lhs_nodeProj_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q

/-- The right operand's row is the contracted coordinate. -/
theorem rhs_nodeProj_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q

/-- The right operand's column is the result's column. -/
theorem rhs_nodeProj_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

/-- The block product into the zero accumulator, at row `p` and column `j`: the sum over the 128 shared coordinates of the
    left operand's row `p` times the right operand's column `j`. -/
theorem nodeProj_matmul_at (a : FVec Ideal S2000x128 .bf16) (b : FVec Ideal S128x256 .bf16) (p : Fin 2000) (j : Fin 256) :
    matmul dot_S2000x128_S128x256_S2000x256_1_0_0_1_n_n none a b (constant (F := Ideal) S2000x256 .f32 0x00000000#32) (ix2 p j)
      = ∑ k : Fin 128, a (ix2 p k) * b (ix2 k j) := by
  refine Cert.Dots.matmul_zero_apply_of dot_S2000x128_S128x256_S2000x256_1_0_0_1_n_n 128 rfl rfl none a b (ix2 p j)
    (fun k => ix2 p k) (fun k => ix2 k j) (fun k => ?_) (fun k => ?_)
  · have hk := contrEquiv1_symm_val dot_S2000x128_S128x256_S2000x256_1_0_0_1_n_n 128 rfl rfl k
    exact funext fun ax => Fin.ext (by
      match ax with
      | ⟨0, _⟩ => exact lhs_nodeProj_0 _ _
      | ⟨1, _⟩ => exact (lhs_nodeProj_1 _ _).trans hk)
  · have hk := contrEquiv1_symm_val dot_S2000x128_S128x256_S2000x256_1_0_0_1_n_n 128 rfl rfl k
    exact funext fun ax => Fin.ext (by
      match ax with
      | ⟨0, _⟩ => exact (rhs_nodeProj_0 _ _).trans hk
      | ⟨1, _⟩ => exact rhs_nodeProj_1 _ _)

/-- The stored block at an entry is one linear layer with a rectifier of the staged blocks. -/
theorem nodeProj_payload (x0 : Vec Ideal S2000x128 .f32) (x1 : Vec Ideal S128x256 .f32) (x2 : Vec Ideal S256 .f32)
    (p : Fin 2000) (j : Fin 256) :
    k0_pay1 (F := Ideal) x0 x1 x2 (ix2 p j) = Cert.Spec.layer x0 x1 x2 p j := by
  unfold k0_pay1 Cert.Spec.layer
  rw [maximumf_apply, broadcast_apply, addf_apply, nodeProj_matmul_at, broadcastTo_1b_ab_apply, shapeCast_a_1a_apply,
    shapeCast_self, shapeCast_self]
  show max ((∑ k : Fin 128, x0 (ix2 p k) * x1 (ix2 k j)) + x2 (ix1 j)) (Ideal.ofBits .f32 0x00000000#32) = _
  rw [Ideal.ofBits_zero_f32]

end Cert.KernelIdeal.Hand

end
-- ==== Proof.NodeProjValue.lean ====
/-
  The node projection's output array after all 25 grid points, entry by entry: row `n`, column `j` holds
  `max (Σ_k x(n,k) · W(k,j) + b(j), 0)` of the three input arrays as the region finds them.

  Point `t` stages rows `2000 t … 2000 t + 1999` of the features and the whole weight matrix and bias, and writes
  back rows `2000 t … 2000 t + 1999` of the result.  A row of a linear layer depends on the same row of the features
  only, so what point `t` writes back is its block of ONE function of the whole arrays; the 25 blocks tile the
  50000 rows (row `r` lies in block `r / 2000`), so the array ends holding that function.
-/
import proofs.«405648_j75453985456536_1_alg».proof.Proof.NodeProjRegion
import proofs.«405648_j75453985456536_1_alg».proof.Proof.NodeProjPayload
import proofs.«405648_j75453985456536_1_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-! ## Where each window's block sits at a point -/

/-- The body's loads and its store start at the origin of their buffers. -/
theorem nodeProj_origin2 : (![0, 0] : Fin 2 → Nat) = fun _ => 0 := funext fun a => by fin_cases a <;> rfl
theorem nodeProj_origin1 : (![0] : Fin 1 → Nat) = fun _ => 0 := funext fun a => by fin_cases a; rfl

/-- The block indices at point `t`, decided over the 25 points: the features' and the result's row block is the
    `t`-th, every other index is zero. -/
theorem nodeProj_blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row `p` of the features' block at point `t` is row `2000 t + p` of the features. -/
theorem nodeProj_xblk_row (c : Dev nD) (t : Fin cfg0.N) (p : Fin 2000) (k : Fin 128) (n : Fin 50000)
    (hn : n.val = 2000 * t.val + p.val) :
    (iblk0 V c 0 t : Vec Ideal S2000x128 .f32) (ix2 p k) = (V c main_arg0 : S50000x128.Idx → EReal) (ix2 n k) := by
  obtain ⟨e0, e1, -⟩ := nodeProj_blockIndex t
  unfold iblk0
  rw [View.read_apply]
  show V c main_arg0 (((cfg0.win 0).blk t).view.emb (ix2 p k)) = V c main_arg0 (ix2 n k)
  refine congrArg (V c main_arg0) (funext fun a => Fin.ext ?_)
  match a with
  | ⟨0, _⟩ => show win0_0.index t (0 : Fin 2) * 2000 + 1 * p.val = n.val; omega
  | ⟨1, _⟩ => show win0_0.index t (1 : Fin 2) * 128 + 1 * k.val = k.val; omega

/-- The weights' one block is the whole matrix. -/
theorem nodeProj_wblk_eq (c : Dev nD) (t : Fin cfg0.N) :
    (iblk0 V c 1 t : Vec Ideal S128x256 .f32) = (V c main_v0 : S128x256.Idx → EReal) := by
  obtain ⟨-, -, e0, e1, -⟩ := nodeProj_blockIndex t
  unfold iblk0
  funext y
  rw [View.read_apply]
  show V c main_v0 (((cfg0.win 1).blk t).view.emb y) = V c main_v0 y
  refine congrArg (V c main_v0) (funext fun a => Fin.ext ?_)
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- The bias's one block is the whole vector. -/
theorem nodeProj_bblk_eq (c : Dev nD) (t : Fin cfg0.N) :
    (iblk0 V c 2 t : Vec Ideal S256 .f32) = (V c main_v1 : S256.Idx → EReal) := by
  obtain ⟨-, -, -, -, e0, -⟩ := nodeProj_blockIndex t
  unfold iblk0
  funext y
  rw [View.read_apply]
  show V c main_v1 (((cfg0.win 2).blk t).view.emb y) = V c main_v1 y
  refine congrArg (V c main_v1) (funext fun a => Fin.ext ?_)
  match a with
  | ⟨0, _⟩ => show win0_2.index t (0 : Fin 1) * 256 + 1 * (y 0).val = (y 0).val; omega

/-- Entry `(p, q)` of the result's block at point `t` sits at row `2000 t + p`, column `q` of the array. -/
theorem nodeProj_oblk_emb (t : Fin cfg0.N) (p : Fin 2000) (q : Fin 256) (n : Fin 50000) (hn : n.val = 2000 * t.val + p.val) :
    ((cfg0.win 3).blk t).view.emb (ix2 p q) = (ix2 n q : S50000x256.Idx) := by
  obtain ⟨-, -, -, -, -, e0, e1⟩ := nodeProj_blockIndex t
  refine funext fun a => Fin.ext ?_
  match a with
  | ⟨0, _⟩ => show win0_3.index t (0 : Fin 2) * 2000 + 1 * p.val = n.val; omega
  | ⟨1, _⟩ => show win0_3.index t (1 : Fin 2) * 256 + 1 * q.val = q.val; omega

/-! ## What a point writes back -/

/-- The linear layer with its rectifier over the whole arrays, as one function of the result's index. -/
def nodeProj_fn (c : Dev nD) : S50000x256.Idx → EReal := fun i =>
  Cert.Spec.layer (V c main_arg0 : S50000x128.Idx → EReal) (V c main_v0 : S128x256.Idx → EReal) (V c main_v1 : S256.Idx → EReal) (i 0) (i 1)

/-- What point `t` writes back is block `t` of that function: the stored payload at `(p, q)` is the layer of the
    staged blocks at row `p`, whose features are row `2000 t + p` of the array and whose weights and bias are whole. -/
theorem nodeProj_flushed_eq (c : Dev nD) (t : Fin cfg0.N) :
    (dat0 V c).flushed 3 t = ((cfg0.win 3).blk t).view.read (Elt Ideal) (nodeProj_fn V c) := by
  have hN : cfg0.N = 25 := N_0
  show (cfg0.win 3).cut (grid0.coords t) ((dat0 V c).after 3 t) = _
  rw [after0_3]
  unfold out0_3
  rw [View.canon_unit_zero nodeProj_origin2]
  simp only [View.ld_unit_zero (S := S2000x128) nodeProj_origin2, View.ld_unit_zero (S := S128x256) nodeProj_origin2,
    View.ld_unit_zero (S := S256) nodeProj_origin1]
  funext y
  obtain ⟨p, q, rfl⟩ : ∃ (p : Fin 2000) (q : Fin 256), y = ix2 p q := ⟨y 0, y 1, eq_ix2 y⟩
  have hp : p.val < 2000 := p.isLt
  have ht : t.val < 25 := hN ▸ t.isLt
  rw [View.read_apply]
  show k0_pay1 (F := Ideal) (iblk0 V c 0 t) (iblk0 V c 1 t) (iblk0 V c 2 t) (ix2 p q)
    = nodeProj_fn V c (((cfg0.win 3).blk t).view.emb (ix2 p q))
  rw [nodeProj_oblk_emb t p q ⟨2000 * t.val + p.val, by omega⟩ rfl]
  refine (nodeProj_payload (iblk0 V c 0 t) (iblk0 V c 1 t) (iblk0 V c 2 t) p q).trans ?_
  show Cert.Spec.layer (iblk0 V c 0 t : Vec Ideal S2000x128 .f32) (iblk0 V c 1 t : Vec Ideal S128x256 .f32) (iblk0 V c 2 t : Vec Ideal S256 .f32) p q
    = Cert.Spec.layer (V c main_arg0 : S50000x128.Idx → EReal) (V c main_v0 : S128x256.Idx → EReal) (V c main_v1 : S256.Idx → EReal) (⟨2000 * t.val + p.val, by omega⟩ : Fin 50000) q
  rw [nodeProj_wblk_eq V c t, nodeProj_bblk_eq V c t]
  exact Cert.Spec.layer_congr _ _ (fun k => nodeProj_xblk_row V c t p k ⟨2000 * t.val + p.val, by omega⟩ rfl) q

/-! ## The 25 blocks tile the array -/

/-- An index of the result is in point `t`'s block iff each coordinate is in the block's range on its axis. -/
theorem nodeProj_mem_oblk (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v2).slice (win0_3.rect t)).set ↔ _
  rw [View.set_slice_whole, Rect.mem_set_unit]
  exact Iff.rfl

/-- Row `r` lies in the block of point `r / 2000`, which writes back like every point. -/
theorem nodeProj_covered (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨-, -, -, -, -, e0, e1⟩ := nodeProj_blockIndex t
  refine ⟨t, flush0_3 t, ?_⟩
  rw [nodeProj_mem_oblk]
  intro a
  match a with
  | ⟨0, _⟩ =>
    show win0_3.index t (0 : Fin 2) * 2000 ≤ (i 0).val ∧ (i 0).val < win0_3.index t (0 : Fin 2) * 2000 + 2000
    rw [e0]
    show (i 0).val / 2000 * 2000 ≤ (i 0).val ∧ (i 0).val < (i 0).val / 2000 * 2000 + 2000
    omega
  | ⟨1, _⟩ =>
    show win0_3.index t (1 : Fin 2) * 256 ≤ (i 1).val ∧ (i 1).val < win0_3.index t (1 : Fin 2) * 256 + 256
    rw [e1]
    omega

/-! ## The array after the region -/

/-- The result array after all the grid points is the layer of the whole input arrays. -/
theorem nodeProj_array (c : Dev nD) : (dat0 V c).arrAt 3 cfg0.N = nodeProj_fn V c :=
  (dat0 V c).arrAt_eq_of_cover 3 (nodeProj_fn V c) (fun t _ => nodeProj_flushed_eq V c t) nodeProj_covered

/-- Entry by entry. -/
theorem nodeProj_final (V : (c : Dev nD) → (b : Ref sig .tc) → Buf (Elt Ideal) ((c : Thread nD τ).loc b)) (c : Dev nD)
    (n : Fin 50000) (j : Fin 256) :
    (dat0 (F := Ideal) V c).arrAt 3 cfg0.N (ix2 n j)
      = Cert.Spec.layer (V c main_arg0) (V c main_v0) (V c main_v1) n j :=
  congrFun (nodeProj_array V c) (ix2 n j)

end Cert.KernelIdeal.Hand

end
-- ==== Proof.CombinePayload.lean ====
/-
  The per-edge combine's block, entry by entry: the 321 features the body assembles for row `p` of its staged blocks,
  and the stored entry at row `p`, column `j`: `max (Σ_k feat(p,k) · We(k,j) + be(j), 0)`, over the extended reals.
-/
import proofs.«405648_j75453985456536_1_alg».proof.Proof.Gen.KernelIdeal.Skeleton
import proofs.«405648_j75453985456536_1_alg».proof.Proof.Spec
import proofs.«405648_j75453985456536_1_alg».proof.Proof.LibOneAxisContraction
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-! ## Layout operations at these shapes, read at an entry -/

section Layout
variable {α : Type}

/-- Matrices laid side by side (a concatenation along the columns), read at row `p`, column `c`: the piece `k` whose
    columns start at `pre` and hold `c`, at its own column `c' = c - pre`. -/
theorem concat_cols_apply {n m w : Nat} (xs : List ((s : Shape) × (s.Idx → α)))
    (h : Shape.Concatenates (xs.map (·.1)) ⟨2, ![n, m]⟩ 1) (p : Fin n) (c : Fin m)
    (k : Nat) (hk : k < xs.length) (x₁ : (⟨2, ![n, w]⟩ : Shape).Idx → α) (hxk : xs[k] = ⟨⟨2, ![n, w]⟩, x₁⟩)
    (pre : Nat)
    (hpre : (((xs.take k).map (·.1)).map fun s : Shape =>
      if h : s.rank = (⟨2, ![n, m]⟩ : Shape).rank then s.size ((1 : Fin (⟨2, ![n, m]⟩ : Shape).rank).cast h.symm) else 0).sum = pre)
    (c' : Fin w) (hc : pre + c'.val = c.val) :
    concatenate ⟨2, ![n, m]⟩ 1 xs h (ix2 p c) = x₁ (ix2 p c') :=
  concatenate_apply_piece (t := ⟨2, ![n, m]⟩) 1 xs h (ix2 p c) k hk ⟨2, ![n, w]⟩ x₁ hxk rfl pre hpre (ix2 p c')
    (fun b hb => match b, hb with
      | ⟨0, _⟩, _ => rfl
      | ⟨1, _⟩, hb => (hb rfl).elim)
    hc

/-- A vector turned into a one-column matrix reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- A row's sum: the lane reduction of a 1600 × 128 block at row `p` is the sum over the 128 columns. -/
theorem rowSum_apply (v : FVec Ideal S1600x128 .f32) (hφ : FKind.Formats .f32)
    (hacc : (0x00000000#32 : BitVec (FTy.f32).bits) = FKind.add.neutral .f32 hφ) (p : Fin 1600) :
    multiReduction (F := Ideal) .add [1] S1600 v 0x00000000#32 reduces_S1600x128_S1600 hφ hacc (ix1 p)
      = ∑ k : Fin 128, v (ix2 p k) := by
  refine (Ideal.multiReduction_add_single v 0x00000000#32 reduces_S1600x128_S1600 hφ hacc (ix1 p)).trans ?_
  refine Finset.sum_congr rfl fun k _ => congrArg v ?_
  funext c
  apply Fin.ext
  match c with
  | ⟨0, _⟩ => rfl
  | ⟨1, _⟩ => rfl

/-! ## The body's pieces as functions of the staged blocks -/

/-- The four projected bands side by side: `zr`'s first band, `zc`'s second, the difference of the third bands and the root of
    the floored product of the fourth. -/
def zcat (z w : FVec Ideal S1600x256 .f32) : FVec Ideal S1600x256 .f32 :=
  concatenate S1600x256 1
    [⟨S1600x64, extractStridedSlice S1600x64 ![0, 0] z slices_S1600x256_o0_0_S1600x64⟩,
     ⟨S1600x64, extractStridedSlice S1600x64 ![0, 64] w slices_S1600x256_o0_64_S1600x64⟩,
     ⟨S1600x64, subf (extractStridedSlice S1600x64 ![0, 128] z slices_S1600x256_o0_128_S1600x64)
        (extractStridedSlice S1600x64 ![0, 128] w slices_S1600x256_o0_128_S1600x64)⟩,
     ⟨S1600x64, sqrt (maximumf
        (mulf (extractStridedSlice S1600x64 ![0, 192] z slices_S1600x256_o0_192_S1600x64)
          (extractStridedSlice S1600x64 ![0, 192] w slices_S1600x256_o0_192_S1600x64))
        (broadcast S1600x64 (Scalar.ofBits .f32 0x00000000#32)))⟩]
    concatenates_S1600x64_S1600x64_S1600x64_S1600x64_S1600x256_d1

/-- The inner products of matching rows, as a column. -/
def dotCol (a b : FVec Ideal S1600x128 .f32) : FVec Ideal S1600x1 .f32 :=
  shapeCast S1600x1 (multiReduction .add [1] S1600 (mulf a b) 0x00000000#32 reduces_S1600x128_S1600 (.inl rfl) rfl)
    shapeCasts_S1600_S1600x1

/-- The floored norms of the rows, as a column. -/
def normCol (a : FVec Ideal S1600x128 .f32) : FVec Ideal S1600x1 .f32 :=
  maximumf (sqrt (dotCol a a)) (broadcast S1600x1 (Scalar.ofBits .f32 0x322BCC77#32))

/-- The cosine similarities of matching rows, as a column. -/
def cosCol (a b : FVec Ideal S1600x128 .f32) : FVec Ideal S1600x1 .f32 :=
  divf (dotCol a b) (mulf (normCol a) (normCol b))

/-- The 321 features side by side. -/
def featCat (zc : FVec Ideal S1600x256 .f32) (cs : FVec Ideal S1600x1 .f32) (ea : FVec Ideal S1600x64 .f32) :
    FVec Ideal S1600x321 .f32 :=
  concatenate S1600x321 1 [⟨S1600x256, zc⟩, ⟨S1600x1, cs⟩, ⟨S1600x64, ea⟩]
    concatenates_S1600x256_S1600x1_S1600x64_S1600x321_d1

/-- The body's feature block is those pieces of the staged blocks (each first cast to its own shape). -/
theorem pay2_apply (x0 x1 : Vec Ideal S1600x256 .f32) (x2 x3 : Vec Ideal S1600x128 .f32) (x4 : Vec Ideal S1600x64 .f32)
    (i : S1600x321.Idx) :
    k1_pay2 (F := Ideal) x0 x1 x2 x3 x4 i
      = featCat (zcat (shapeCast S1600x256 x0 shapeCasts_S1600x256_S1600x256) (shapeCast S1600x256 x1 shapeCasts_S1600x256_S1600x256))
          (cosCol (shapeCast S1600x128 x2 shapeCasts_S1600x128_S1600x128) (shapeCast S1600x128 x3 shapeCasts_S1600x128_S1600x128))
          x4 i := rfl

/-! ## The pieces at an entry -/

/-- Columns 0–63 of the bands: `z`'s own. -/
theorem zcat_apply_0 (z w : FVec Ideal S1600x256 .f32) (p : Fin 1600) (c : Fin 256) (h : c.val < 64) :
    zcat z w (ix2 p c) = z (ix2 p c) := by
  unfold zcat
  refine (concat_cols_apply _ _ p c 0 (by simp) _ rfl 0 rfl (⟨c.val, h⟩ : Fin 64) (Nat.zero_add _)).trans ?_
  exact slice2_axis1_apply 0 z _ p _ c (Nat.zero_add _).symm

/-- Columns 64–127: `w`'s own. -/
theorem zcat_apply_1 (z w : FVec Ideal S1600x256 .f32) (p : Fin 1600) (c : Fin 256) (h0 : 64 ≤ c.val) (h1 : c.val < 128) :
    zcat z w (ix2 p c) = w (ix2 p c) := by
  unfold zcat
  refine (concat_cols_apply _ _ p c 1 (by simp) _ rfl 64 rfl (⟨c.val - 64, by omega⟩ : Fin 64) (by show 64 + (c.val - 64) = c.val; omega)).trans ?_
  exact slice2_axis1_apply 64 w _ p _ c (by show c.val = 64 + (c.val - 64); omega)

/-- Columns 128–191: the difference. -/
theorem zcat_apply_2 (z w : FVec Ideal S1600x256 .f32) (p : Fin 1600) (c : Fin 256) (h0 : 128 ≤ c.val) (h1 : c.val < 192) :
    zcat z w (ix2 p c) = z (ix2 p c) - w (ix2 p c) := by
  unfold zcat
  refine (concat_cols_apply _ _ p c 2 (by simp) _ rfl 128 rfl (⟨c.val - 128, by omega⟩ : Fin 64) (by show 128 + (c.val - 128) = c.val; omega)).trans ?_
  rw [subf_apply, slice2_axis1_apply 128 z _ p _ c (by show c.val = 128 + (c.val - 128); omega),
    slice2_axis1_apply 128 w _ p _ c (by show c.val = 128 + (c.val - 128); omega)]

/-- Columns 192–255: the root of the product floored at zero. -/
theorem zcat_apply_3 (z w : FVec Ideal S1600x256 .f32) (p : Fin 1600) (c : Fin 256) (h0 : 192 ≤ c.val) :
    zcat z w (ix2 p c) = Ideal.sqrt (max (z (ix2 p c) * w (ix2 p c)) 0) := by
  unfold zcat
  refine (concat_cols_apply _ _ p c 3 (by simp) _ rfl 192 rfl (⟨c.val - 192, by have := c.isLt; omega⟩ : Fin 64)
    (by show 192 + (c.val - 192) = c.val; omega)).trans ?_
  show Ideal.sqrt (max (_ * _) (Ideal.ofBits .f32 0x00000000#32)) = _
  rw [Ideal.ofBits_zero_f32, slice2_axis1_apply 192 z _ p _ c (by show c.val = 192 + (c.val - 192); omega),
    slice2_axis1_apply 192 w _ p _ c (by show c.val = 192 + (c.val - 192); omega)]

/-- The column of inner products at row `p`. -/
theorem dotCol_apply (a b : FVec Ideal S1600x128 .f32) (p : Fin 1600) (u : Fin 1) :
    dotCol a b (ix2 p u) = ∑ k : Fin 128, a (ix2 p k) * b (ix2 p k) := by
  unfold dotCol
  refine (shapeCast_a_a1_apply _ _ p u).trans ?_
  exact rowSum_apply (mulf a b) _ _ p

/-- The column of floored norms at row `p`. -/
theorem normCol_apply (a : FVec Ideal S1600x128 .f32) (p : Fin 1600) (u : Fin 1) :
    normCol a (ix2 p u) = Cert.Spec.norm a p := by
  unfold normCol Cert.Spec.norm Cert.Spec.eps
  show max (Ideal.sqrt (dotCol a a (ix2 p u))) (Ideal.ofBits .f32 0x322BCC77#32) = _
  rw [dotCol_apply]

/-- The column of cosine similarities at row `p`. -/
theorem cosCol_apply (a b : FVec Ideal S1600x128 .f32) (p : Fin 1600) (u : Fin 1) :
    cosCol a b (ix2 p u) = Cert.Spec.cosim a b p := by
  unfold cosCol Cert.Spec.cosim
  show Ideal.div (dotCol a b (ix2 p u)) (normCol a (ix2 p u) * normCol b (ix2 p u)) = _
  rw [dotCol_apply, normCol_apply, normCol_apply]

/-- Features 0–255: the bands. -/
theorem featCat_apply_0 (zc : FVec Ideal S1600x256 .f32) (cs : FVec Ideal S1600x1 .f32) (ea : FVec Ideal S1600x64 .f32)
    (p : Fin 1600) (k : Fin 321) (h : k.val < 256) : featCat zc cs ea (ix2 p k) = zc (ix2 p (⟨k.val, h⟩ : Fin 256)) := by
  unfold featCat
  exact concat_cols_apply _ _ p k 0 (by simp) _ rfl 0 rfl (⟨k.val, h⟩ : Fin 256) (Nat.zero_add _)

/-- Feature 256: the similarity. -/
theorem featCat_apply_1 (zc : FVec Ideal S1600x256 .f32) (cs : FVec Ideal S1600x1 .f32) (ea : FVec Ideal S1600x64 .f32)
    (p : Fin 1600) (k : Fin 321) (h : k.val = 256) : featCat zc cs ea (ix2 p k) = cs (ix2 p (0 : Fin 1)) := by
  unfold featCat
  exact concat_cols_apply _ _ p k 1 (by simp) _ rfl 256 rfl (0 : Fin 1) (by show 256 + 0 = k.val; omega)

/-- Features 257–320: the edge's attributes. -/
theorem featCat_apply_2 (zc : FVec Ideal S1600x256 .f32) (cs : FVec Ideal S1600x1 .f32) (ea : FVec Ideal S1600x64 .f32)
    (p : Fin 1600) (k : Fin 321) (h : 257 ≤ k.val) :
    featCat zc cs ea (ix2 p k) = ea (ix2 p (⟨k.val - 257, by have := k.isLt; omega⟩ : Fin 64)) := by
  unfold featCat
  exact concat_cols_apply _ _ p k 2 (by simp) _ rfl 257 rfl (⟨k.val - 257, by have := k.isLt; omega⟩ : Fin 64)
    (by show 257 + (k.val - 257) = k.val; omega)

/-- The assembled feature row. -/
theorem combine_feat (x0 x1 : Vec Ideal S1600x256 .f32) (x2 x3 : Vec Ideal S1600x128 .f32) (x4 : Vec Ideal S1600x64 .f32)
    (p : Fin 1600) (k : Fin 321) :
    k1_pay2 (F := Ideal) x0 x1 x2 x3 x4 (ix2 p k) = Cert.Spec.feat x0 x1 x2 x3 x4 p k := by
  rw [pay2_apply, shapeCast_self, shapeCast_self, shapeCast_self, shapeCast_self]
  unfold Cert.Spec.feat
  by_cases h0 : k.val < 64
  · rw [dif_pos h0]
    exact (featCat_apply_0 _ _ _ p k (by omega)).trans (zcat_apply_0 x0 x1 p ⟨k.val, by omega⟩ h0)
  rw [dif_neg h0]
  by_cases h1 : k.val < 128
  · rw [dif_pos h1]
    exact (featCat_apply_0 _ _ _ p k (by omega)).trans
      (zcat_apply_1 x0 x1 p ⟨k.val, by omega⟩ (by show 64 ≤ k.val; omega) h1)
  rw [dif_neg h1]
  by_cases h2 : k.val < 192
  · rw [dif_pos h2]
    exact (featCat_apply_0 _ _ _ p k (by omega)).trans
      (zcat_apply_2 x0 x1 p ⟨k.val, by omega⟩ (by show 128 ≤ k.val; omega) h2)
  rw [dif_neg h2]
  by_cases h3 : k.val < 256
  · rw [dif_pos h3]
    exact (featCat_apply_0 _ _ _ p k h3).trans
      (zcat_apply_3 x0 x1 p ⟨k.val, h3⟩ (by show 192 ≤ k.val; omega))
  rw [dif_neg h3]
  by_cases h4 : k.val = 256
  · rw [dif_pos h4]
    exact (featCat_apply_1 _ _ _ p k h4).trans (cosCol_apply x2 x3 p 0)
  rw [dif_neg h4]
  exact featCat_apply_2 _ _ _ p k (by omega)

/-! ## The product with the last layer's weights -/

/-- Row axis of the left operand: the result's row. -/
theorem lhs_combine_0 (i : S1600x64.Idx) (q : dot_S1600x321_S321x64_S1600x64_1_0_0_1_n_n.contr.Idx) :
    (dot_S1600x321_S321x64_S1600x64_1_0_0_1_n_n.lhsIdx i q 0).val = (i 0).val := by
  unfold DotDims.lhsIdx
  rw [dif_neg (show ¬(0 : Fin S1600x321.rank) ∈ dot_S1600x321_S321x64_S1600x64_1_0_0_1_n_n.lhsBatch by decide),
    dif_pos (show (0 : Fin S1600x321.rank) ∈ dot_S1600x321_S321x64_S1600x64_1_0_0_1_n_n.lhsNonContracting by decide)]
  rfl
/-- Column axis of the left operand: the contracted coordinate. -/
theorem lhs_combine_1 (i : S1600x64.Idx) (q : dot_S1600x321_S321x64_S1600x64_1_0_0_1_n_n.contr.Idx) :
    (dot_S1600x321_S321x64_S1600x64_1_0_0_1_n_n.lhsIdx i q 1).val = (q ⟨0, by decide⟩).val :=
  dot_S1600x321_S321x64_S1600x64_1_0_0_1_n_n.lhsIdx_val_of_single rfl i q
/-- Row axis of the right operand: the contracted coordinate. -/
theorem rhs_combine_0 (i : S1600x64.Idx) (q : dot_S1600x321_S321x64_S1600x64_1_0_0_1_n_n.contr.Idx) :
    (dot_S1600x321_S321x64_S1600x64_1_0_0_1_n_n.rhsIdx i q 0).val = (q ⟨0, by decide⟩).val :=
  dot_S1600x321_S321x64_S1600x64_1_0_0_1_n_n.rhsIdx_val_of_single rfl i q
/-- Column axis of the right operand: the result's column. -/
theorem rhs_combine_1 (i : S1600x64.Idx) (q : dot_S1600x321_S321x64_S1600x64_1_0_0_1_n_n.contr.Idx) :
    (dot_S1600x321_S321x64_S1600x64_1_0_0_1_n_n.rhsIdx i q 1).val = (i 1).val := by
  unfold DotDims.rhsIdx
  rw [dif_neg (show ¬(1 : Fin S321x64.rank) ∈ dot_S1600x321_S321x64_S1600x64_1_0_0_1_n_n.rhsBatch by decide),
    dif_pos (show (1 : Fin S321x64.rank) ∈ dot_S1600x321_S321x64_S1600x64_1_0_0_1_n_n.rhsNonContracting by decide)]
  rfl

/-- The product into the zero block, at row `p`, column `j`: the sum over the 321 features. -/
theorem matmul_combine_apply (l : FVec Ideal S1600x321 .bf16) (r : FVec Ideal S321x64 .bf16) (p : Fin 1600) (j : Fin 64) :
    matmul dot_S1600x321_S321x64_S1600x64_1_0_0_1_n_n none l r (constant (F := Ideal) S1600x64 .f32 0x00000000#32) (ix2 p j)
      = ∑ c : Fin 321, l (ix2 p c) * r (ix2 c j) := by
  refine Cert.Dots.matmul_zero_apply_of dot_S1600x321_S321x64_S1600x64_1_0_0_1_n_n 321 rfl rfl none l r (ix2 p j)
    (fun c => ix2 p c) (fun c => ix2 c j) (fun c => ?_) (fun c => ?_)
  · have hk := contrEquiv1_symm_val dot_S1600x321_S321x64_S1600x64_1_0_0_1_n_n 321 rfl rfl c
    exact funext fun a => Fin.ext (by
      match a with
      | ⟨0, _⟩ => exact lhs_combine_0 _ _
      | ⟨1, _⟩ => exact (lhs_combine_1 _ _).trans hk)
  · have hk := contrEquiv1_symm_val dot_S1600x321_S321x64_S1600x64_1_0_0_1_n_n 321 rfl rfl c
    exact funext fun a => Fin.ext (by
      match a with
      | ⟨0, _⟩ => exact (rhs_combine_0 _ _).trans hk
      | ⟨1, _⟩ => exact rhs_combine_1 _ _)

/-- The stored block is the rectified sum of the product and the bias row. -/
theorem pay1_apply (l : FVec Ideal S1600x321 .bf16) (x5 : Vec Ideal S321x64 .f32) (x6 : Vec Ideal S64 .f32) (i : S1600x64.Idx) :
    k1_pay1 (F := Ideal) l x5 x6 i
      = max (matmul dot_S1600x321_S321x64_S1600x64_1_0_0_1_n_n none l (truncf .bf16 x5 bitsLt_bf16_f32)
              (constant (F := Ideal) S1600x64 .f32 0x00000000#32) i
            + broadcastTo S1600x64 (shapeCast S1x64 x6 shapeCasts_S64_S1x64) broadcasts_S1x64_S1600x64 i)
          (Ideal.ofBits .f32 0x00000000#32) := rfl

/-- The stored block at an entry. -/
theorem combine_payload (x0 x1 : Vec Ideal S1600x256 .f32) (x2 x3 : Vec Ideal S1600x128 .f32) (x4 : Vec Ideal S1600x64 .f32)
    (x5 : Vec Ideal S321x64 .f32) (x6 : Vec Ideal S64 .f32) (p : Fin 1600) (j : Fin 64) :
    k1_pay1 (F := Ideal) (k1_pay2 x0 x1 x2 x3 x4) x5 x6 (ix2 p j) = Cert.Spec.comb x0 x1 x2 x3 x4 x5 x6 p j := by
  rw [pay1_apply, matmul_combine_apply, broadcastTo_1b_ab_apply, shapeCast_a_1a_apply, Ideal.ofBits_zero_f32]
  unfold Cert.Spec.comb
  rw [Finset.sum_congr rfl fun c _ => by rw [combine_feat x0 x1 x2 x3 x4 p c]]
  rfl

end Cert.KernelIdeal.Hand

end
-- ==== Proof.CombineValue.lean ====
/-
  The per-edge combine's output array after all 250 grid points, entry by entry: row `e`, column `j` holds
  `max (Σ_k feat(e,k) · We(k,j) + be(j), 0)`, the 321 features of edge `e` being assembled from row `e` of the four
  gathered arrays and of the edge attributes, as the region finds them.

  Point `t` stages rows `1600 t … 1600 t + 1599` of the five row-blocked arrays and the whole output weights and
  bias, and writes back rows `1600 t … 1600 t + 1599` of the result.  A row of the result depends on the same row of
  the five arrays only, so what point `t` writes back is its block of ONE function of the whole arrays; the 250
  blocks tile the 400000 rows (row `r` lies in block `r / 1600`), so the array ends holding that function.
-/
import proofs.«405648_j75453985456536_1_alg».proof.Proof.CombineRegion
import proofs.«405648_j75453985456536_1_alg».proof.Proof.CombinePayload
import proofs.«405648_j75453985456536_1_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-! ## Where each window's block sits at a point -/

/-- The body's loads and its store start at the origin of their buffers. -/
theorem combine_origin2 : (![0, 0] : Fin 2 → Nat) = fun _ => 0 := funext fun a => by fin_cases a <;> rfl
theorem combine_origin1 : (![0] : Fin 1 → Nat) = fun _ => 0 := funext fun a => by fin_cases a; rfl

/-- The block indices at point `t`, decided over the 250 points: the five row-blocked inputs' and the result's row
    block is the `t`-th, every other index is zero. -/
theorem combine_blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- Row `p` of the block at point `t` of the source nodes' gathered projections is row `1600 t + p` of that array, -/
theorem combine_zrblk_row (c : Dev nD) (t : Fin cfg1.N) (p : Fin 1600) (k : Fin 256) (e : Fin 400000)
    (he : e.val = 1600 * t.val + p.val) :
    (iblk1 V c 0 t : Vec Ideal S1600x256 .f32) (ix2 p k) = (V c main_v7 : S400000x256.Idx → EReal) (ix2 e k) := by
  obtain ⟨e0, e1, -⟩ := combine_blockIndex t
  unfold iblk1
  rw [View.read_apply]
  show V c main_v7 (((cfg1.win 0).blk t).view.emb (ix2 p k)) = V c main_v7 (ix2 e k)
  refine congrArg (V c main_v7) (funext fun a => Fin.ext ?_)
  match a with
  | ⟨0, _⟩ => show win1_0.index t (0 : Fin 2) * 1600 + 1 * p.val = e.val; omega
  | ⟨1, _⟩ => show win1_0.index t (1 : Fin 2) * 256 + 1 * k.val = k.val; omega

/-- and so for the target nodes' gathered projections, -/
theorem combine_zcblk_row (c : Dev nD) (t : Fin cfg1.N) (p : Fin 1600) (k : Fin 256) (e : Fin 400000)
    (he : e.val = 1600 * t.val + p.val) :
    (iblk1 V c 1 t : Vec Ideal S1600x256 .f32) (ix2 p k) = (V c main_v8 : S400000x256.Idx → EReal) (ix2 e k) := by
  obtain ⟨-, -, e0, e1, -⟩ := combine_blockIndex t
  unfold iblk1
  rw [View.read_apply]
  show V c main_v8 (((cfg1.win 1).blk t).view.emb (ix2 p k)) = V c main_v8 (ix2 e k)
  refine congrArg (V c main_v8) (funext fun a => Fin.ext ?_)
  match a with
  | ⟨0, _⟩ => show win1_1.index t (0 : Fin 2) * 1600 + 1 * p.val = e.val; omega
  | ⟨1, _⟩ => show win1_1.index t (1 : Fin 2) * 256 + 1 * k.val = k.val; omega

/-- the source nodes' gathered features, -/
theorem combine_xrblk_row (c : Dev nD) (t : Fin cfg1.N) (p : Fin 1600) (k : Fin 128) (e : Fin 400000)
    (he : e.val = 1600 * t.val + p.val) :
    (iblk1 V c 2 t : Vec Ideal S1600x128 .f32) (ix2 p k) = (V c main_v9 : S400000x128.Idx → EReal) (ix2 e k) := by
  obtain ⟨-, -, -, -, e0, e1, -⟩ := combine_blockIndex t
  unfold iblk1
  rw [View.read_apply]
  show V c main_v9 (((cfg1.win 2).blk t).view.emb (ix2 p k)) = V c main_v9 (ix2 e k)
  refine congrArg (V c main_v9) (funext fun a => Fin.ext ?_)
  match a with
  | ⟨0, _⟩ => show win1_2.index t (0 : Fin 2) * 1600 + 1 * p.val = e.val; omega
  | ⟨1, _⟩ => show win1_2.index t (1 : Fin 2) * 128 + 1 * k.val = k.val; omega

/-- the target nodes' gathered features, -/
theorem combine_xcblk_row (c : Dev nD) (t : Fin cfg1.N) (p : Fin 1600) (k : Fin 128) (e : Fin 400000)
    (he : e.val = 1600 * t.val + p.val) :
    (iblk1 V c 3 t : Vec Ideal S1600x128 .f32) (ix2 p k) = (V c main_v10 : S400000x128.Idx → EReal) (ix2 e k) := by
  obtain ⟨-, -, -, -, -, -, e0, e1, -⟩ := combine_blockIndex t
  unfold iblk1
  rw [View.read_apply]
  show V c main_v10 (((cfg1.win 3).blk t).view.emb (ix2 p k)) = V c main_v10 (ix2 e k)
  refine congrArg (V c main_v10) (funext fun a => Fin.ext ?_)
  match a with
  | ⟨0, _⟩ => show win1_3.index t (0 : Fin 2) * 1600 + 1 * p.val = e.val; omega
  | ⟨1, _⟩ => show win1_3.index t (1 : Fin 2) * 128 + 1 * k.val = k.val; omega

/-- and the edge attributes. -/
theorem combine_eablk_row (c : Dev nD) (t : Fin cfg1.N) (p : Fin 1600) (k : Fin 64) (e : Fin 400000)
    (he : e.val = 1600 * t.val + p.val) :
    (iblk1 V c 4 t : Vec Ideal S1600x64 .f32) (ix2 p k) = (V c main_arg2 : S400000x64.Idx → EReal) (ix2 e k) := by
  obtain ⟨-, -, -, -, -, -, -, -, e0, e1, -⟩ := combine_blockIndex t
  unfold iblk1
  rw [View.read_apply]
  show V c main_arg2 (((cfg1.win 4).blk t).view.emb (ix2 p k)) = V c main_arg2 (ix2 e k)
  refine congrArg (V c main_arg2) (funext fun a => Fin.ext ?_)
  match a with
  | ⟨0, _⟩ => show win1_4.index t (0 : Fin 2) * 1600 + 1 * p.val = e.val; omega
  | ⟨1, _⟩ => show win1_4.index t (1 : Fin 2) * 64 + 1 * k.val = k.val; omega

/-- The output weights' one block is the whole matrix. -/
theorem combine_weblk_eq (c : Dev nD) (t : Fin cfg1.N) :
    (iblk1 V c 5 t : Vec Ideal S321x64 .f32) = (V c main_arg11 : S321x64.Idx → EReal) := by
  obtain ⟨-, -, -, -, -, -, -, -, -, -, e0, e1, -⟩ := combine_blockIndex t
  unfold iblk1
  funext y
  rw [View.read_apply]
  show V c main_arg11 (((cfg1.win 5).blk t).view.emb y) = V c main_arg11 y
  refine congrArg (V c main_arg11) (funext fun a => Fin.ext ?_)
  match a with
  | ⟨0, _⟩ => show win1_5.index t (0 : Fin 2) * 321 + 1 * (y 0).val = (y 0).val; omega
  | ⟨1, _⟩ => show win1_5.index t (1 : Fin 2) * 64 + 1 * (y 1).val = (y 1).val; omega

/-- The output bias's one block is the whole vector. -/
theorem combine_beblk_eq (c : Dev nD) (t : Fin cfg1.N) :
    (iblk1 V c 6 t : Vec Ideal S64 .f32) = (V c main_arg12 : S64.Idx → EReal) := by
  obtain ⟨-, -, -, -, -, -, -, -, -, -, -, -, e0, -⟩ := combine_blockIndex t
  unfold iblk1
  funext y
  rw [View.read_apply]
  show V c main_arg12 (((cfg1.win 6).blk t).view.emb y) = V c main_arg12 y
  refine congrArg (V c main_arg12) (funext fun a => Fin.ext ?_)
  match a with
  | ⟨0, _⟩ => show win1_6.index t (0 : Fin 1) * 64 + 1 * (y 0).val = (y 0).val; omega

/-- Entry `(p, q)` of the result's block at point `t` sits at row `1600 t + p`, column `q` of the array. -/
theorem combine_oblk_emb (t : Fin cfg1.N) (p : Fin 1600) (q : Fin 64) (e : Fin 400000) (he : e.val = 1600 * t.val + p.val) :
    ((cfg1.win 7).blk t).view.emb (ix2 p q) = (ix2 e q : S400000x64.Idx) := by
  obtain ⟨-, -, -, -, -, -, -, -, -, -, -, -, -, e0, e1⟩ := combine_blockIndex t
  refine funext fun a => Fin.ext ?_
  match a with
  | ⟨0, _⟩ => show win1_7.index t (0 : Fin 2) * 1600 + 1 * p.val = e.val; omega
  | ⟨1, _⟩ => show win1_7.index t (1 : Fin 2) * 64 + 1 * q.val = q.val; omega

/-! ## What a point writes back -/

/-- The combine over the whole arrays, as one function of the result's index. -/
def combine_fn (c : Dev nD) : S400000x64.Idx → EReal := fun i =>
  Cert.Spec.comb (V c main_v7 : S400000x256.Idx → EReal) (V c main_v8 : S400000x256.Idx → EReal)
    (V c main_v9 : S400000x128.Idx → EReal) (V c main_v10 : S400000x128.Idx → EReal) (V c main_arg2 : S400000x64.Idx → EReal)
    (V c main_arg11 : S321x64.Idx → EReal) (V c main_arg12 : S64.Idx → EReal) (i 0) (i 1)

/-- What point `t` writes back is block `t` of that function: the stored payload at `(p, q)` is the combine of the
    staged blocks at row `p`, whose five row-blocked inputs are row `1600 t + p` of their arrays and whose output
    weights and bias are whole. -/
theorem combine_flushed_eq (c : Dev nD) (t : Fin cfg1.N) :
    (dat1 V c).flushed 7 t = ((cfg1.win 7).blk t).view.read (Elt Ideal) (combine_fn V c) := by
  have hN : cfg1.N = 250 := N_1
  show (cfg1.win 7).cut (grid1.coords t) ((dat1 V c).after 7 t) = _
  rw [after1_7]
  unfold out1_7
  rw [View.canon_unit_zero combine_origin2]
  simp only [View.ld_unit_zero (S := S1600x256) combine_origin2, View.ld_unit_zero (S := S1600x128) combine_origin2,
    View.ld_unit_zero (S := S1600x64) combine_origin2, View.ld_unit_zero (S := S321x64) combine_origin2,
    View.ld_unit_zero (S := S64) combine_origin1]
  funext y
  obtain ⟨p, q, rfl⟩ : ∃ (p : Fin 1600) (q : Fin 64), y = ix2 p q := ⟨y 0, y 1, eq_ix2 y⟩
  have hp : p.val < 1600 := p.isLt
  have ht : t.val < 250 := hN ▸ t.isLt
  rw [View.read_apply]
  show k1_pay1 (F := Ideal) (k1_pay2 (iblk1 V c 0 t) (iblk1 V c 1 t) (iblk1 V c 2 t) (iblk1 V c 3 t) (iblk1 V c 4 t))
      (iblk1 V c 5 t) (iblk1 V c 6 t) (ix2 p q)
    = combine_fn V c (((cfg1.win 7).blk t).view.emb (ix2 p q))
  rw [combine_oblk_emb t p q ⟨1600 * t.val + p.val, by omega⟩ rfl]
  refine (combine_payload (iblk1 V c 0 t) (iblk1 V c 1 t) (iblk1 V c 2 t) (iblk1 V c 3 t) (iblk1 V c 4 t)
    (iblk1 V c 5 t) (iblk1 V c 6 t) p q).trans ?_
  show Cert.Spec.comb (iblk1 V c 0 t : Vec Ideal S1600x256 .f32) (iblk1 V c 1 t : Vec Ideal S1600x256 .f32)
      (iblk1 V c 2 t : Vec Ideal S1600x128 .f32) (iblk1 V c 3 t : Vec Ideal S1600x128 .f32) (iblk1 V c 4 t : Vec Ideal S1600x64 .f32)
      (iblk1 V c 5 t : Vec Ideal S321x64 .f32) (iblk1 V c 6 t : Vec Ideal S64 .f32) p q
    = Cert.Spec.comb (V c main_v7 : S400000x256.Idx → EReal) (V c main_v8 : S400000x256.Idx → EReal)
      (V c main_v9 : S400000x128.Idx → EReal) (V c main_v10 : S400000x128.Idx → EReal) (V c main_arg2 : S400000x64.Idx → EReal)
      (V c main_arg11 : S321x64.Idx → EReal) (V c main_arg12 : S64.Idx → EReal) (⟨1600 * t.val + p.val, by omega⟩ : Fin 400000) q
  rw [combine_weblk_eq V c t, combine_beblk_eq V c t]
  exact Cert.Spec.comb_congr _ _
    (fun k => combine_zrblk_row V c t p k ⟨1600 * t.val + p.val, by omega⟩ rfl)
    (fun k => combine_zcblk_row V c t p k ⟨1600 * t.val + p.val, by omega⟩ rfl)
    (fun k => combine_xrblk_row V c t p k ⟨1600 * t.val + p.val, by omega⟩ rfl)
    (fun k => combine_xcblk_row V c t p k ⟨1600 * t.val + p.val, by omega⟩ rfl)
    (fun k => combine_eablk_row V c t p k ⟨1600 * t.val + p.val, by omega⟩ rfl) q

/-! ## The 250 blocks tile the array -/

/-- An index of the result is in point `t`'s block iff each coordinate is in the block's range on its axis. -/
theorem combine_mem_oblk (t : Fin cfg1.N) (i : S400000x64.Idx) :
    i ∈ ((cfg1.win 7).blk t).view.set ↔ ∀ a : Fin 2, win1_7.index t a * S1600x64.size a ≤ (i a).val ∧ (i a).val < win1_7.index t a * S1600x64.size a + S1600x64.size a := by
  show i ∈ ((View.whole main_v11).slice (win1_7.rect t)).set ↔ _
  rw [View.set_slice_whole, Rect.mem_set_unit]
  exact Iff.rfl

/-- Row `r` lies in the block of point `r / 1600`, which writes back like every point. -/
theorem combine_covered (i : S400000x64.Idx) :
    ∃ t : Fin cfg1.N, (cfg1.win 7).flush t = true ∧ i ∈ ((cfg1.win 7).blk t).view.set := by
  have hi0 : (i 0).val < 400000 := (i 0).isLt
  have hi1 : (i 1).val < 64 := (i 1).isLt
  have hN : cfg1.N = 250 := N_1
  let t : Fin cfg1.N := ⟨(i 0).val / 1600, by rw [hN]; omega⟩
  obtain ⟨-, -, -, -, -, -, -, -, -, -, -, -, -, e0, e1⟩ := combine_blockIndex t
  refine ⟨t, flush1_7 t, ?_⟩
  rw [combine_mem_oblk]
  intro a
  match a with
  | ⟨0, _⟩ =>
    show win1_7.index t (0 : Fin 2) * 1600 ≤ (i 0).val ∧ (i 0).val < win1_7.index t (0 : Fin 2) * 1600 + 1600
    rw [e0]
    show (i 0).val / 1600 * 1600 ≤ (i 0).val ∧ (i 0).val < (i 0).val / 1600 * 1600 + 1600
    omega
  | ⟨1, _⟩ =>
    show win1_7.index t (1 : Fin 2) * 64 ≤ (i 1).val ∧ (i 1).val < win1_7.index t (1 : Fin 2) * 64 + 64
    rw [e1]
    omega

/-! ## The array after the region -/

/-- The result array after all the grid points is the combine of the whole input arrays. -/
theorem combine_array (c : Dev nD) : (dat1 V c).arrAt 7 cfg1.N = combine_fn V c :=
  (dat1 V c).arrAt_eq_of_cover 7 (combine_fn V c) (fun t _ => combine_flushed_eq V c t) combine_covered

/-- Entry by entry. -/
theorem combine_final (V : (c : Dev nD) → (b : Ref sig .tc) → Buf (Elt Ideal) ((c : Thread nD τ).loc b)) (c : Dev nD)
    (e : Fin 400000) (j : Fin 64) :
    (dat1 (F := Ideal) V c).arrAt 7 cfg1.N (ix2 e j)
      = Cert.Spec.comb (V c main_v7) (V c main_v8) (V c main_v9) (V c main_v10) (V c main_arg2) (V c main_arg11) (V c main_arg12) e j :=
  congrFun (combine_array V c) (ix2 e j)

end Cert.KernelIdeal.Hand

end
-- ==== Proof.TakeValue.lean ====
/-
  The four row gathers between the two regions, read at an entry.

  After the node projection the program cuts the edge list (two rows of 400000 node numbers) into its two rows and, four
  times, takes rows of a node table by one of them: the projections by the sources and by the targets, the node
  features by the sources and by the targets.  One such take is, per edge `e` with word `w` in the index row:
  wrap a negative word (`w < 0 ? w + 50000 : w`), test the wrapped word against `0 ≤ · ≤ 49999`, gather the table's row at
  the wrapped word clamped into the table, and keep the gathered row where the test holds (a not-a-number fill elsewhere).
  When `w` is a node number, `0 ≤ w < 50000`, the wrap keeps it, the test holds and the clamp keeps it: entry `(e, j)`
  of the result is entry `(w, j)` of the table.  That is proved once, for a table of any number of columns and any element
  type, and then read off each of the four calls.
-/
import proofs.«405648_j75453985456536_1_alg».proof.Proof.Gen.KernelIdeal.Regions
import proofs.«405648_j75453985456536_1_alg».proof.Proof.Spec
import Idealize.ShloMosaic.Lib.StableHlo.Run
import Idealize.ShloMosaic.Lib.StableHlo.Predicate
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx

/-! ## Gathering whole rows of a matrix -/

section RowGather
variable {α : Type}

/-- The dimension numbers of a gather of whole rows: a table `[N, C]`, a column `[E, 1]` of row numbers, the result
    `[E, C]`; the table's row axis is collapsed and indexed, its column axis is the result's offset axis. -/
abbrev takeRowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, j)` of such a gather is entry `(r, j)` of the table, `r` the `e`-th row number read signed and clamped
    into `[0, N − 1]`. -/
theorem take_gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (takeRowDims N E C wf) x idx (ix2 e j)
      = x (ix2 (⟨min (idx (ix2 e (0 : Fin 1))).toInt.toNat (N - 1), by omega⟩ : Fin N) j) := by
  unfold Host.gather
  congr 1
  funext a
  refine Fin.ext ?_
  match a with
  | ⟨0, _⟩ =>
    -- the row axis: the clamped start, no batching coordinate, no offset coordinate (the axis is collapsed)
    show (takeRowDims N E C wf).start (ix2 e j) idx 0 + (takeRowDims N E C wf).batchCoord (ix2 e j) 0
      + (takeRowDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowDims N E C wf).startIndexMap from List.mem_singleton.mpr rfl)]
    have hsi : (takeRowDims N E C wf).siIdx (ix2 e j) ⟨List.idxOf (0 : Fin 2) (takeRowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column axis: no start (it is not indexed), no batching coordinate, the result's column as the offset
    show (takeRowDims N E C wf).start (ix2 e j) idx 1 + (takeRowDims N E C wf).batchCoord (ix2 e j) 1
      + (takeRowDims N E C wf).offCoord (ix2 e j) 1 = j.val
    have hk : (1 : Fin 2) ∈ (takeRowDims N E C wf).sKept :=
      (GatherDims.mem_sKept _ _).mpr ⟨(by decide : (1 : Fin 2) ∉ [(0 : Fin 2)]), List.not_mem_nil⟩
    rw [GatherDims.batchCoord_eq_zero _ _ _ List.not_mem_nil]
    unfold GatherDims.start GatherDims.offCoord
    rw [dif_neg (show (1 : Fin 2) ∉ (takeRowDims N E C wf).startIndexMap from (by decide : (1 : Fin 2) ∉ [(0 : Fin 2)])),
      dif_pos hk]
    simp only [Nat.zero_add]
    rfl

end RowGather

/-! ## The words: a node number passes the wrap and the range test -/

section Words

/-- A conjunction folded from `1` over bits that are all `1` is `1`. -/
theorem take_foldl_andi_ones {ι : Type} (x : ι → BitVec 1) :
    ∀ l : List ι, (∀ i ∈ l, x i = 1#1) → l.foldl (fun r i => IntOp.andi r (x i)) 1#1 = 1#1
  | [], _ => rfl
  | a :: l, h => by
    have h1 : IntOp.andi (1#1 : BitVec 1) 1#1 = 1#1 := by decide
    rw [List.foldl_cons, h a List.mem_cons_self, h1]
    exact take_foldl_andi_ones x l (fun i hi => h i (List.mem_cons_of_mem _ hi))

/-- The conjunction of an `[E, 1]` column of bits over its unit axis is, at `e`, the one bit of row `e`: `1` when that
    bit is. -/
theorem take_reduce_andi_unit_axis {E : Nat} (x : IVec ⟨2, ![E, 1]⟩ 1) {u : Shape} (init : u.Idx → BitVec 1)
    (h : (⟨2, ![E, 1]⟩ : Shape).ReducesTo [1] ⟨1, ![E]⟩) (hu : 0 < u.numel)
    (hinit : init (Shape.Idx.first hu) = 1#1) (e : Fin E) (hx : x (ix2 e (0 : Fin 1)) = 1#1) :
    Host.reduce IntOp.andi x init h hu (ix1 e) = 1#1 := by
  rw [Host.reduce_eq_foldl, hinit]
  refine take_foldl_andi_ones x _ (fun i hi => ?_)
  -- an index that drops to `e` is `(e, 0)`
  have hd : h.drop i = ix1 e := of_decide_eq_true (List.mem_filter.1 hi).2
  have hv : (h.drop i 0 : Nat) = i 0 := Shape.ReducesTo.drop_apply_val h i 0
  have h0 : i 0 = e := Fin.ext (by rw [← hv, hd]; rfl)
  have h1 : (i 1).val = 0 := by have := idx2_lt1 i; omega
  have hi' : i = ix2 e (0 : Fin 1) := by
    rw [eq_ix2 i, h0]
    congr 1
    exact Fin.ext h1
  rw [hi']; exact hx

/-- A non-negative word is not below zero … -/
theorem take_cmpi_slt_zero (x : BitVec 32) (h0 : 0 ≤ x.toInt) : IntOp.cmpi .slt x 0#32 = 0#1 := by
  have hz : (0#32 : BitVec 32).toInt = 0 := by decide
  have hf : x.slt 0#32 = false := by
    rw [Bool.eq_false_iff]; intro h
    have := BitVec.slt_iff_toInt_lt.1 h; omega
  show BitVec.ofBool (x.slt 0#32) = 0#1
  rw [hf]; rfl

/-- … it is at least zero … -/
theorem take_cmpi_sge_zero (x : BitVec 32) (h0 : 0 ≤ x.toInt) : IntOp.cmpi .sge x 0#32 = 1#1 := by
  have hz : (0#32 : BitVec 32).toInt = 0 := by decide
  have ht : (0#32 : BitVec 32).sle x = true := BitVec.sle_iff_toInt_le.2 (by omega)
  show BitVec.ofBool ((0#32 : BitVec 32).sle x) = 1#1
  rw [ht]; rfl

/-- … and a word below 50000 is at most 49999. -/
theorem take_cmpi_sle_last (x : BitVec 32) (h1 : x.toInt < 50000) : IntOp.cmpi .sle x 49999#32 = 1#1 := by
  have hz : (49999#32 : BitVec 32).toInt = 49999 := by decide
  have ht : x.sle 49999#32 = true := BitVec.sle_iff_toInt_le.2 (by omega)
  show BitVec.ofBool (x.sle 49999#32) = 1#1
  rw [ht]; rfl

end Words

/-! ## One take, read at an entry -/

section OneTake
variable {α : Type} {C : Nat}

/-- The column `[400000, 1]` of wrapped words: `w < 0 ? w + 50000 : w` per edge. -/
abbrev takeCol (hb0 : (⟨0, ![]⟩ : Shape).BroadcastsInDim ⟨1, ![400000]⟩ (![] : Fin 0 → Fin 1))
    (hb1 : (⟨1, ![400000]⟩ : Shape).BroadcastsInDim ⟨2, ![400000, 1]⟩ (![0] : Fin 1 → Fin 2))
    (idx : IVec ⟨1, ![400000]⟩ 32) : IVec ⟨2, ![400000, 1]⟩ 32 :=
  broadcastInDim ⟨2, ![400000, 1]⟩ ![0] hb1
    (select (cmpi .slt idx (broadcastInDim ⟨1, ![400000]⟩ ![] hb0 (constantI ⟨0, ![]⟩ 32 0#32)))
      (addi idx (broadcastInDim ⟨1, ![400000]⟩ ![] hb0 (constantI ⟨0, ![]⟩ 32 50000#32))) idx)

/-- Per edge, whether the wrapped word is a row number of the table: `0 ≤ · ≤ 49999`, the conjunction taken over the
    column's unit axis. -/
abbrev takeMask (hb0 : (⟨0, ![]⟩ : Shape).BroadcastsInDim ⟨1, ![400000]⟩ (![] : Fin 0 → Fin 1))
    (hb1 : (⟨1, ![400000]⟩ : Shape).BroadcastsInDim ⟨2, ![400000, 1]⟩ (![0] : Fin 1 → Fin 2))
    (hb2 : (⟨0, ![]⟩ : Shape).BroadcastsInDim ⟨2, ![400000, 1]⟩ (![] : Fin 0 → Fin 2))
    (hb3 : (⟨1, ![1]⟩ : Shape).BroadcastsInDim ⟨2, ![1, 1]⟩ (![1] : Fin 1 → Fin 2))
    (hb4 : (⟨2, ![1, 1]⟩ : Shape).BroadcastsInDim ⟨2, ![400000, 1]⟩ (![0, 1] : Fin 2 → Fin 2))
    (hr : (⟨2, ![400000, 1]⟩ : Shape).ReducesTo [1] ⟨1, ![400000]⟩) (hu : 0 < (⟨0, ![]⟩ : Shape).numel)
    (idx : IVec ⟨1, ![400000]⟩ 32) : IVec ⟨1, ![400000]⟩ 1 :=
  Host.reduce IntOp.andi
    (andi (cmpi .sge (takeCol hb0 hb1 idx) (broadcastInDim ⟨2, ![400000, 1]⟩ ![] hb2 (constantI ⟨0, ![]⟩ 32 0#32)))
      (cmpi .sle (takeCol hb0 hb1 idx)
        (broadcastInDim ⟨2, ![400000, 1]⟩ ![0, 1] hb4 (broadcastInDim ⟨2, ![1, 1]⟩ ![1] hb3 (constantI ⟨1, ![1]⟩ 32 49999#32)))))
    (constantI ⟨0, ![]⟩ 1 1#1) hr hu

/-- ONE TAKE AT AN ENTRY.  With the edge's word `w` a node number, entry `(e, j)` of the masked gather is the table's
    entry `(w, j)`; the fill is never read. -/
theorem take_composite_apply
    (wf : GatherDims.WF ⟨2, ![50000, C]⟩ ⟨2, ![400000, 1]⟩ ⟨2, ![400000, C]⟩ [1] [0] [] [0] [] 1 ![1, C])
    (hb0 : (⟨0, ![]⟩ : Shape).BroadcastsInDim ⟨1, ![400000]⟩ (![] : Fin 0 → Fin 1))
    (hb1 : (⟨1, ![400000]⟩ : Shape).BroadcastsInDim ⟨2, ![400000, 1]⟩ (![0] : Fin 1 → Fin 2))
    (hb2 : (⟨0, ![]⟩ : Shape).BroadcastsInDim ⟨2, ![400000, 1]⟩ (![] : Fin 0 → Fin 2))
    (hb3 : (⟨1, ![1]⟩ : Shape).BroadcastsInDim ⟨2, ![1, 1]⟩ (![1] : Fin 1 → Fin 2))
    (hb4 : (⟨2, ![1, 1]⟩ : Shape).BroadcastsInDim ⟨2, ![400000, 1]⟩ (![0, 1] : Fin 2 → Fin 2))
    (hr : (⟨2, ![400000, 1]⟩ : Shape).ReducesTo [1] ⟨1, ![400000]⟩) (hu : 0 < (⟨0, ![]⟩ : Shape).numel)
    (hb5 : (⟨1, ![400000]⟩ : Shape).BroadcastsInDim ⟨2, ![400000, C]⟩ (![0] : Fin 1 → Fin 2))
    (x : (⟨2, ![50000, C]⟩ : Shape).Idx → α) (fill : (⟨2, ![400000, C]⟩ : Shape).Idx → α)
    (idx : IVec ⟨1, ![400000]⟩ 32) (e : Fin 400000) (j : Fin C) (w : BitVec 32) (hw : idx (ix1 e) = w)
    (h0 : 0 ≤ w.toInt) (h1 : w.toInt < 50000) :
    select (broadcastInDim ⟨2, ![400000, C]⟩ ![0] hb5 (takeMask hb0 hb1 hb2 hb3 hb4 hr hu idx))
        (Host.gather (takeRowDims 50000 400000 C wf) x (takeCol hb0 hb1 idx)) fill (ix2 e j)
      = x (ix2 (Cert.Spec.node w) j) := by
  -- the wrapped word of edge `e` is `w`
  have hcol : takeCol hb0 hb1 idx (ix2 e (0 : Fin 1)) = w := by
    refine (broadcastInDim_apply _ hb1 _ (ix2 e (0 : Fin 1)) (ix1 e) (fun a => ?_)).trans ?_
    · match a with
      | ⟨0, _⟩ => rfl
    · show Scalar.select (IntOp.cmpi .slt (idx (ix1 e)) 0#32) (IntOp.addi (idx (ix1 e)) 50000#32) (idx (ix1 e)) = w
      rw [hw, take_cmpi_slt_zero w h0, select_zero]
  -- so the test holds at `e`
  have hmask : broadcastInDim ⟨2, ![400000, C]⟩ ![0] hb5 (takeMask hb0 hb1 hb2 hb3 hb4 hr hu idx) (ix2 e j) = 1#1 := by
    refine (broadcastInDim_apply _ hb5 _ (ix2 e j) (ix1 e) (fun a => ?_)).trans ?_
    · match a with
      | ⟨0, _⟩ => rfl
    · refine take_reduce_andi_unit_axis _ _ hr hu rfl e ?_
      show IntOp.andi (IntOp.cmpi .sge (takeCol hb0 hb1 idx (ix2 e (0 : Fin 1))) 0#32)
        (IntOp.cmpi .sle (takeCol hb0 hb1 idx (ix2 e (0 : Fin 1))) 49999#32) = 1#1
      rw [hcol, take_cmpi_sge_zero w h0, take_cmpi_sle_last w h1]
      decide
  rw [select_apply, hmask, select_one, take_gather_rows_apply (by decide) wf x _ e j]
  -- the clamp keeps a node number: both rows are `min w 49999`
  refine congrArg x (congrArg (fun r : Fin 50000 => ix2 r j) (Fin.ext ?_))
  show min (takeCol hb0 hb1 idx (ix2 e (0 : Fin 1))).toInt.toNat (50000 - 1) = min w.toInt.toNat 49999
  rw [hcol]

end OneTake

/-! ## The edge list's two rows -/

/-- Row 0 of the edge list, cut out and flattened, at `e`. -/
theorem take_edge_row0 (ei : IVec ⟨2, ![2, 400000]⟩ 32)
    (hs : (⟨2, ![2, 400000]⟩ : Shape).Slices ![0, 0] ⟨2, ![1, 400000]⟩)
    (hc : (⟨2, ![1, 400000]⟩ : Shape).ShapeCasts ⟨1, ![400000]⟩) (e : Fin 400000) :
    shapeCast ⟨1, ![400000]⟩ (extractStridedSlice ⟨2, ![1, 400000]⟩ ![0, 0] ei hs) hc (ix1 e) = ei (ix2 (0 : Fin 2) e) := by
  refine (shapeCast_apply _ hc (ix1 e) (ix2 (0 : Fin 1) e) ?_).trans ?_
  · rw [Shape.rowMajor_val_two, Shape.rowMajor_val_one]
    show 0 * 400000 + e.val = e.val
    omega
  · refine extractStridedSlice_apply _ _ hs (ix2 (0 : Fin 1) e) (ix2 (0 : Fin 2) e) (fun a => ?_)
    match a with
    | ⟨0, _⟩ => rfl
    | ⟨1, _⟩ => show e.val = 0 + e.val; omega

/-- Row 1 likewise. -/
theorem take_edge_row1 (ei : IVec ⟨2, ![2, 400000]⟩ 32)
    (hs : (⟨2, ![2, 400000]⟩ : Shape).Slices ![1, 0] ⟨2, ![1, 400000]⟩)
    (hc : (⟨2, ![1, 400000]⟩ : Shape).ShapeCasts ⟨1, ![400000]⟩) (e : Fin 400000) :
    shapeCast ⟨1, ![400000]⟩ (extractStridedSlice ⟨2, ![1, 400000]⟩ ![1, 0] ei hs) hc (ix1 e) = ei (ix2 (1 : Fin 2) e) := by
  refine (shapeCast_apply _ hc (ix1 e) (ix2 (0 : Fin 1) e) ?_).trans ?_
  · rw [Shape.rowMajor_val_two, Shape.rowMajor_val_one]
    show 0 * 400000 + e.val = e.val
    omega
  · refine extractStridedSlice_apply _ _ hs (ix2 (0 : Fin 1) e) (ix2 (1 : Fin 2) e) (fun a => ?_)
    match a with
    | ⟨0, _⟩ => rfl
    | ⟨1, _⟩ => show e.val = 0 + e.val; omega

/-! ## The four calls -/

section Calls
variable (m : (ℓ : Loc nD τ sig) → Buf (Elt Ideal) ℓ) (o : Outs (F := Ideal)) (c : Dev nD)

/-- The edge list reaches the gathers as launched. -/
theorem take_V2_arg1 : V2 m o c main_arg1 = m ((c : Thread nD τ).loc main_arg1) :=
  (V2_of m o c main_arg1 (by decide)).trans ((V1_of m c main_arg1 (by decide)).trans rfl)

/-- The node features reach the gathers as launched. -/
theorem take_V2_arg0 : V2 m o c main_arg0 = m ((c : Thread nD τ).loc main_arg0) :=
  (V2_of m o c main_arg0 (by decide)).trans ((V1_of m c main_arg0 (by decide)).trans rfl)

/-- The projections reach the gathers as the first region left them. -/
theorem take_V2_v2 : V2 m o c main_v2 = o 2 main_v2 c := Function.update_self ..

/-- The projections gathered by the edges' sources. -/
theorem take_zr (hin : Cert.Spec.InRange (m ((c : Thread nD τ).loc main_arg1))) (e : Fin 400000) (j : Fin 256) :
    V7 m o c main_v7 (ix2 e j) = o 2 main_v2 c (ix2 (Cert.Spec.row (m ((c : Thread nD τ).loc main_arg1)) e) j) := by
  have hV : V7 m o c main_v7 = V4 m o c main_v7 :=
    (V7_of m o c main_v7 (by decide)).trans ((V6_of m o c main_v7 (by decide)).trans (V5_of m o c main_v7 (by decide)))
  rw [hV]
  show StableHlo.after (hostOps1_1 (F := Ideal)) (V3 m o c) (Proc.devRef .tc main_v7) (ix2 e j) = _
  after_results_simp
  simp only [StableHlo.TRef.ofBuf, StableHlo.TRef.toBuf, cast_eq]
  rw [take_V2_arg1 m o c, take_V2_v2 m o c]
  exact take_composite_apply (C := 256) _ _ _ _ _ _ _ _ _ _ _ _ e j (m ((c : Thread nD τ).loc main_arg1) (ix2 (0 : Fin 2) e))
    (take_edge_row0 _ _ _ e) (hin (ix2 (0 : Fin 2) e)).1 (hin (ix2 (0 : Fin 2) e)).2

/-- The projections gathered by the edges' targets. -/
theorem take_zc (hin : Cert.Spec.InRange (m ((c : Thread nD τ).loc main_arg1))) (e : Fin 400000) (j : Fin 256) :
    V7 m o c main_v8 (ix2 e j) = o 2 main_v2 c (ix2 (Cert.Spec.col (m ((c : Thread nD τ).loc main_arg1)) e) j) := by
  have hV : V7 m o c main_v8 = V5 m o c main_v8 :=
    (V7_of m o c main_v8 (by decide)).trans (V6_of m o c main_v8 (by decide))
  rw [hV]
  show StableHlo.after (hostOps1_2 (F := Ideal)) (V4 m o c) (Proc.devRef .tc main_v8) (ix2 e j) = _
  after_results_simp
  simp only [StableHlo.TRef.ofBuf, StableHlo.TRef.toBuf, cast_eq]
  rw [take_V2_arg1 m o c, take_V2_v2 m o c]
  exact take_composite_apply (C := 256) _ _ _ _ _ _ _ _ _ _ _ _ e j (m ((c : Thread nD τ).loc main_arg1) (ix2 (1 : Fin 2) e))
    (take_edge_row1 _ _ _ e) (hin (ix2 (1 : Fin 2) e)).1 (hin (ix2 (1 : Fin 2) e)).2

/-- The node features gathered by the edges' sources. -/
theorem take_xr (hin : Cert.Spec.InRange (m ((c : Thread nD τ).loc main_arg1))) (e : Fin 400000) (d : Fin 128) :
    V7 m o c main_v9 (ix2 e d)
      = m ((c : Thread nD τ).loc main_arg0) (ix2 (Cert.Spec.row (m ((c : Thread nD τ).loc main_arg1)) e) d) := by
  have hV : V7 m o c main_v9 = V6 m o c main_v9 := V7_of m o c main_v9 (by decide)
  rw [hV]
  show StableHlo.after (hostOps1_3 (F := Ideal)) (V5 m o c) (Proc.devRef .tc main_v9) (ix2 e d) = _
  after_results_simp
  simp only [StableHlo.TRef.ofBuf, StableHlo.TRef.toBuf, cast_eq]
  rw [take_V2_arg1 m o c, take_V2_arg0 m o c]
  exact take_composite_apply (C := 128) _ _ _ _ _ _ _ _ _ _ _ _ e d (m ((c : Thread nD τ).loc main_arg1) (ix2 (0 : Fin 2) e))
    (take_edge_row0 _ _ _ e) (hin (ix2 (0 : Fin 2) e)).1 (hin (ix2 (0 : Fin 2) e)).2

/-- The node features gathered by the edges' targets. -/
theorem take_xc (hin : Cert.Spec.InRange (m ((c : Thread nD τ).loc main_arg1))) (e : Fin 400000) (d : Fin 128) :
    V7 m o c main_v10 (ix2 e d)
      = m ((c : Thread nD τ).loc main_arg0) (ix2 (Cert.Spec.col (m ((c : Thread nD τ).loc main_arg1)) e) d) := by
  show StableHlo.after (hostOps1_4 (F := Ideal)) (V6 m o c) (Proc.devRef .tc main_v10) (ix2 e d) = _
  after_results_simp
  simp only [StableHlo.TRef.ofBuf, StableHlo.TRef.toBuf, cast_eq]
  rw [take_V2_arg1 m o c, take_V2_arg0 m o c]
  exact take_composite_apply (C := 128) _ _ _ _ _ _ _ _ _ _ _ _ e d (m ((c : Thread nD τ).loc main_arg1) (ix2 (1 : Fin 2) e))
    (take_edge_row1 _ _ _ e) (hin (ix2 (1 : Fin 2) e)).1 (hin (ix2 (1 : Fin 2) e)).2

end Calls

end Cert.KernelIdeal.Hand

end
-- ==== Proof.HostConcat.lean ====
/-
  The two host concatenations that run before the node projection, entry by entry.

  The four projection layers' weights, each 128 × 64, are laid side by side into one 128 × 256 matrix, and their four
  biases, each of length 64, end to end into one vector of length 256. So column `64 q + f` of the wide matrix is column
  `f` of the `q`-th layer's weights, and entry `64 q + f` of the long vector is entry `f` of the `q`-th layer's bias.
-/
import proofs.«405648_j75453985456536_1_alg».proof.Proof.Gen.KernelIdeal.Regions
import Idealize.ShloMosaic.Lib.StableHlo.Run
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]

/-! ## What the two arrays hold after the host stretch -/

/-- The wide weight matrix is the four layers' weights joined along the columns. -/
theorem wcat_term (m : (ℓ : Loc nD τ sig) → Buf (Elt F) ℓ) (c : Dev nD) :
    (V1 m c main_v0 : S128x256.Idx → F .f32)
      = concatenate S128x256 1
          [⟨S128x64, m ((c : Thread nD τ).loc main_arg3)⟩, ⟨S128x64, m ((c : Thread nD τ).loc main_arg5)⟩,
           ⟨S128x64, m ((c : Thread nD τ).loc main_arg7)⟩, ⟨S128x64, m ((c : Thread nD τ).loc main_arg9)⟩]
          concatenates_S128x64_S128x64_S128x64_S128x64_S128x256_d1 := by
  show StableHlo.after hostOps0 (V0 m c) (Proc.devRef .tc main_v0) = _
  after_results
  rfl

/-- The long bias vector is the four layers' biases joined end to end. -/
theorem bcat_term (m : (ℓ : Loc nD τ sig) → Buf (Elt F) ℓ) (c : Dev nD) :
    (V1 m c main_v1 : S256.Idx → F .f32)
      = concatenate S256 0
          [⟨S64, m ((c : Thread nD τ).loc main_arg4)⟩, ⟨S64, m ((c : Thread nD τ).loc main_arg6)⟩,
           ⟨S64, m ((c : Thread nD τ).loc main_arg8)⟩, ⟨S64, m ((c : Thread nD τ).loc main_arg10)⟩]
          concatenates_S64_S64_S64_S64_S256_d0 := by
  show StableHlo.after hostOps0 (V0 m c) (Proc.devRef .tc main_v1) = _
  after_results
  rfl

/-! ## The wide weight matrix, block of columns by block of columns

    Columns 0 … 63 are the first layer's, 64 … 127 the second's, 128 … 191 the third's, 192 … 255 the fourth's: the
    piece that holds column `pre + f` is the one with `pre` columns before it, read at column `f`, the row unchanged. -/

theorem wcat_at0 (m : (ℓ : Loc nD τ sig) → Buf (Elt F) ℓ) (c : Dev nD) (k : Fin 128) (f : Fin 64) :
    V1 m c main_v0 (ix2 k (⟨f.val, by omega⟩ : Fin 256)) = m ((c : Thread nD τ).loc main_arg3) (ix2 k f) := by
  rw [wcat_term]
  refine concatenate_apply_piece (1 : Fin S128x256.rank) _ _ (ix2 k (⟨f.val, by omega⟩ : Fin 256)) 0 (by simp) S128x64
    (m ((c : Thread nD τ).loc main_arg3)) rfl rfl 0 rfl (ix2 k f) (fun b hb => ?_) ?_
  · match b with
    | ⟨0, _⟩ => rfl
    | ⟨1, _⟩ => exact absurd rfl hb
  · show 0 + f.val = f.val
    omega

theorem wcat_at1 (m : (ℓ : Loc nD τ sig) → Buf (Elt F) ℓ) (c : Dev nD) (k : Fin 128) (f : Fin 64) :
    V1 m c main_v0 (ix2 k (⟨64 + f.val, by omega⟩ : Fin 256)) = m ((c : Thread nD τ).loc main_arg5) (ix2 k f) := by
  rw [wcat_term]
  refine concatenate_apply_piece (1 : Fin S128x256.rank) _ _ (ix2 k (⟨64 + f.val, by omega⟩ : Fin 256)) 1 (by simp) S128x64
    (m ((c : Thread nD τ).loc main_arg5)) rfl rfl 64 rfl (ix2 k f) (fun b hb => ?_) ?_
  · match b with
    | ⟨0, _⟩ => rfl
    | ⟨1, _⟩ => exact absurd rfl hb
  · rfl

theorem wcat_at2 (m : (ℓ : Loc nD τ sig) → Buf (Elt F) ℓ) (c : Dev nD) (k : Fin 128) (f : Fin 64) :
    V1 m c main_v0 (ix2 k (⟨128 + f.val, by omega⟩ : Fin 256)) = m ((c : Thread nD τ).loc main_arg7) (ix2 k f) := by
  rw [wcat_term]
  refine concatenate_apply_piece (1 : Fin S128x256.rank) _ _ (ix2 k (⟨128 + f.val, by omega⟩ : Fin 256)) 2 (by simp) S128x64
    (m ((c : Thread nD τ).loc main_arg7)) rfl rfl 128 rfl (ix2 k f) (fun b hb => ?_) ?_
  · match b with
    | ⟨0, _⟩ => rfl
    | ⟨1, _⟩ => exact absurd rfl hb
  · rfl

theorem wcat_at3 (m : (ℓ : Loc nD τ sig) → Buf (Elt F) ℓ) (c : Dev nD) (k : Fin 128) (f : Fin 64) :
    V1 m c main_v0 (ix2 k (⟨192 + f.val, by omega⟩ : Fin 256)) = m ((c : Thread nD τ).loc main_arg9) (ix2 k f) := by
  rw [wcat_term]
  refine concatenate_apply_piece (1 : Fin S128x256.rank) _ _ (ix2 k (⟨192 + f.val, by omega⟩ : Fin 256)) 3 (by simp) S128x64
    (m ((c : Thread nD τ).loc main_arg9)) rfl rfl 192 rfl (ix2 k f) (fun b hb => ?_) ?_
  · match b with
    | ⟨0, _⟩ => rfl
    | ⟨1, _⟩ => exact absurd rfl hb
  · rfl

/-! ## The long bias vector, stretch by stretch -/

theorem bcat_at0 (m : (ℓ : Loc nD τ sig) → Buf (Elt F) ℓ) (c : Dev nD) (f : Fin 64) :
    V1 m c main_v1 (ix1 (⟨f.val, by omega⟩ : Fin 256)) = m ((c : Thread nD τ).loc main_arg4) (ix1 f) := by
  rw [bcat_term]
  refine concatenate_apply_piece (0 : Fin S256.rank) _ _ (ix1 (⟨f.val, by omega⟩ : Fin 256)) 0 (by simp) S64
    (m ((c : Thread nD τ).loc main_arg4)) rfl rfl 0 rfl (ix1 f) (fun b hb => ?_) ?_
  · match b with
    | ⟨0, _⟩ => exact absurd rfl hb
  · show 0 + f.val = f.val
    omega

theorem bcat_at1 (m : (ℓ : Loc nD τ sig) → Buf (Elt F) ℓ) (c : Dev nD) (f : Fin 64) :
    V1 m c main_v1 (ix1 (⟨64 + f.val, by omega⟩ : Fin 256)) = m ((c : Thread nD τ).loc main_arg6) (ix1 f) := by
  rw [bcat_term]
  refine concatenate_apply_piece (0 : Fin S256.rank) _ _ (ix1 (⟨64 + f.val, by omega⟩ : Fin 256)) 1 (by simp) S64
    (m ((c : Thread nD τ).loc main_arg6)) rfl rfl 64 rfl (ix1 f) (fun b hb => ?_) ?_
  · match b with
    | ⟨0, _⟩ => exact absurd rfl hb
  · rfl

theorem bcat_at2 (m : (ℓ : Loc nD τ sig) → Buf (Elt F) ℓ) (c : Dev nD) (f : Fin 64) :
    V1 m c main_v1 (ix1 (⟨128 + f.val, by omega⟩ : Fin 256)) = m ((c : Thread nD τ).loc main_arg8) (ix1 f) := by
  rw [bcat_term]
  refine concatenate_apply_piece (0 : Fin S256.rank) _ _ (ix1 (⟨128 + f.val, by omega⟩ : Fin 256)) 2 (by simp) S64
    (m ((c : Thread nD τ).loc main_arg8)) rfl rfl 128 rfl (ix1 f) (fun b hb => ?_) ?_
  · match b with
    | ⟨0, _⟩ => exact absurd rfl hb
  · rfl

theorem bcat_at3 (m : (ℓ : Loc nD τ sig) → Buf (Elt F) ℓ) (c : Dev nD) (f : Fin 64) :
    V1 m c main_v1 (ix1 (⟨192 + f.val, by omega⟩ : Fin 256)) = m ((c : Thread nD τ).loc main_arg10) (ix1 f) := by
  rw [bcat_term]
  refine concatenate_apply_piece (0 : Fin S256.rank) _ _ (ix1 (⟨192 + f.val, by omega⟩ : Fin 256)) 3 (by simp) S64
    (m ((c : Thread nD τ).loc main_arg10)) rfl rfl 192 rfl (ix1 f) (fun b hb => ?_) ?_
  · match b with
    | ⟨0, _⟩ => exact absurd rfl hb
  · rfl

/-! ## The same, with the layer as a variable -/

/-- The `q`-th layer's weights, in the order the layers are laid side by side. -/
def wPiece (m : (ℓ : Loc nD τ sig) → Buf (Elt F) ℓ) (c : Dev nD) (q : Fin 4) : S128x64.Idx → F .f32 :=
  match q with
  | ⟨0, _⟩ => m ((c : Thread nD τ).loc main_arg3)
  | ⟨1, _⟩ => m ((c : Thread nD τ).loc main_arg5)
  | ⟨2, _⟩ => m ((c : Thread nD τ).loc main_arg7)
  | ⟨3, _⟩ => m ((c : Thread nD τ).loc main_arg9)

/-- The `q`-th layer's bias, in the same order. -/
def bPiece (m : (ℓ : Loc nD τ sig) → Buf (Elt F) ℓ) (c : Dev nD) (q : Fin 4) : S64.Idx → F .f32 :=
  match q with
  | ⟨0, _⟩ => m ((c : Thread nD τ).loc main_arg4)
  | ⟨1, _⟩ => m ((c : Thread nD τ).loc main_arg6)
  | ⟨2, _⟩ => m ((c : Thread nD τ).loc main_arg8)
  | ⟨3, _⟩ => m ((c : Thread nD τ).loc main_arg10)

/-- Column `64 q + f` of the wide matrix is column `f` of the `q`-th layer's weights. -/
theorem wcat_at (m : (ℓ : Loc nD τ sig) → Buf (Elt F) ℓ) (c : Dev nD) (k : Fin 128) (q : Fin 4) (f : Fin 64) :
    V1 m c main_v0 (ix2 k (⟨64 * q.val + f.val, by omega⟩ : Fin 256)) = wPiece m c q (ix2 k f) := by
  match q with
  | ⟨0, _⟩ =>
    have e : (⟨64 * 0 + f.val, by omega⟩ : Fin 256) = ⟨f.val, by omega⟩ := Fin.ext (by show 64 * 0 + f.val = f.val; omega)
    show V1 m c main_v0 (ix2 k (⟨64 * 0 + f.val, by omega⟩ : Fin 256)) = _
    rw [e]
    exact wcat_at0 m c k f
  | ⟨1, _⟩ => exact wcat_at1 m c k f
  | ⟨2, _⟩ => exact wcat_at2 m c k f
  | ⟨3, _⟩ => exact wcat_at3 m c k f

/-- Entry `64 q + f` of the long vector is entry `f` of the `q`-th layer's bias. -/
theorem bcat_at (m : (ℓ : Loc nD τ sig) → Buf (Elt F) ℓ) (c : Dev nD) (q : Fin 4) (f : Fin 64) :
    V1 m c main_v1 (ix1 (⟨64 * q.val + f.val, by omega⟩ : Fin 256)) = bPiece m c q (ix1 f) := by
  match q with
  | ⟨0, _⟩ =>
    have e : (⟨64 * 0 + f.val, by omega⟩ : Fin 256) = ⟨f.val, by omega⟩ := Fin.ext (by show 64 * 0 + f.val = f.val; omega)
    show V1 m c main_v1 (ix1 (⟨64 * 0 + f.val, by omega⟩ : Fin 256)) = _
    rw [e]
    exact bcat_at0 m c f
  | ⟨1, _⟩ => exact bcat_at1 m c f
  | ⟨2, _⟩ => exact bcat_at2 m c f
  | ⟨3, _⟩ => exact bcat_at3 m c f

end Cert.KernelIdeal.Hand

end
-- ==== Proof.Bridge.lean ====
/-
  The kernel's formula is the network's formula.

  The kernel projects every node through ONE layer whose 256 output columns are the four 64-column layers side by side,
  gathers rows of that projection (and of the node features) at every edge's endpoints, and assembles the 321 features
  of an edge from the gathered rows.  Column `64 q + f` of the joint layer is column `f` of layer `q` (the sum over the 128
  input features has the same terms); the product of two projections is a product of two numbers that are each a
  maximum with 0, hence non-negative, so `√(max (·, 0))` of it is its `√`; the cosine similarity reads the same rows of
  `x`.  So feature by feature, and then entry by entry of the last layer, both sides are one number.
-/
import proofs.«405648_j75453985456536_1_alg».proof.Proof.Spec

noncomputable section

namespace Cert.Spec

open Idealize.ShloMosaic Idealize.ShloMosaic.ValueIdx
open scoped BigOperators

/-- A layer's output is a maximum with 0. -/
theorem layer_nonneg {N D C : Nat} (x : Mat N D) (w : Mat D C) (b : Row C) (n : Fin N) (j : Fin C) : 0 ≤ layer x w b n j :=
  le_max_right _ _

/-- A column of the joint layer that holds column `f` of a narrower layer's weights and bias computes that layer's
    column `f`. -/
theorem layer_col {N D C C' : Nat} (x : Mat N D) (wc : Mat D C) (bc : Row C) (w : Mat D C') (b : Row C') (n : Fin N)
    (j : Fin C) (f : Fin C') (hw : ∀ k : Fin D, wc (ix2 k j) = w (ix2 k f)) (hb : bc (ix1 j) = b (ix1 f)) :
    layer x wc bc n j = layer x w b n f := by
  unfold layer
  rw [hb, Finset.sum_congr rfl fun k _ => by rw [hw k]]

section

variable (x : Mat 50000 128) (ei : Edges) (ea : Mat 400000 64)
  (w1 : Mat 128 64) (b1 : Row 64) (w2 : Mat 128 64) (b2 : Row 64) (w3 : Mat 128 64) (b3 : Row 64) (w4 : Mat 128 64) (b4 : Row 64)
  (wc : Mat 128 256) (bc : Row 256)
  (hw1 : ∀ (k : Fin 128) (j : Fin 256) (f : Fin 64), j.val = f.val → wc (ix2 k j) = w1 (ix2 k f))
  (hw2 : ∀ (k : Fin 128) (j : Fin 256) (f : Fin 64), j.val = 64 + f.val → wc (ix2 k j) = w2 (ix2 k f))
  (hw3 : ∀ (k : Fin 128) (j : Fin 256) (f : Fin 64), j.val = 128 + f.val → wc (ix2 k j) = w3 (ix2 k f))
  (hw4 : ∀ (k : Fin 128) (j : Fin 256) (f : Fin 64), j.val = 192 + f.val → wc (ix2 k j) = w4 (ix2 k f))
  (hb1 : ∀ (j : Fin 256) (f : Fin 64), j.val = f.val → bc (ix1 j) = b1 (ix1 f))
  (hb2 : ∀ (j : Fin 256) (f : Fin 64), j.val = 64 + f.val → bc (ix1 j) = b2 (ix1 f))
  (hb3 : ∀ (j : Fin 256) (f : Fin 64), j.val = 128 + f.val → bc (ix1 j) = b3 (ix1 f))
  (hb4 : ∀ (j : Fin 256) (f : Fin 64), j.val = 192 + f.val → bc (ix1 j) = b4 (ix1 f))
  (zr zc : Mat 400000 256) (xr xc : Mat 400000 128)
  (hzr : ∀ (e : Fin 400000) (j : Fin 256), zr (ix2 e j) = layer x wc bc (row ei e) j)
  (hzc : ∀ (e : Fin 400000) (j : Fin 256), zc (ix2 e j) = layer x wc bc (col ei e) j)
  (hxr : ∀ (e : Fin 400000) (d : Fin 128), xr (ix2 e d) = x (ix2 (row ei e) d))
  (hxc : ∀ (e : Fin 400000) (d : Fin 128), xc (ix2 e d) = x (ix2 (col ei e) d))

include hw1 hw2 hw3 hw4 hb1 hb2 hb3 hb4 hzr hzc hxr hxc

/-- Feature by feature. -/
theorem feat_eq_featRef (e : Fin 400000) (k : Fin 321) :
    feat zr zc xr xc ea e k
      = featRef (fun i => layer x w1 b1 (i 0) (i 1)) (fun i => layer x w2 b2 (i 0) (i 1)) (fun i => layer x w3 b3 (i 0) (i 1))
          (fun i => layer x w4 b4 (i 0) (i 1)) x ea (row ei e) (col ei e) e k := by
  unfold feat featRef
  by_cases h0 : k.val < 64
  · rw [dif_pos h0, dif_pos h0, hzr]
    exact layer_col x wc bc w1 b1 (row ei e) _ ⟨k.val, h0⟩ (fun d => hw1 d _ _ rfl) (hb1 _ _ rfl)
  rw [dif_neg h0, dif_neg h0]
  by_cases h1 : k.val < 128
  · rw [dif_pos h1, dif_pos h1, hzc]
    exact layer_col x wc bc w2 b2 (col ei e) _ ⟨k.val - 64, by omega⟩ (fun d => hw2 d _ _ (by show k.val = 64 + (k.val - 64); omega))
      (hb2 _ _ (by show k.val = 64 + (k.val - 64); omega))
  rw [dif_neg h1, dif_neg h1]
  by_cases h2 : k.val < 192
  · rw [dif_pos h2, dif_pos h2, hzr, hzc]
    have e1 := layer_col x wc bc w3 b3 (row ei e) (⟨k.val, by omega⟩ : Fin 256) ⟨k.val - 128, by omega⟩
      (fun d => hw3 d _ _ (by show k.val = 128 + (k.val - 128); omega)) (hb3 _ _ (by show k.val = 128 + (k.val - 128); omega))
    have e2 := layer_col x wc bc w3 b3 (col ei e) (⟨k.val, by omega⟩ : Fin 256) ⟨k.val - 128, by omega⟩
      (fun d => hw3 d _ _ (by show k.val = 128 + (k.val - 128); omega)) (hb3 _ _ (by show k.val = 128 + (k.val - 128); omega))
    rw [e1, e2]
  rw [dif_neg h2, dif_neg h2]
  by_cases h3 : k.val < 256
  · rw [dif_pos h3, dif_pos h3, hzr, hzc]
    have e1 := layer_col x wc bc w4 b4 (row ei e) (⟨k.val, by omega⟩ : Fin 256) ⟨k.val - 192, by omega⟩
      (fun d => hw4 d _ _ (by show k.val = 192 + (k.val - 192); omega)) (hb4 _ _ (by show k.val = 192 + (k.val - 192); omega))
    have e2 := layer_col x wc bc w4 b4 (col ei e) (⟨k.val, by omega⟩ : Fin 256) ⟨k.val - 192, by omega⟩
      (fun d => hw4 d _ _ (by show k.val = 192 + (k.val - 192); omega)) (hb4 _ _ (by show k.val = 192 + (k.val - 192); omega))
    rw [e1, e2, max_eq_left (EReal.mul_nonneg (layer_nonneg _ _ _ _ _) (layer_nonneg _ _ _ _ _))]
  rw [dif_neg h3, dif_neg h3]
  by_cases h4 : k.val = 256
  · rw [dif_pos h4, dif_pos h4]
    unfold cosim
    rw [norm_congr (x := xr) (x' := x) (n := e) (n' := row ei e) (fun d => hxr e d),
      norm_congr (x := xc) (x' := x) (n := e) (n' := col ei e) (fun d => hxc e d),
      Finset.sum_congr rfl fun d _ => by rw [hxr e d, hxc e d]]
  rw [dif_neg h4, dif_neg h4]

/-- Entry by entry of the last layer. -/
theorem comb_eq_net (we : Mat 321 64) (be : Row 64) (e : Fin 400000) (j : Fin 64) :
    comb zr zc xr xc ea we be e j = net x ei ea w1 b1 w2 b2 w3 b3 w4 b4 we be e j := by
  unfold comb net
  rw [Finset.sum_congr rfl fun k _ => by
    rw [feat_eq_featRef x ei ea w1 b1 w2 b2 w3 b3 w4 b4 wc bc hw1 hw2 hw3 hw4 hb1 hb2 hb3 hb4 zr zc xr xc hzr hzc hxr hxc e k]]

end

end Cert.Spec

end
-- ==== Proof.KernelValue.lean ====
/-
  The kernel's result, entry by entry, is the network's formula of the argument arrays.

  The result array ends at what the second region's write-backs leave: at edge `e`, column `j`, the combine of row `e` of
  the four gathered arrays, the edge attributes and the output layer.  Under the index range a gathered row is the row
  of the table the edge's endpoint names; the table of projections is what the first region left: one joint layer of
  the node features over the four weight matrices side by side.  So the entry is the combine of rows of the joint
  projection and of the features, which is the network's formula.
-/
import proofs.«405648_j75453985456536_1_alg».proof.Proof.Found
import proofs.«405648_j75453985456536_1_alg».proof.Proof.NodeProjValue
import proofs.«405648_j75453985456536_1_alg».proof.Proof.CombineValue
import proofs.«405648_j75453985456536_1_alg».proof.Proof.TakeValue
import proofs.«405648_j75453985456536_1_alg».proof.Proof.HostConcat
import proofs.«405648_j75453985456536_1_alg».proof.Proof.Bridge

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-! ## Arguments pass through every item unchanged -/

theorem before1_arg0 (c : Dev nD) : V1 m c main_arg0 = m ((c : Thread nD τ).loc main_arg0) :=
  (V1_of m c main_arg0 (by decide)).trans rfl

theorem before2_arg2 (o : Outs (F := Ideal)) (c : Dev nD) : V7 m o c main_arg2 = m ((c : Thread nD τ).loc main_arg2) :=
  (V7_of m o c main_arg2 (by decide)).trans <| (V6_of m o c main_arg2 (by decide)).trans <| (V5_of m o c main_arg2 (by decide)).trans <|
    (V4_of m o c main_arg2 (by decide)).trans <| (V3_of m o c main_arg2 (by decide)).trans <| (V2_of m o c main_arg2 (by decide)).trans <|
    (V1_of m c main_arg2 (by decide)).trans rfl
theorem before2_arg11 (o : Outs (F := Ideal)) (c : Dev nD) : V7 m o c main_arg11 = m ((c : Thread nD τ).loc main_arg11) :=
  (V7_of m o c main_arg11 (by decide)).trans <| (V6_of m o c main_arg11 (by decide)).trans <| (V5_of m o c main_arg11 (by decide)).trans <|
    (V4_of m o c main_arg11 (by decide)).trans <| (V3_of m o c main_arg11 (by decide)).trans <| (V2_of m o c main_arg11 (by decide)).trans <|
    (V1_of m c main_arg11 (by decide)).trans rfl
theorem before2_arg12 (o : Outs (F := Ideal)) (c : Dev nD) : V7 m o c main_arg12 = m ((c : Thread nD τ).loc main_arg12) :=
  (V7_of m o c main_arg12 (by decide)).trans <| (V6_of m o c main_arg12 (by decide)).trans <| (V5_of m o c main_arg12 (by decide)).trans <|
    (V4_of m o c main_arg12 (by decide)).trans <| (V3_of m o c main_arg12 (by decide)).trans <| (V2_of m o c main_arg12 (by decide)).trans <|
    (V1_of m c main_arg12 (by decide)).trans rfl

/-! ## The projected node array, and its gathered rows -/

/-- What the first region left, at node `n`, column `j`: the joint layer of the node features. -/
theorem proj_at (c : Dev nD) (n : Fin 50000) (j : Fin 256) :
    found m 2 main_v2 c (ix2 n j) = Cert.Spec.layer (m ((c : Thread nD τ).loc main_arg0)) (V1 m c main_v0) (V1 m c main_v1) n j := by
  rw [found_proj m c, nodeProj_final (T1 m) c n j]
  show Cert.Spec.layer (V1 m c main_arg0) (V1 m c main_v0) (V1 m c main_v1) n j = _
  rw [before1_arg0]

/-! ## The result -/

/-- The result array after the run: what the second region's write-backs leave. -/
abbrev result (c : Dev nD) : Buf (Elt Ideal) ((c.tc : Thread nD τ).loc main_v11) :=
  (dat1 (F := Ideal) (T7 m (found m)) c).arrAt 7 cfg1.N

/-- The result array at edge `e`, column `j`, under the index range. -/
theorem kernel_at (c : Dev nD) (hin : Cert.Spec.InRange (m ((c : Thread nD τ).loc main_arg1))) (e : Fin 400000) (j : Fin 64) :
    (dat1 (F := Ideal) (T7 m (found m)) c).arrAt 7 cfg1.N (ix2 e j)
      = Cert.Spec.net (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) e j := by
  rw [combine_final (T7 m (found m)) c e j]
  show Cert.Spec.comb (V7 m (found m) c main_v7) (V7 m (found m) c main_v8) (V7 m (found m) c main_v9) (V7 m (found m) c main_v10)
      (V7 m (found m) c main_arg2) (V7 m (found m) c main_arg11) (V7 m (found m) c main_arg12) e j = _
  rw [before2_arg2, before2_arg11, before2_arg12]
  exact Cert.Spec.comb_eq_net (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (V1 m c main_v0) (V1 m c main_v1)
    (fun k j f h => by have hj : j = (⟨f.val, by clear h; omega⟩ : Fin 256) := Fin.ext h; rw [hj]; exact wcat_at0 m c k f)
    (fun k j f h => by have hj : j = (⟨64 + f.val, by clear h; omega⟩ : Fin 256) := Fin.ext h; rw [hj]; exact wcat_at1 m c k f)
    (fun k j f h => by have hj : j = (⟨128 + f.val, by clear h; omega⟩ : Fin 256) := Fin.ext h; rw [hj]; exact wcat_at2 m c k f)
    (fun k j f h => by have hj : j = (⟨192 + f.val, by clear h; omega⟩ : Fin 256) := Fin.ext h; rw [hj]; exact wcat_at3 m c k f)
    (fun j f h => by have hj : j = (⟨f.val, by clear h; omega⟩ : Fin 256) := Fin.ext h; rw [hj]; exact bcat_at0 m c f)
    (fun j f h => by have hj : j = (⟨64 + f.val, by clear h; omega⟩ : Fin 256) := Fin.ext h; rw [hj]; exact bcat_at1 m c f)
    (fun j f h => by have hj : j = (⟨128 + f.val, by clear h; omega⟩ : Fin 256) := Fin.ext h; rw [hj]; exact bcat_at2 m c f)
    (fun j f h => by have hj : j = (⟨192 + f.val, by clear h; omega⟩ : Fin 256) := Fin.ext h; rw [hj]; exact bcat_at3 m c f)
    (V7 m (found m) c main_v7) (V7 m (found m) c main_v8) (V7 m (found m) c main_v9) (V7 m (found m) c main_v10)
    (fun e j => (take_zr m (found m) c hin e j).trans (proj_at m c _ j))
    (fun e j => (take_zc m (found m) c hin e j).trans (proj_at m c _ j))
    (fun e d => take_xr m (found m) c hin e d)
    (fun e d => take_xc m (found m) c hin e d)
    (m ((c : Thread nD τ).loc main_arg11)) (m ((c : Thread nD τ).loc main_arg12)) e j

end Cert.KernelIdeal.Hand

end
-- ==== Proof.RefProj.lean ====
/-
  The reference's four node projections, entry by entry: each is a product of the node features with a 128 × 64 weight
  matrix, plus the bias along every row, floored at zero — one linear layer with a rectifier, at node `n` and feature `f`
  `max (Σ_k x(n,k) · W(k,f) + b(f), 0)` over the extended reals.
-/
import proofs.«405648_j75453985456536_1_alg».proof.Proof.Gen.ReferenceIdeal.Read
import proofs.«405648_j75453985456536_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The first projection at node `n`, feature `f`. The product's entry reads row `n` of the features against column `f` of
    the weights; the bias, laid out as one row and repeated down the rows, reads its entry `f`; the floor is the zero word. -/
theorem ref_proj1 (x0 : (⟨S50000x128, .f32⟩ : BufTy).Contents (Elt Ideal)) (x3 : (⟨S128x64, .f32⟩ : BufTy).Contents (Elt Ideal))
    (x4 : (⟨S64, .f32⟩ : BufTy).Contents (Elt Ideal)) (n : Fin 50000) (f : Fin 64) :
    val_main_v4 (F := Ideal) x0 x3 x4 (ix2 n f) = Cert.Spec.layer x0 x3 x4 n f := by
  have el : ∀ k : Fin 128, lidx_main_v0 (ix2 n f) k = ix2 n k := fun k =>
    funext fun a => Fin.ext (by match a with | ⟨0, _⟩ => rfl | ⟨1, _⟩ => rfl)
  have er : ∀ k : Fin 128, ridx_main_v0 (ix2 n f) k = ix2 k f := fun k =>
    funext fun a => Fin.ext (by match a with | ⟨0, _⟩ => rfl | ⟨1, _⟩ => rfl)
  have eb : idx_main_v1 (idx_main_v2 (ix2 n f)) = ix1 f :=
    funext fun a => Fin.ext (by match a with | ⟨0, _⟩ => rfl)
  rw [val_main_v4_apply, val_main_v3_apply, val_main_v0_apply, val_main_v2_apply, val_main_v1_apply,
    val_main_call0_v0_apply, val_main_call0_cst_apply]
  simp only [el, er, eb]
  unfold Cert.Spec.layer
  show max ((∑ k : Fin 128, x0 (ix2 n k) * x3 (ix2 k f)) + x4 (ix1 f)) (Ideal.ofBits .f32 0x00000000#32) = _
  rw [Ideal.ofBits_zero_f32]

/-- The second projection at node `n`, feature `f`. -/
theorem ref_proj2 (x0 : (⟨S50000x128, .f32⟩ : BufTy).Contents (Elt Ideal)) (x5 : (⟨S128x64, .f32⟩ : BufTy).Contents (Elt Ideal))
    (x6 : (⟨S64, .f32⟩ : BufTy).Contents (Elt Ideal)) (n : Fin 50000) (f : Fin 64) :
    val_main_v9 (F := Ideal) x0 x5 x6 (ix2 n f) = Cert.Spec.layer x0 x5 x6 n f := by
  have el : ∀ k : Fin 128, lidx_main_v5 (ix2 n f) k = ix2 n k := fun k =>
    funext fun a => Fin.ext (by match a with | ⟨0, _⟩ => rfl | ⟨1, _⟩ => rfl)
  have er : ∀ k : Fin 128, ridx_main_v5 (ix2 n f) k = ix2 k f := fun k =>
    funext fun a => Fin.ext (by match a with | ⟨0, _⟩ => rfl | ⟨1, _⟩ => rfl)
  have eb : idx_main_v6 (idx_main_v7 (ix2 n f)) = ix1 f :=
    funext fun a => Fin.ext (by match a with | ⟨0, _⟩ => rfl)
  rw [val_main_v9_apply, val_main_v8_apply, val_main_v5_apply, val_main_v7_apply, val_main_v6_apply,
    val_main_call1_v0_apply, val_main_call1_cst_apply]
  simp only [el, er, eb]
  unfold Cert.Spec.layer
  show max ((∑ k : Fin 128, x0 (ix2 n k) * x5 (ix2 k f)) + x6 (ix1 f)) (Ideal.ofBits .f32 0x00000000#32) = _
  rw [Ideal.ofBits_zero_f32]

/-- The third projection at node `n`, feature `f`. -/
theorem ref_proj3 (x0 : (⟨S50000x128, .f32⟩ : BufTy).Contents (Elt Ideal)) (x7 : (⟨S128x64, .f32⟩ : BufTy).Contents (Elt Ideal))
    (x8 : (⟨S64, .f32⟩ : BufTy).Contents (Elt Ideal)) (n : Fin 50000) (f : Fin 64) :
    val_main_v14 (F := Ideal) x0 x7 x8 (ix2 n f) = Cert.Spec.layer x0 x7 x8 n f := by
  have el : ∀ k : Fin 128, lidx_main_v10 (ix2 n f) k = ix2 n k := fun k =>
    funext fun a => Fin.ext (by match a with | ⟨0, _⟩ => rfl | ⟨1, _⟩ => rfl)
  have er : ∀ k : Fin 128, ridx_main_v10 (ix2 n f) k = ix2 k f := fun k =>
    funext fun a => Fin.ext (by match a with | ⟨0, _⟩ => rfl | ⟨1, _⟩ => rfl)
  have eb : idx_main_v11 (idx_main_v12 (ix2 n f)) = ix1 f :=
    funext fun a => Fin.ext (by match a with | ⟨0, _⟩ => rfl)
  rw [val_main_v14_apply, val_main_v13_apply, val_main_v10_apply, val_main_v12_apply, val_main_v11_apply,
    val_main_call2_v0_apply, val_main_call2_cst_apply]
  simp only [el, er, eb]
  unfold Cert.Spec.layer
  show max ((∑ k : Fin 128, x0 (ix2 n k) * x7 (ix2 k f)) + x8 (ix1 f)) (Ideal.ofBits .f32 0x00000000#32) = _
  rw [Ideal.ofBits_zero_f32]

/-- The fourth projection at node `n`, feature `f`. -/
theorem ref_proj4 (x0 : (⟨S50000x128, .f32⟩ : BufTy).Contents (Elt Ideal)) (x9 : (⟨S128x64, .f32⟩ : BufTy).Contents (Elt Ideal))
    (x10 : (⟨S64, .f32⟩ : BufTy).Contents (Elt Ideal)) (n : Fin 50000) (f : Fin 64) :
    val_main_v19 (F := Ideal) x0 x9 x10 (ix2 n f) = Cert.Spec.layer x0 x9 x10 n f := by
  have el : ∀ k : Fin 128, lidx_main_v15 (ix2 n f) k = ix2 n k := fun k =>
    funext fun a => Fin.ext (by match a with | ⟨0, _⟩ => rfl | ⟨1, _⟩ => rfl)
  have er : ∀ k : Fin 128, ridx_main_v15 (ix2 n f) k = ix2 k f := fun k =>
    funext fun a => Fin.ext (by match a with | ⟨0, _⟩ => rfl | ⟨1, _⟩ => rfl)
  have eb : idx_main_v16 (idx_main_v17 (ix2 n f)) = ix1 f :=
    funext fun a => Fin.ext (by match a with | ⟨0, _⟩ => rfl)
  rw [val_main_v19_apply, val_main_v18_apply, val_main_v15_apply, val_main_v17_apply, val_main_v16_apply,
    val_main_call3_v0_apply, val_main_call3_cst_apply]
  simp only [el, er, eb]
  unfold Cert.Spec.layer
  show max ((∑ k : Fin 128, x0 (ix2 n k) * x9 (ix2 k f)) + x10 (ix1 f)) (Ideal.ofBits .f32 0x00000000#32) = _
  rw [Ideal.ofBits_zero_f32]

end Cert.ReferenceIdeal.RefValue

end
-- ==== Proof.RefValue.lean ====
/-
  The reference's result, read at an edge and an output column, as the network's formula of the argument arrays.

  The reference projects every node four times (a product with a 128 × 64 matrix, a bias, a rectifier), reads the
  two endpoint words of every edge, wraps a negative word by the number of nodes, and takes whole rows of the
  projections and of the node features at those words; a row taken at a word is the row of the node the word
  names once the word is clamped into the table, which is how the specification defines an edge's endpoints.  On
  the domain where every word is a node number the wrap changes nothing.  The 321 features of an edge are the two
  joins of those rows (four blocks of 64 columns, then the cosine and the edge's own 64 attributes), and the
  result is one more product, bias and rectifier over them.  Each stage is read at an index below; the sums over
  the contracted coordinate are the specification's sums term by term, so no law of arithmetic is used beyond
  `0 + s = s` for a sum started from zero.
-/
import proofs.«405648_j75453985456536_1_alg».proof.Proof.Gen.ReferenceIdeal.Run
import proofs.«405648_j75453985456536_1_alg».proof.Proof.Gen.ReferenceIdeal.Read
import proofs.«405648_j75453985456536_1_alg».proof.Proof.Spec
import proofs.«405648_j75453985456536_1_alg».proof.Proof.LibOneAxisContraction
import proofs.«405648_j75453985456536_1_alg».proof.Proof.RefProj
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-! ## Taking whole rows of a table

A table `[N, C]`, a column `[E, 1]` of row numbers, a result `[E, C]`: result row `e` is the table's row at the
`e`-th number, read as a signed integer and clamped into `[0, N − 1]`; the column coordinate passes through. -/

section RowGather
variable {α : Type}

/-- The dimension numbers of taking whole rows: the table's first axis is the one the row numbers index, and it is
    collapsed (one row per number); the second axis is kept whole and is the result's second axis. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE TAKE AT `(e, j)`: the table at row `min (the e-th number) (N − 1)`, the number read signed with a negative
    one reading row 0, and at column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N E C wf) x idx (ix2 e j)
      = x (ix2 ⟨min (idx (ix2 e (0 : Fin 1))).toInt.toNat (N - 1), by omega⟩ j) := by
  unfold Host.gather
  congr 1
  funext a
  refine Fin.ext ?_
  match a with
  | ⟨0, _⟩ =>
    show (rowDims N E C wf).start (ix2 e j) idx 0 + (rowDims N E C wf).batchCoord (ix2 e j) 0
      + (rowDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e j) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e j) idx 1 + (rowDims N E C wf).batchCoord (ix2 e j) 1
      + (rowDims N E C wf).offCoord (ix2 e j) 1 = j.val
    rw [GatherDims.batchCoord_eq_zero _ _ _ List.not_mem_nil]
    have h1 : (1 : Fin 2) ∉ ([0] : List (Fin 2)) := by decide
    unfold GatherDims.start
    rw [dif_neg (show ¬ (1 : Fin 2) ∈ (rowDims N E C wf).startIndexMap from h1)]
    unfold GatherDims.offCoord
    rw [dif_pos ((GatherDims.mem_sKept (rowDims N E C wf) 1).2 ⟨h1, List.not_mem_nil⟩)]
    rw [Nat.zero_add]
    rfl

end RowGather

/-! ## Blocks of columns laid side by side

Four blocks of 64 columns make 256; then 256, one and 64 make 321.  A column of the join lies in exactly one
block, at the column number less the widths of the blocks before it. -/

section Concat
variable {α : Type}

/-- Four blocks of 64 columns side by side, read at row `e`, column `k` of the 256. -/
theorem concat4_apply {E : Nat}
    (a b c d : (⟨2, ![E, 64]⟩ : Shape).Idx → α)
    (h : Shape.Concatenates [(⟨2, ![E, 64]⟩ : Shape), ⟨2, ![E, 64]⟩, ⟨2, ![E, 64]⟩, ⟨2, ![E, 64]⟩] ⟨2, ![E, 256]⟩ 1)
    (e : Fin E) (k : Fin 256) :
    concatenate (⟨2, ![E, 256]⟩ : Shape) 1
        [⟨⟨2, ![E, 64]⟩, a⟩, ⟨⟨2, ![E, 64]⟩, b⟩, ⟨⟨2, ![E, 64]⟩, c⟩, ⟨⟨2, ![E, 64]⟩, d⟩] h (ix2 e k)
      = if h0 : k.val < 64 then a (ix2 e ⟨k.val, h0⟩)
        else if h1 : k.val < 128 then b (ix2 e ⟨k.val - 64, by omega⟩)
        else if h2 : k.val < 192 then c (ix2 e ⟨k.val - 128, by omega⟩)
        else d (ix2 e ⟨k.val - 192, by have := k.isLt; omega⟩) := by
  have hoff : ∀ (q : Fin 64) (b' : Fin (⟨2, ![E, 64]⟩ : Shape).rank),
      b'.cast (rfl : (⟨2, ![E, 64]⟩ : Shape).rank = (⟨2, ![E, 256]⟩ : Shape).rank) ≠ 1 →
      ((ix2 e q) b').val = ((ix2 e k) (b'.cast rfl)).val := by
    intro q b' hb
    match b' with
    | ⟨0, _⟩ => rfl
    | ⟨1, _⟩ => exact absurd rfl hb
  by_cases h0 : k.val < 64
  · rw [dif_pos h0]
    exact concatenate_apply_piece (t := ⟨2, ![E, 256]⟩) 1
      [⟨⟨2, ![E, 64]⟩, a⟩, ⟨⟨2, ![E, 64]⟩, b⟩, ⟨⟨2, ![E, 64]⟩, c⟩, ⟨⟨2, ![E, 64]⟩, d⟩] h (ix2 e k) 0 (Nat.zero_lt_succ _) ⟨2, ![E, 64]⟩ a rfl rfl 0 rfl
      (ix2 e ⟨k.val, h0⟩) (hoff _) (Nat.zero_add _)
  rw [dif_neg h0]
  by_cases h1 : k.val < 128
  · rw [dif_pos h1]
    exact concatenate_apply_piece (t := ⟨2, ![E, 256]⟩) 1
      [⟨⟨2, ![E, 64]⟩, a⟩, ⟨⟨2, ![E, 64]⟩, b⟩, ⟨⟨2, ![E, 64]⟩, c⟩, ⟨⟨2, ![E, 64]⟩, d⟩] h (ix2 e k) 1 (by show 1 < 4; omega) ⟨2, ![E, 64]⟩ b rfl rfl 64 rfl
      (ix2 e ⟨k.val - 64, by omega⟩) (hoff _) (by show 64 + (k.val - 64) = k.val; omega)
  rw [dif_neg h1]
  by_cases h2 : k.val < 192
  · rw [dif_pos h2]
    exact concatenate_apply_piece (t := ⟨2, ![E, 256]⟩) 1
      [⟨⟨2, ![E, 64]⟩, a⟩, ⟨⟨2, ![E, 64]⟩, b⟩, ⟨⟨2, ![E, 64]⟩, c⟩, ⟨⟨2, ![E, 64]⟩, d⟩] h (ix2 e k) 2 (by show 2 < 4; omega) ⟨2, ![E, 64]⟩ c rfl rfl 128 rfl
      (ix2 e ⟨k.val - 128, by omega⟩) (hoff _) (by show 128 + (k.val - 128) = k.val; omega)
  rw [dif_neg h2]
  exact concatenate_apply_piece (t := ⟨2, ![E, 256]⟩) 1
      [⟨⟨2, ![E, 64]⟩, a⟩, ⟨⟨2, ![E, 64]⟩, b⟩, ⟨⟨2, ![E, 64]⟩, c⟩, ⟨⟨2, ![E, 64]⟩, d⟩] h (ix2 e k) 3 (by show 3 < 4; omega) ⟨2, ![E, 64]⟩ d rfl rfl 192 rfl
    (ix2 e ⟨k.val - 192, by have := k.isLt; omega⟩) (hoff _) (by show 192 + (k.val - 192) = k.val; omega)

/-- Blocks of 256, one and 64 columns side by side, read at row `e`, column `k` of the 321. -/
theorem concat3_apply {E : Nat}
    (a : (⟨2, ![E, 256]⟩ : Shape).Idx → α) (b : (⟨2, ![E, 1]⟩ : Shape).Idx → α) (c : (⟨2, ![E, 64]⟩ : Shape).Idx → α)
    (h : Shape.Concatenates [(⟨2, ![E, 256]⟩ : Shape), ⟨2, ![E, 1]⟩, ⟨2, ![E, 64]⟩] ⟨2, ![E, 321]⟩ 1)
    (e : Fin E) (k : Fin 321) :
    concatenate (⟨2, ![E, 321]⟩ : Shape) 1
        [⟨⟨2, ![E, 256]⟩, a⟩, ⟨⟨2, ![E, 1]⟩, b⟩, ⟨⟨2, ![E, 64]⟩, c⟩] h (ix2 e k)
      = if h0 : k.val < 256 then a (ix2 e ⟨k.val, h0⟩)
        else if h1 : k.val = 256 then b (ix2 e (0 : Fin 1))
        else c (ix2 e ⟨k.val - 257, by have := k.isLt; omega⟩) := by
  by_cases h0 : k.val < 256
  · rw [dif_pos h0]
    refine concatenate_apply_piece (t := ⟨2, ![E, 321]⟩) 1
      [⟨⟨2, ![E, 256]⟩, a⟩, ⟨⟨2, ![E, 1]⟩, b⟩, ⟨⟨2, ![E, 64]⟩, c⟩] h (ix2 e k) 0 (Nat.zero_lt_succ _) ⟨2, ![E, 256]⟩ a rfl rfl 0 rfl
      (ix2 e ⟨k.val, h0⟩) ?_ (Nat.zero_add _)
    intro b' hb
    match b' with
    | ⟨0, _⟩ => rfl
    | ⟨1, _⟩ => exact absurd rfl hb
  rw [dif_neg h0]
  by_cases h1 : k.val = 256
  · rw [dif_pos h1]
    refine concatenate_apply_piece (t := ⟨2, ![E, 321]⟩) 1
      [⟨⟨2, ![E, 256]⟩, a⟩, ⟨⟨2, ![E, 1]⟩, b⟩, ⟨⟨2, ![E, 64]⟩, c⟩] h (ix2 e k) 1 (by show 1 < 3; omega) ⟨2, ![E, 1]⟩ b rfl rfl 256 rfl
      (ix2 e (0 : Fin 1)) ?_ (by show 256 + 0 = k.val; omega)
    intro b' hb
    match b' with
    | ⟨0, _⟩ => rfl
    | ⟨1, _⟩ => exact absurd rfl hb
  rw [dif_neg h1]
  refine concatenate_apply_piece (t := ⟨2, ![E, 321]⟩) 1
      [⟨⟨2, ![E, 256]⟩, a⟩, ⟨⟨2, ![E, 1]⟩, b⟩, ⟨⟨2, ![E, 64]⟩, c⟩] h (ix2 e k) 2 (by show 2 < 3; omega) ⟨2, ![E, 64]⟩ c rfl rfl 257 rfl
    (ix2 e ⟨k.val - 257, by have := k.isLt; omega⟩) ?_ (by show 257 + (k.val - 257) = k.val; omega)
  intro b' hb
  match b' with
  | ⟨0, _⟩ => rfl
  | ⟨1, _⟩ => exact absurd rfl hb

end Concat

/-! ## An endpoint word that is a node number is not wrapped -/

/-- `select (w < 0) (w + 50000) w` is `w` for a word that is not negative. -/
theorem wrap_of_nonneg (w : BitVec 32) (h : 0 ≤ w.toInt) :
    Scalar.select (IntOp.cmpi .slt w 0#32) (IntOp.addi w 50000#32) w = w := by
  have hs : w.slt 0#32 = false := by
    unfold BitVec.slt
    exact decide_eq_false (by rw [show (0#32 : BitVec 32).toInt = 0 from rfl]; omega)
  have hc : IntOp.cmpi .slt w 0#32 = 0#1 := by
    unfold IntOp.cmpi
    show BitVec.ofBool (w.slt 0#32) = 0#1
    rw [hs]; rfl
  rw [hc]
  exact select_zero _ _

/-! ## The argument arrays, as functions on indices -/

abbrev NodeArr : Type := (⟨S50000x128, .f32⟩ : BufTy).Contents (Elt Ideal)
abbrev EdgeArr : Type := (⟨S2x400000, .i32⟩ : BufTy).Contents (Elt Ideal)
abbrev AttrArr : Type := (⟨S400000x64, .f32⟩ : BufTy).Contents (Elt Ideal)
abbrev WArr : Type := (⟨S128x64, .f32⟩ : BufTy).Contents (Elt Ideal)
abbrev BArr : Type := (⟨S64, .f32⟩ : BufTy).Contents (Elt Ideal)
abbrev WeArr : Type := (⟨S321x64, .f32⟩ : BufTy).Contents (Elt Ideal)

/-! ## The two row-takes of the program: 64 and 128 columns out of 50000 rows, at 400000 row numbers -/

/-- A row of 64 columns taken at a word is the row of the node the word names. -/
theorem take64_apply {α : Type} (x : S50000x64.Idx → α) (idx : IVec S400000x1 32) (e : Fin 400000) (j : Fin 64) :
    Host.gather gather_S50000x64_S400000x1_S400000x64_1_0_n_n_0_1_164 x idx (ix2 e j)
      = x (ix2 (Cert.Spec.node (idx (ix2 e (0 : Fin 1)))) j) :=
  gather_rows_apply (N := 50000) (E := 400000) (C := 64) (by decide)
    gather_S50000x64_S400000x1_S400000x64_1_0_n_n_0_1_164.wf x idx e j

/-- A row of 128 columns taken at a word is the row of the node the word names. -/
theorem take128_apply {α : Type} (x : S50000x128.Idx → α) (idx : IVec S400000x1 32) (e : Fin 400000) (j : Fin 128) :
    Host.gather gather_S50000x128_S400000x1_S400000x128_1_0_n_n_0_1_1128 x idx (ix2 e j)
      = x (ix2 (Cert.Spec.node (idx (ix2 e (0 : Fin 1)))) j) :=
  gather_rows_apply (N := 50000) (E := 400000) (C := 128) (by decide)
    gather_S50000x128_S400000x1_S400000x128_1_0_n_n_0_1_1128.wf x idx e j

/-! ## The endpoint words: row 0 and row 1 of the edge list, wrapped, as a column of row numbers -/

/-- The slice of row 0 of the edge list, flattened, at `e`: the edge's source word. -/
theorem src_word (x1 : EdgeArr) (e : Fin 400000) :
    val_main_v21 (F := Ideal) x1 (ix1 e) = x1 (ix2 (0 : Fin 2) e) := by
  rw [val_main_v21_apply, val_main_v20_apply]
  refine congrArg x1 (funext fun a => Fin.ext ?_)
  match a with
  | ⟨0, _⟩ => rfl
  | ⟨1, _⟩ => exact Nat.mod_eq_of_lt e.isLt

/-- The slice of row 1 of the edge list, flattened, at `e`: the edge's target word. -/
theorem dst_word (x1 : EdgeArr) (e : Fin 400000) :
    val_main_v23 (F := Ideal) x1 (ix1 e) = x1 (ix2 (1 : Fin 2) e) := by
  rw [val_main_v23_apply, val_main_v22_apply]
  refine congrArg x1 (funext fun a => Fin.ext ?_)
  match a with
  | ⟨0, _⟩ => rfl
  | ⟨1, _⟩ => exact Nat.mod_eq_of_lt e.isLt

/-- The column of source row numbers at `e`: the source word itself, where the words are node numbers. -/
theorem src_start (x1 : EdgeArr) (hin : Cert.Spec.InRange x1) (e : Fin 400000) :
    val_main_v29 (F := Ideal) x1 (ix2 e (0 : Fin 1)) = x1 (ix2 (0 : Fin 2) e) := by
  have hi : idx_main_v29 (ix2 e (0 : Fin 1)) = ix1 e := funext fun a => by
    match a with
    | ⟨0, _⟩ => rfl
  rw [val_main_v29_apply, hi, val_main_v28_apply, val_main_v25_apply, val_main_v27_apply, val_main_v24_apply,
    val_main_v26_apply, val_main_c_apply, val_main_c_0_apply, src_word]
  exact wrap_of_nonneg _ (hin _).1

/-- The column of target row numbers at `e`: the target word itself, where the words are node numbers. -/
theorem dst_start (x1 : EdgeArr) (hin : Cert.Spec.InRange x1) (e : Fin 400000) :
    val_main_v36 (F := Ideal) x1 (ix2 e (0 : Fin 1)) = x1 (ix2 (1 : Fin 2) e) := by
  have hi : idx_main_v36 (ix2 e (0 : Fin 1)) = ix1 e := funext fun a => by
    match a with
    | ⟨0, _⟩ => rfl
  rw [val_main_v36_apply, hi, val_main_v35_apply, val_main_v32_apply, val_main_v34_apply, val_main_v31_apply,
    val_main_v33_apply, val_main_c_1_apply, val_main_c_2_apply, dst_word]
  exact wrap_of_nonneg _ (hin _).1

/-- The program computes the same two columns again before each later take: the same terms under other names. -/
theorem start43_eq (x1 : EdgeArr) : val_main_v43 (F := Ideal) x1 = val_main_v29 (F := Ideal) x1 := rfl
theorem start58_eq (x1 : EdgeArr) : val_main_v58 (F := Ideal) x1 = val_main_v29 (F := Ideal) x1 := rfl
theorem start75_eq (x1 : EdgeArr) : val_main_v75 (F := Ideal) x1 = val_main_v29 (F := Ideal) x1 := rfl
theorem start50_eq (x1 : EdgeArr) : val_main_v50 (F := Ideal) x1 = val_main_v36 (F := Ideal) x1 := rfl
theorem start65_eq (x1 : EdgeArr) : val_main_v65 (F := Ideal) x1 = val_main_v36 (F := Ideal) x1 := rfl
theorem start82_eq (x1 : EdgeArr) : val_main_v82 (F := Ideal) x1 = val_main_v36 (F := Ideal) x1 := rfl

/-! ## The taken rows: a projection's, or the node features', row at the edge's source or target node -/

theorem z1_src (x0 : NodeArr) (x1 : EdgeArr) (x3 : WArr) (x4 : BArr) (hin : Cert.Spec.InRange x1) (e : Fin 400000)
    (f : Fin 64) :
    val_main_v30 (F := Ideal) x0 x1 x3 x4 (ix2 e f) = Cert.Spec.layer x0 x3 x4 (Cert.Spec.row x1 e) f := by
  unfold val_main_v30
  rw [take64_apply, src_start x1 hin e, ref_proj1]
  rfl

theorem z2_dst (x0 : NodeArr) (x1 : EdgeArr) (x5 : WArr) (x6 : BArr) (hin : Cert.Spec.InRange x1) (e : Fin 400000)
    (f : Fin 64) :
    val_main_v37 (F := Ideal) x0 x1 x5 x6 (ix2 e f) = Cert.Spec.layer x0 x5 x6 (Cert.Spec.col x1 e) f := by
  unfold val_main_v37
  rw [take64_apply, dst_start x1 hin e, ref_proj2]
  rfl

theorem z3_src (x0 : NodeArr) (x1 : EdgeArr) (x7 : WArr) (x8 : BArr) (hin : Cert.Spec.InRange x1) (e : Fin 400000)
    (f : Fin 64) :
    val_main_v44 (F := Ideal) x0 x1 x7 x8 (ix2 e f) = Cert.Spec.layer x0 x7 x8 (Cert.Spec.row x1 e) f := by
  unfold val_main_v44
  rw [take64_apply, start43_eq, src_start x1 hin e, ref_proj3]
  rfl

theorem z3_dst (x0 : NodeArr) (x1 : EdgeArr) (x7 : WArr) (x8 : BArr) (hin : Cert.Spec.InRange x1) (e : Fin 400000)
    (f : Fin 64) :
    val_main_v51 (F := Ideal) x0 x1 x7 x8 (ix2 e f) = Cert.Spec.layer x0 x7 x8 (Cert.Spec.col x1 e) f := by
  unfold val_main_v51
  rw [take64_apply, start50_eq, dst_start x1 hin e, ref_proj3]
  rfl

theorem z4_src (x0 : NodeArr) (x1 : EdgeArr) (x9 : WArr) (x10 : BArr) (hin : Cert.Spec.InRange x1) (e : Fin 400000)
    (f : Fin 64) :
    val_main_v59 (F := Ideal) x0 x1 x9 x10 (ix2 e f) = Cert.Spec.layer x0 x9 x10 (Cert.Spec.row x1 e) f := by
  unfold val_main_v59
  rw [take64_apply, start58_eq, src_start x1 hin e, ref_proj4]
  rfl

theorem z4_dst (x0 : NodeArr) (x1 : EdgeArr) (x9 : WArr) (x10 : BArr) (hin : Cert.Spec.InRange x1) (e : Fin 400000)
    (f : Fin 64) :
    val_main_v66 (F := Ideal) x0 x1 x9 x10 (ix2 e f) = Cert.Spec.layer x0 x9 x10 (Cert.Spec.col x1 e) f := by
  unfold val_main_v66
  rw [take64_apply, start65_eq, dst_start x1 hin e, ref_proj4]
  rfl

theorem x_src (x0 : NodeArr) (x1 : EdgeArr) (hin : Cert.Spec.InRange x1) (e : Fin 400000) (d : Fin 128) :
    val_main_v76 (F := Ideal) x0 x1 (ix2 e d) = x0 (ix2 (Cert.Spec.row x1 e) d) := by
  unfold val_main_v76
  rw [take128_apply, start75_eq, src_start x1 hin e]
  rfl

theorem x_dst (x0 : NodeArr) (x1 : EdgeArr) (hin : Cert.Spec.InRange x1) (e : Fin 400000) (d : Fin 128) :
    val_main_v83 (F := Ideal) x0 x1 (ix2 e d) = x0 (ix2 (Cert.Spec.col x1 e) d) := by
  unfold val_main_v83
  rw [take128_apply, start82_eq, dst_start x1 hin e]
  rfl

/-! ## The cosine of the two endpoint rows of the node features -/

theorem norm_src (x0 : NodeArr) (x1 : EdgeArr) (hin : Cert.Spec.InRange x1) (e : Fin 400000) :
    val_main_v86 (F := Ideal) x0 x1 (ix1 e) = Cert.Spec.norm x0 (Cert.Spec.row x1 e) := by
  have hi : ∀ k : Fin 128, idx_main_call4_v1 (ix1 e) k = ix2 e k := fun k => funext fun a => by
    match a with
    | ⟨0, _⟩ => rfl
    | ⟨1, _⟩ => rfl
  rw [val_main_v86_apply, val_main_v84_apply, val_main_call4_v1_apply, val_main_call4_cst_apply, val_main_v85_apply,
    val_main_cst_apply]
  simp only [hi, val_main_call4_v0_apply, x_src x0 x1 hin, Ideal.maximumf_def, Ideal.hostUnary_sqrt_def, Ideal.mulf_def,
    Ideal.ofBits_def, Ideal.ofBits_zero_f32, zero_add]
  rfl

theorem norm_dst (x0 : NodeArr) (x1 : EdgeArr) (hin : Cert.Spec.InRange x1) (e : Fin 400000) :
    val_main_v89 (F := Ideal) x0 x1 (ix1 e) = Cert.Spec.norm x0 (Cert.Spec.col x1 e) := by
  have hi : ∀ k : Fin 128, idx_main_call5_v1 (ix1 e) k = ix2 e k := fun k => funext fun a => by
    match a with
    | ⟨0, _⟩ => rfl
    | ⟨1, _⟩ => rfl
  rw [val_main_v89_apply, val_main_v87_apply, val_main_call5_v1_apply, val_main_call5_cst_apply, val_main_v88_apply,
    val_main_cst_15_apply]
  simp only [hi, val_main_call5_v0_apply, x_dst x0 x1 hin, Ideal.maximumf_def, Ideal.hostUnary_sqrt_def, Ideal.mulf_def,
    Ideal.ofBits_def, Ideal.ofBits_zero_f32, zero_add]
  rfl

theorem dot_rows (x0 : NodeArr) (x1 : EdgeArr) (hin : Cert.Spec.InRange x1) (e : Fin 400000) :
    val_main_v91 (F := Ideal) x0 x1 (ix1 e)
      = ∑ d : Fin 128, x0 (ix2 (Cert.Spec.row x1 e) d) * x0 (ix2 (Cert.Spec.col x1 e) d) := by
  have hi : ∀ k : Fin 128, idx_main_v91 (ix1 e) k = ix2 e k := fun k => funext fun a => by
    match a with
    | ⟨0, _⟩ => rfl
    | ⟨1, _⟩ => rfl
  rw [val_main_v91_apply, val_main_cst_16_apply]
  simp only [hi, val_main_v90_apply, x_src x0 x1 hin, x_dst x0 x1 hin, Ideal.mulf_def, Ideal.ofBits_def,
    Ideal.ofBits_zero_f32, zero_add]

theorem cos_rows (x0 : NodeArr) (x1 : EdgeArr) (hin : Cert.Spec.InRange x1) (e : Fin 400000) :
    val_main_v94 (F := Ideal) x0 x1 (ix2 e (0 : Fin 1))
      = Ideal.div (∑ d : Fin 128, x0 (ix2 (Cert.Spec.row x1 e) d) * x0 (ix2 (Cert.Spec.col x1 e) d))
          (Cert.Spec.norm x0 (Cert.Spec.row x1 e) * Cert.Spec.norm x0 (Cert.Spec.col x1 e)) := by
  have hi : idx_main_v94 (ix2 e (0 : Fin 1)) = ix1 e := funext fun a => by
    match a with
    | ⟨0, _⟩ => rfl
  rw [val_main_v94_apply, hi, val_main_v93_apply, val_main_v92_apply, dot_rows x0 x1 hin e, norm_src x0 x1 hin e,
    norm_dst x0 x1 hin e]
  rfl

/-! ## The 321 features of an edge -/

theorem feat_rows (x0 : NodeArr) (x1 : EdgeArr) (x2 : AttrArr) (x3 : WArr) (x4 : BArr) (x5 : WArr) (x6 : BArr)
    (x7 : WArr) (x8 : BArr) (x9 : WArr) (x10 : BArr) (hin : Cert.Spec.InRange x1) (e : Fin 400000) (k : Fin 321) :
    val_main_v95 (F := Ideal) x0 x1 x2 x3 x4 x5 x6 x7 x8 x9 x10 (ix2 e k)
      = Cert.Spec.featRef (fun i => Cert.Spec.layer x0 x3 x4 (i 0) (i 1)) (fun i => Cert.Spec.layer x0 x5 x6 (i 0) (i 1))
          (fun i => Cert.Spec.layer x0 x7 x8 (i 0) (i 1)) (fun i => Cert.Spec.layer x0 x9 x10 (i 0) (i 1)) x0 x2
          (Cert.Spec.row x1 e) (Cert.Spec.col x1 e) e k := by
  unfold val_main_v95
  rw [concat3_apply]
  by_cases h3 : k.val < 256
  · rw [dif_pos h3]
    unfold val_main_v69
    rw [concat4_apply]
    by_cases h0 : k.val < 64
    · rw [dif_pos h0]
      unfold Cert.Spec.featRef
      rw [dif_pos h0]
      exact z1_src x0 x1 x3 x4 hin e _
    rw [dif_neg h0]
    by_cases h1 : k.val < 128
    · rw [dif_pos h1]
      unfold Cert.Spec.featRef
      rw [dif_neg h0, dif_pos h1]
      exact z2_dst x0 x1 x5 x6 hin e _
    rw [dif_neg h1]
    by_cases h2 : k.val < 192
    · rw [dif_pos h2]
      unfold Cert.Spec.featRef
      rw [dif_neg h0, dif_neg h1, dif_pos h2, val_main_v52_apply, z3_src x0 x1 x7 x8 hin, z3_dst x0 x1 x7 x8 hin]
      rfl
    rw [dif_neg h2]
    unfold Cert.Spec.featRef
    rw [dif_neg h0, dif_neg h1, dif_neg h2, dif_pos h3, val_main_v68_apply, val_main_v67_apply,
      z4_src x0 x1 x9 x10 hin, z4_dst x0 x1 x9 x10 hin]
    rfl
  rw [dif_neg h3]
  have h0 : ¬ k.val < 64 := by omega
  have h1 : ¬ k.val < 128 := by omega
  have h2 : ¬ k.val < 192 := by omega
  by_cases h4 : k.val = 256
  · rw [dif_pos h4]
    unfold Cert.Spec.featRef
    rw [dif_neg h0, dif_neg h1, dif_neg h2, dif_neg h3, dif_pos h4]
    exact cos_rows x0 x1 hin e
  rw [dif_neg h4]
  unfold Cert.Spec.featRef
  rw [dif_neg h0, dif_neg h1, dif_neg h2, dif_neg h3, dif_neg h4]

/-! ## The last layer, and the reference's result -/

theorem out_rows (x0 : NodeArr) (x1 : EdgeArr) (x2 : AttrArr) (x3 : WArr) (x4 : BArr) (x5 : WArr) (x6 : BArr)
    (x7 : WArr) (x8 : BArr) (x9 : WArr) (x10 : BArr) (x11 : WeArr) (x12 : BArr) (hin : Cert.Spec.InRange x1)
    (e : Fin 400000) (j : Fin 64) :
    val_main_v100 (F := Ideal) x0 x1 x2 x3 x4 x5 x6 x7 x8 x9 x10 x11 x12 (ix2 e j)
      = Cert.Spec.net x0 x1 x2 x3 x4 x5 x6 x7 x8 x9 x10 x11 x12 e j := by
  have hl : ∀ k : Fin 321, lidx_main_v96 (ix2 e j) k = ix2 e k := fun k => funext fun a => by
    match a with
    | ⟨0, _⟩ => rfl
    | ⟨1, _⟩ => rfl
  have hr : ∀ k : Fin 321, ridx_main_v96 (ix2 e j) k = ix2 k j := fun k => funext fun a => by
    match a with
    | ⟨0, _⟩ => rfl
    | ⟨1, _⟩ => rfl
  have hb : idx_main_v97 (idx_main_v98 (ix2 e j)) = ix1 j := funext fun a => by
    match a with
    | ⟨0, _⟩ => rfl
  rw [val_main_v100_apply, val_main_v99_apply, val_main_v96_apply, val_main_v98_apply, val_main_v97_apply, hb,
    val_main_call6_v0_apply, val_main_call6_cst_apply]
  simp only [hl, hr, feat_rows x0 x1 x2 x3 x4 x5 x6 x7 x8 x9 x10 hin e, Ideal.maximumf_def, Ideal.addf_def,
    Ideal.ofBits_def, Ideal.ofBits_zero_f32]
  rfl

/-- THE REFERENCE'S RESULT at edge `e`, output column `j`, where every endpoint word is a node number: the network's
    formula of the thirteen argument arrays. -/
theorem ref_at (m : (ℓ : Loc nD τ sig) → Buf (Elt Ideal) ℓ) (c : Dev nD)
    (hin : Cert.Spec.InRange (m ((c.tc : Thread nD τ).loc main_arg1))) (e : Fin 400000) (j : Fin 64) :
    Cert.ReferenceIdeal.Value.res_main_v100 (F := Ideal) m c (ix2 e j)
      = Cert.Spec.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) e j := by
  rw [val_main_v100_eq]
  exact out_rows _ _ _ _ _ _ _ _ _ _ _ _ _ hin e j

end Cert.ReferenceIdeal.RefValue

end
-- ==== Proof.PreDecode.lean ====
/-
  From the precondition to the index range.

  The precondition is a conjunction of fourteen facts about the argument arrays: twelve say that every entry of a float
  array is finite, and the last two say that every word of the edge list is, read signed, at least 0 and below 50000.
  Each of the two is an "all" over the [2, 400000] array of a word comparison: a reduction by "and", from 1, over both
  axes.  A conjunction that is 1 has both conjuncts 1; an "and"-reduction over every axis that is 1 met a 1 at every
  index; and a signed comparison that is 1 at an index orders the two words' signed readings there.  The constants 0 and
  50000 read signed as themselves, so every endpoint of every edge is a node number.
-/
import proofs.«405648_j75453985456536_1_alg».proof.Defs
import proofs.«405648_j75453985456536_1_alg».proof.Proof.Gen.Pre_finite_inputs
import proofs.«405648_j75453985456536_1_alg».proof.Proof.Spec
import Idealize.ShloMosaic.Lib.ReduceAll
import Idealize.ShloMosaic.Lib.StableHlo.Predicate
import Idealize.ShloMosaic.Lib.ValueIdx

noncomputable section

namespace Cert.KernelIdeal.Hand

open Idealize.ShloMosaic Idealize.SL.Sem

/-- The two constants the edge words are compared with, read signed. -/
theorem toInt_zero32 : (0#32 : BitVec 32).toInt = 0 :=
  (StableHlo.Predicate.toInt_ofNat_small 0 (by omega)).trans (by omega)
theorem toInt_nodes32 : (50000#32 : BitVec 32).toInt = 50000 :=
  (StableHlo.Predicate.toInt_ofNat_small 50000 (by omega)).trans (by omega)

/-- The last two conjuncts of the precondition, at one word of the edge list: when the "all" of "word ≥ 0" and the "all"
    of "word < 50000" are both 1, the word at any index reads signed in [0, 50000). -/
theorem word_inRange [Cert.Pre_finite_inputs.Facts] (ei : IVec Cert.Pre_finite_inputs.S2x400000 32)
    (rest : BitVec 1) (i : Cert.Pre_finite_inputs.S2x400000.Idx)
    (e : IntOp.andi
        (IntOp.andi rest
          (Host.reduce IntOp.andi
            (cmpi .sge ei (broadcastInDim Cert.Pre_finite_inputs.S2x400000 ![] Cert.Pre_finite_inputs.Facts.bcast_S_S2x400000
              (constantI Cert.Pre_finite_inputs.S_ 32 0#32)))
            (constantI Cert.Pre_finite_inputs.S_ 1 1#1)
            Cert.Pre_finite_inputs.Facts.reducesTo_S2x400000_S_d0_1 Cert.Pre_finite_inputs.Facts.h_S_ ValueIdx.ix0))
        (Host.reduce IntOp.andi
          (cmpi .slt ei (broadcastInDim Cert.Pre_finite_inputs.S2x400000 ![] Cert.Pre_finite_inputs.Facts.bcast_S_S2x400000
            (constantI Cert.Pre_finite_inputs.S_ 32 50000#32)))
          (constantI Cert.Pre_finite_inputs.S_ 1 1#1)
          Cert.Pre_finite_inputs.Facts.reducesTo_S2x400000_S_d0_1 Cert.Pre_finite_inputs.Facts.h_S_ ValueIdx.ix0) = 1#1) :
    0 ≤ (ei i).toInt ∧ (ei i).toInt < 50000 := by
  -- the scalar shape has one index, so the reduction over both axes gathers every index of the array
  haveI : Subsingleton Cert.Pre_finite_inputs.S_.Idx := ⟨fun a b => funext fun d => d.elim0⟩
  obtain ⟨e1, hlt⟩ := IntOp.andi_eq_one.1 e
  obtain ⟨-, hge⟩ := IntOp.andi_eq_one.1 e1
  have age := Host.reduce_andi_all _ _ _ _ _ hge i
  have alt := Host.reduce_andi_all _ _ _ _ _ hlt i
  have bge : IntOp.cmpi .sge (ei i) (0#32) = 1#1 := age
  have blt : IntOp.cmpi .slt (ei i) (50000#32) = 1#1 := alt
  have cge := IntOp.cmpi_sge.1 bge
  have clt := IntOp.cmpi_slt.1 blt
  rw [toInt_zero32] at cge
  rw [toInt_nodes32] at clt
  exact ⟨cge, clt⟩

/-- THE PRECONDITION DECODED: on every device, every endpoint of every edge is a node number. -/
theorem inRange_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.InRange (m ((c.tc : Thread Cert.KernelIdeal.nD Cert.KernelIdeal.τ).loc Cert.KernelIdeal.main_arg1)) := by
  intro i
  have e := congrFun (h c) ValueIdx.ix0
  dsimp only [Cert.Pre_finite_inputs.fn, Cert.Pre_finite_inputs.fn_part1, Cert.Pre_finite_inputs.fn_part2,
    Cert.Pre_finite_inputs.fn_part3, andi] at e
  exact word_inRange _ _ i e

end Cert.KernelIdeal.Hand

end
-- ==== Proof.lean ====
/-
  The certificate of the edge network: a Pallas program of two regions — a joint linear layer over the nodes, then a
  per-edge combine over gathered rows — against the plain reference, equal over the extended reals.

  Frames.  Each printed program runs as host stretches around two pipeline regions; every region's body is run once
  per grid point on its staged blocks, and the argument arrays pass through every item unchanged (`run_found`, at the
  word level and at the ideal values alike).  The reference has no kernel: its run is its operations composed.

  The idealized kernel is the kernel's own text read at the ideal values (no rewrite was applied), so the kernel is
  trivially its sanctioned idealization.

  Equal results.  Under the precondition every endpoint of every edge is a node number, so each gathered row is the
  row of the table its endpoint names — in the kernel, where a row outside the range would be filled instead, and in
  the reference, where it would be clamped.  The kernel's result array at edge `e`, column `j` is then the network's
  formula of the argument arrays (`kernel_at`), and so is the reference's (`ref_at`); the memories agree on the
  arguments.
-/
import proofs.«405648_j75453985456536_1_alg».proof.Defs
import proofs.«405648_j75453985456536_1_alg».proof.Proof.Gen.Kernel
import proofs.«405648_j75453985456536_1_alg».proof.Proof.Gen.KernelIdeal
import proofs.«405648_j75453985456536_1_alg».proof.Proof.Gen.ReferenceIdeal
import proofs.«405648_j75453985456536_1_alg».proof.Proof.Gen.Pre_finite_inputs
import proofs.«405648_j75453985456536_1_alg».proof.Proof.FoundW
import proofs.«405648_j75453985456536_1_alg».proof.Proof.KernelValue
import proofs.«405648_j75453985456536_1_alg».proof.Proof.RefValue
import proofs.«405648_j75453985456536_1_alg».proof.Proof.PreDecode
import Idealize.ShloMosaic.Adequacy
import Idealize.ShloMosaic.Init

set_option maxRecDepth 16384

noncomputable section

namespace Cert.Proof

open Idealize.ShloMosaic Idealize.SL.Sem Idealize.ShloMosaic.ValueIdx

/-- The word-level program runs to the end and leaves its arguments as launched. -/
theorem frame_k : Cert.frame_Kernel := fun m ρ _ =>
  (θ_run Cert.Kernel.defs _ _).mono (fun _ h c => (h c).2) (Cert.Kernel.Hand.run_found (F := Bits) m ρ)

/-- So does the idealized program. -/
theorem frame_ki : Cert.frame_KernelIdeal := fun m ρ _ =>
  (θ_run Cert.KernelIdeal.defs _ _).mono (fun _ h c => (h c).2) (Cert.KernelIdeal.Hand.run_found (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- From memories agreeing on the arguments both programs end with the same result array: entry by entry the
    network's formula of the arguments. -/
theorem algebraic : Cert.algebraic_KernelIdeal_ReferenceIdeal := by
  intro m ρ m' ρ' hpre hagree
  refine ⟨fun c => Cert.KernelIdeal.Hand.result m c, Cert.KernelIdeal.Hand.run_found (F := Ideal) m ρ, ?_⟩
  refine (θ_run Cert.ReferenceIdeal.defs _ _).mono (fun _ h c => ⟨(h c).1.trans ?_, (h c).2⟩)
    (Cert.ReferenceIdeal.Value.run (F := Ideal) m' ρ')
  have hin := Cert.KernelIdeal.Hand.inRange_of_pre m hpre c
  obtain ⟨h0, h1, h2, h3, h4, h5, h6, h7, h8, h9, h10, h11, h12⟩ := hagree c
  have hin' := hin
  rw [← h1] at hin'
  funext i
  obtain ⟨e, j, rfl⟩ : ∃ (e : Fin 400000) (j : Fin 64), i = ix2 e j := ⟨i 0, i 1, eq_ix2 i⟩
  rw [Cert.ReferenceIdeal.RefValue.ref_at m' c hin' e j, h0, h1, h2, h3, h4, h5, h6, h7, h8, h9, h10, h11, h12]
  exact (Cert.KernelIdeal.Hand.kernel_at m c hin e j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
